-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x12x256x256 : Shape := ⟨4, ![32, 12, 256, 256]⟩
abbrev S12 : Shape := ⟨1, ![12]⟩
abbrev S_ : Shape := ⟨0, ![]⟩

class Facts : Prop where
  bcast_S_S32x12x256x256 : S_.BroadcastsInDim S32x12x256x256 (![] : Fin 0 → Fin S32x12x256x256.rank)
  reducesTo_S32x12x256x256_S_d0_1_2_3 : S32x12x256x256.ReducesTo [0, 1, 2, 3] S_
  h_S_ : 0 < S_.numel
  bcast_S_S12 : S_.BroadcastsInDim S12 (![] : Fin 0 → Fin S12.rank)
  reducesTo_S12_S_d0 : S12.ReducesTo [0] S_

variable [Facts]

def fn_part1 {F : FTy → Type} [FloatOps F] (main_arg4 : FVec F S12 .f32) (main_arg5 : FVec F S12 .f32) (main_arg6 : FVec F S12 .f32) (main_v13 : IVec S_ 1) (main_v16 : IVec S12 1) : IVec S_ 1 :=
  let main_c_5 : IVec S_ 1 := constantI S_ 1 1#1
  let main_v17 : IVec S_ 1 := (fun x v => Host.reduce IntOp.andi x v reducesTo_S12_S_d0 h_S_) main_v16 main_c_5
  let main_v18 : IVec S_ 1 := andi main_v13 main_v17
  let main_v19 : FVec F S12 .f32 := Host.absf main_arg4
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  let main_v24 : FVec F S12 .f32 := Host.absf main_arg5
  let main_cst_8 : FVec F S_ .f32 := constant S_ .f32 0x7F800000#32
  let main_v25 : FVec F S12 .f32 := broadcastInDim S12 ![] bcast_S_S12 main_cst_8
  let main_v26 : IVec S12 1 := cmpf .olt main_v24 main_v25
  let main_c_9 : IVec S_ 1 := constantI S_ 1 1#1
  let main_v27 : IVec S_ 1 := (fun x v => Host.reduce IntOp.andi x v reducesTo_S12_S_d0 h_S_) main_v26 main_c_9
  let main_v28 : IVec S_ 1 := andi main_v23 main_v27
  let main_v29 : FVec F S12 .f32 := Host.absf main_arg6
  let main_cst_10 : FVec F S_ .f32 := constant S_ .f32 0x7F800000#32
  let main_v30 : FVec F S12 .f32 := broadcastInDim S12 ![] bcast_S_S12 main_cst_10
  let main_v31 : IVec S12 1 := cmpf .olt main_v29 main_v30
  let main_c_11 : IVec S_ 1 := constantI S_ 1 1#1
  let main_v32 : IVec S_ 1 := (fun x v => Host.reduce IntOp.andi x v reducesTo_S12_S_d0 h_S_) main_v31 main_c_11
  let main_v33 : IVec S_ 1 := andi main_v28 main_v32
  main_v33

def fn {F : FTy → Type} [FloatOps F] (main_arg0 : FVec F S32x12x256x256 .f32) (main_arg1 : FVec F S12 .f32) (main_arg2 : FVec F S12 .f32) (main_arg3 : FVec F S12 .f32) (main_arg4 : FVec F S12 .f32) (main_arg5 : FVec F S12 .f32) (main_arg6 : FVec F S12 .f32) : IVec S_ 1 :=
  let main_v0 : FVec F S32x12x256x256 .f32 := Host.absf main_arg0
  let main_cst : FVec F S_ .f32 := constant S_ .f32 0x7F800000#32
  let main_v1 : FVec F S32x12x256x256 .f32 := broadcastInDim S32x12x256x256 ![] bcast_S_S32x12x256x256 main_cst
  let main_v2 : IVec S32x12x256x256 1 := cmpf .olt main_v0 main_v1
  let main_c : IVec S_ 1 := constantI S_ 1 1#1
  let main_v3 : IVec S_ 1 := (fun x v => Host.reduce IntOp.andi x v reducesTo_S32x12x256x256_S_d0_1_2_3 h_S_) main_v2 main_c
  let main_v4 : FVec F S12 .f32 := Host.absf main_arg1
  let main_cst_0 : FVec F S_ .f32 := constant S_ .f32 0x7F800000#32
  let main_v5 : FVec F S12 .f32 := broadcastInDim S12 ![] bcast_S_S12 main_cst_0
  let main_v6 : IVec S12 1 := cmpf .olt main_v4 main_v5
  let main_c_1 : IVec S_ 1 := constantI S_ 1 1#1
  let main_v7 : IVec S_ 1 := (fun x v => Host.reduce IntOp.andi x v reducesTo_S12_S_d0 h_S_) main_v6 main_c_1
  let main_v8 : IVec S_ 1 := andi main_v3 main_v7
  let main_v9 : FVec F S12 .f32 := Host.absf main_arg2
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_v14 : FVec F S12 .f32 := Host.absf main_arg3
  let main_cst_4 : FVec F S_ .f32 := constant S_ .f32 0x7F800000#32
  let main_v15 : FVec F S12 .f32 := broadcastInDim S12 ![] bcast_S_S12 main_cst_4
  let main_v16 : IVec S12 1 := cmpf .olt main_v14 main_v15
  fn_part1 (F := F) main_arg4 main_arg5 main_arg6 main_v13 main_v16
-- ==== Kernel.lean ====
abbrev S32x12x256x256 : Shape := ⟨4, ![32, 12, 256, 256]⟩
abbrev S12 : Shape := ⟨1, ![12]⟩
abbrev S2x1x12 : Shape := ⟨3, ![2, 1, 12]⟩
abbrev S1x12x256x256 : Shape := ⟨4, ![1, 12, 256, 256]⟩
abbrev S1x1x12 : Shape := ⟨3, ![1, 1, 12]⟩
abbrev S12x256x256 : Shape := ⟨3, ![12, 256, 256]⟩
abbrev S12x256 : Shape := ⟨2, ![12, 256]⟩
abbrev S2x12 : Shape := ⟨2, ![2, 12]⟩
abbrev S_ : Shape := ⟨0, ![]⟩
abbrev S1x12 : Shape := ⟨2, ![1, 12]⟩
abbrev S6x12 : Shape := ⟨2, ![6, 12]⟩

abbrev nBuf : Space → Nat
  | .hbm => 88
  | .vmem => 12
  | .smem => 0
  | _ => 0

abbrev bufTy : (tb : Table) → Fin (tcTables nBuf tb) → BufTy
  | .hbm, ⟨0, _⟩ => ⟨S32x12x256x256, .f32⟩
  | .hbm, ⟨1, _⟩ => ⟨S12, .f32⟩
  | .hbm, ⟨2, _⟩ => ⟨S12, .f32⟩
  | .hbm, ⟨3, _⟩ => ⟨S12, .f32⟩
  | .hbm, ⟨4, _⟩ => ⟨S12, .f32⟩
  | .hbm, ⟨5, _⟩ => ⟨S12, .f32⟩
  | .hbm, ⟨6, _⟩ => ⟨S12, .f32⟩
  | .hbm, ⟨7, _⟩ => ⟨S2x1x12, .f32⟩
  | .hbm, ⟨8, _⟩ => ⟨S2x1x12, .f32⟩
  | .hbm, ⟨9, _⟩ => ⟨S2x1x12, .f32⟩
  | .hbm, ⟨10, _⟩ => ⟨S2x1x12, .f32⟩
  | .hbm, ⟨11, _⟩ => ⟨S2x1x12, .f32⟩
  | .hbm, ⟨12, _⟩ => ⟨S2x12, .f32⟩
  | .hbm, ⟨13, _⟩ => ⟨S_, .f32⟩
  | .hbm, ⟨14, _⟩ => ⟨S12, .f32⟩
  | .hbm, ⟨15, _⟩ => ⟨S2x12, .f32⟩
  | .hbm, ⟨16, _⟩ => ⟨S_, .f32⟩
  | .hbm, ⟨17, _⟩ => ⟨S12, .f32⟩
  | .hbm, ⟨18, _⟩ => ⟨S2x12, .f32⟩
  | .hbm, ⟨19, _⟩ => ⟨S_, .f32⟩
  | .hbm, ⟨20, _⟩ => ⟨S12, .f32⟩
  | .hbm, ⟨21, _⟩ => ⟨S2x12, .f32⟩
  | .hbm, ⟨22, _⟩ => ⟨S_, .f32⟩
  | .hbm, ⟨23, _⟩ => ⟨S12, .f32⟩
  | .hbm, ⟨24, _⟩ => ⟨S2x12, .f32⟩
  | .hbm, ⟨25, _⟩ => ⟨S_, .f32⟩
  | .hbm, ⟨26, _⟩ => ⟨S12, .f32⟩
  | .hbm, ⟨27, _⟩ => ⟨S_, .f32⟩
  | .hbm, ⟨28, _⟩ => ⟨S12, .f32⟩
  | .hbm, ⟨29, _⟩ => ⟨S12, .f32⟩
  | .hbm, ⟨30, _⟩ => ⟨S_, .f32⟩
  | .hbm, ⟨31, _⟩ => ⟨S12, .f32⟩
  | .hbm, ⟨32, _⟩ => ⟨S12, .i1⟩
  | .hbm, ⟨33, _⟩ => ⟨S12, .f32⟩
  | .hbm, ⟨34, _⟩ => ⟨S_, .f32⟩
  | .hbm, ⟨35, _⟩ => ⟨S_, .f32⟩
  | .hbm, ⟨36, _⟩ => ⟨S12, .f32⟩
  | .hbm, ⟨37, _⟩ => ⟨S12, .f32⟩
  | .hbm, ⟨38, _⟩ => ⟨S12, .f32⟩
  | .hbm, ⟨39, _⟩ => ⟨S12, .f32⟩
  | .hbm, ⟨40, _⟩ => ⟨S12, .f32⟩
  | .hbm, ⟨41, _⟩ => ⟨S_, .f32⟩
  | .hbm, ⟨42, _⟩ => ⟨S12, .f32⟩
  | .hbm, ⟨43, _⟩ => ⟨S12, .f32⟩
  | .hbm, ⟨44, _⟩ => ⟨S_, .f32⟩
  | .hbm, ⟨45, _⟩ => ⟨S12, .f32⟩
  | .hbm, ⟨46, _⟩ => ⟨S12, .i1⟩
  | .hbm, ⟨47, _⟩ => ⟨S_, .f32⟩
  | .hbm, ⟨48, _⟩ => ⟨S_, .f32⟩
  | .hbm, ⟨49, _⟩ => ⟨S12, .f32⟩
  | .hbm, ⟨50, _⟩ => ⟨S12, .f32⟩
  | .hbm, ⟨51, _⟩ => ⟨S12, .f32⟩
  | .hbm, ⟨52, _⟩ => ⟨S12, .f32⟩
  | .hbm, ⟨53, _⟩ => ⟨S_, .f32⟩
  | .hbm, ⟨54, _⟩ => ⟨S12, .f32⟩
  | .hbm, ⟨55, _⟩ => ⟨S12, .f32⟩
  | .hbm, ⟨56, _⟩ => ⟨S12, .f32⟩
  | .hbm, ⟨57, _⟩ => ⟨S12, .f32⟩
  | .hbm, ⟨58, _⟩ => ⟨S12, .f32⟩
  | .hbm, ⟨59, _⟩ => ⟨S12, .f32⟩
  | .hbm, ⟨60, _⟩ => ⟨S12, .f32⟩
  | .hbm, ⟨61, _⟩ => ⟨S12, .f32⟩
  | .hbm, ⟨62, _⟩ => ⟨S12, .f32⟩
  | .hbm, ⟨63, _⟩ => ⟨S12, .f32⟩
  | .hbm, ⟨64, _⟩ => ⟨S12, .f32⟩
  | .hbm, ⟨65, _⟩ => ⟨S12, .f32⟩
  | .hbm, ⟨66, _⟩ => ⟨S12, .f32⟩
  | .hbm, ⟨67, _⟩ => ⟨S_, .f32⟩
  | .hbm, ⟨68, _⟩ => ⟨S12, .f32⟩
  | .hbm, ⟨69, _⟩ => ⟨S12, .i1⟩
  | .hbm, ⟨70, _⟩ => ⟨S12, .f32⟩
  | .hbm, ⟨71, _⟩ => ⟨S12, .f32⟩
  | .hbm, ⟨72, _⟩ => ⟨S12, .f32⟩
  | .hbm, ⟨73, _⟩ => ⟨S_, .f32⟩
  | .hbm, ⟨74, _⟩ => ⟨S12, .f32⟩
  | .hbm, ⟨75, _⟩ => ⟨S12, .f32⟩
  | .hbm, ⟨76, _⟩ => ⟨S12, .f32⟩
  | .hbm, ⟨77, _⟩ => ⟨S12, .f32⟩
  | .hbm, ⟨78, _⟩ => ⟨S12, .f32⟩
  | .hbm, ⟨79, _⟩ => ⟨S12, .f32⟩
  | .hbm, ⟨80, _⟩ => ⟨S12, .f32⟩
  | .hbm, ⟨81, _⟩ => ⟨S1x12, .f32⟩
  | .hbm, ⟨82, _⟩ => ⟨S1x12, .f32⟩
  | .hbm, ⟨83, _⟩ => ⟨S1x12, .f32⟩
  | .hbm, ⟨84, _⟩ => ⟨S1x12, .f32⟩
  | .hbm, ⟨85, _⟩ => ⟨S1x12, .f32⟩
  | .hbm, ⟨86, _⟩ => ⟨S1x12, .f32⟩
  | .hbm, ⟨87, _⟩ => ⟨S6x12, .f32⟩
  | .local _ .vmem, ⟨0, _⟩ => ⟨S1x12x256x256, .f32⟩
  | .local _ .vmem, ⟨1, _⟩ => ⟨S1x12x256x256, .f32⟩
  | .local _ .vmem, ⟨2, _⟩ => ⟨S1x1x12, .f32⟩
  | .local _ .vmem, ⟨3, _⟩ => ⟨S1x1x12, .f32⟩
  | .local _ .vmem, ⟨4, _⟩ => ⟨S1x1x12, .f32⟩
  | .local _ .vmem, ⟨5, _⟩ => ⟨S1x1x12, .f32⟩
  | .local _ .vmem, ⟨6, _⟩ => ⟨S1x1x12, .f32⟩
  | .local _ .vmem, ⟨7, _⟩ => ⟨S1x1x12, .f32⟩
  | .local _ .vmem, ⟨8, _⟩ => ⟨S1x1x12, .f32⟩
  | .local _ .vmem, ⟨9, _⟩ => ⟨S1x1x12, .f32⟩
  | .local _ .vmem, ⟨10, _⟩ => ⟨S1x1x12, .f32⟩
  | .local _ .vmem, ⟨11, _⟩ => ⟨S1x1x12, .f32⟩
  | _, _ => ⟨S32x12x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_7 : Ref sig .tc := ⟨.hbm, 41, rfl⟩
abbrev main_v20 : Ref sig .tc := ⟨.hbm, 42, rfl⟩
abbrev main_v21 : Ref sig .tc := ⟨.hbm, 43, rfl⟩
abbrev main_cst_8 : Ref sig .tc := ⟨.hbm, 44, rfl⟩
abbrev main_v22 : Ref sig .tc := ⟨.hbm, 45, rfl⟩
abbrev main_v23 : Ref sig .tc := ⟨.hbm, 46, rfl⟩
abbrev main_cst_9 : Ref sig .tc := ⟨.hbm, 47, rfl⟩
abbrev main_call1_v0 : Ref sig .tc := ⟨.hbm, 48, rfl⟩
abbrev main_call1_v1 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_10 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_11 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_12 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x12x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x12 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x12 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x1x12_S1x1x12_0_0_0 : ∀ a, (![0, 0, 0] : Fin 3 → Nat) a + S1x1x12.size a ≤ S1x1x12.size a
  h_S1x1x12 : 0 < S1x1x12.numel
  inb_S1x12x256x256_S1x12x256x256_0_0_0_0 : ∀ a, (![0, 0, 0, 0] : Fin 4 → Nat) a + S1x12x256x256.size a ≤ S1x12x256x256.size a
  h_S1x12x256x256 : 0 < S1x12x256x256.numel
  shapeCasts_S1x12x256x256_S12x256x256 : S1x12x256x256.ShapeCasts S12x256x256
  natLt_1_32 : 1 < 32
  reduces_S12x256x256_S12x256 : S12x256x256.Reduces [2] S12x256
  reduces_S12x256_S12 : S12x256.Reduces [1] S12
  shapeCasts_S1x1x12_S1x1x12 : S1x1x12.ShapeCasts S1x1x12
  shapeCasts_S12_S1x1x12 : S12.ShapeCasts S1x1x12
  shapeCasts_S2x1x12_S2x12 : S2x1x12.ShapeCasts S2x12
  reducesTo_S2x12_S12_d0 : S2x12.ReducesTo [0] S12
  h_S_ : 0 < S_.numel
  bcast_S_S12 : S_.BroadcastsInDim S12 (![] : Fin 0 → Fin S12.rank)
  bcast_S12_S1x12_1 : S12.BroadcastsInDim S1x12 (![1] : Fin 1 → Fin S1x12.rank)
  concatenates_S1x12_S1x12_S1x12_S1x12_S1x12_S1x12_S6x12_d0 : Shape.Concatenates [S1x12, S1x12, S1x12, S1x12, S1x12, S1x12] S6x12 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12x256x256.size a ≤ S32x12x256x256.size a
  hwx0_0 : ∀ i : grid0.Coords, EltTy.bits .f32 = 32 ∨ (Rect.block (s := S32x12x256x256) S1x12x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x12.size a ≤ S2x1x12.size a
  hwx0_1 : ∀ i : grid0.Coords, EltTy.bits .f32 = 32 ∨ (Rect.block (s := S2x1x12) S1x1x12.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x12.size a ≤ S2x1x12.size a
  hwx0_2 : ∀ i : grid0.Coords, EltTy.bits .f32 = 32 ∨ (Rect.block (s := S2x1x12) S1x1x12.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x12.size a ≤ S2x1x12.size a
  hwx0_3 : ∀ i : grid0.Coords, EltTy.bits .f32 = 32 ∨ (Rect.block (s := S2x1x12) S1x1x12.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x12.size a ≤ S2x1x12.size a
  hwx0_4 : ∀ i : grid0.Coords, EltTy.bits .f32 = 32 ∨ (Rect.block (s := S2x1x12) S1x1x12.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x12.size a ≤ S2x1x12.size a
  hwx0_5 : ∀ i : grid0.Coords, EltTy.bits .f32 = 32 ∨ (Rect.block (s := S2x1x12) S1x1x12.size (cc0_transform_5 i) (hinb0_5 i)).WholeWords (EltTy.packing .f32)

variable [Facts₀]

abbrev win0_0 : Pipeline.Window sig grid0 :=
  Pipeline.Window.ofSpec (Memref.whole main_arg0) S1x12x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x12.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x12.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x1x12.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S1x1x12.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_4) S1x1x12.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x12x256x256 : Shape := ⟨4, ![32, 12, 256, 256]⟩
abbrev S12 : Shape := ⟨1, ![12]⟩
abbrev S_ : Shape := ⟨0, ![]⟩
abbrev S12x32x256x256 : Shape := ⟨4, ![12, 32, 256, 256]⟩
abbrev S12x2097152 : Shape := ⟨2, ![12, 2097152]⟩
abbrev S1x12 : Shape := ⟨2, ![1, 12]⟩
abbrev S6x12 : Shape := ⟨2, ![6, 12]⟩

abbrev nBuf : Space → Nat
  | .hbm => 108
  | .vmem => 0
  | .smem => 0
  | _ => 0

abbrev bufTy : (tb : Table) → Fin (tcTables nBuf tb) → BufTy
  | .hbm, ⟨0, _⟩ => ⟨S32x12x256x256, .f32⟩
  | .hbm, ⟨1, _⟩ => ⟨S12, .f32⟩
  | .hbm, ⟨2, _⟩ => ⟨S12, .f32⟩
  | .hbm, ⟨3, _⟩ => ⟨S12, .f32⟩
  | .hbm, ⟨4, _⟩ => ⟨S12, .f32⟩
  | .hbm, ⟨5, _⟩ => ⟨S12, .f32⟩
  | .hbm, ⟨6, _⟩ => ⟨S12, .f32⟩
  | .hbm, ⟨7, _⟩ => ⟨S_, .f32⟩
  | .hbm, ⟨8, _⟩ => ⟨S32x12x256x256, .f32⟩
  | .hbm, ⟨9, _⟩ => ⟨S32x12x256x256, .f32⟩
  | .hbm, ⟨10, _⟩ => ⟨S_, .f32⟩
  | .hbm, ⟨11, _⟩ => ⟨S32x12x256x256, .f32⟩
  | .hbm, ⟨12, _⟩ => ⟨S32x12x256x256, .i1⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S32x12x256x256, .f32⟩
  | .hbm, ⟨17, _⟩ => ⟨S32x12x256x256, .f32⟩
  | .hbm, ⟨18, _⟩ => ⟨S_, .f32⟩
  | .hbm, ⟨19, _⟩ => ⟨S32x12x256x256, .f32⟩
  | .hbm, ⟨20, _⟩ => ⟨S32x12x256x256, .f32⟩
  | .hbm, ⟨21, _⟩ => ⟨S12x32x256x256, .f32⟩
  | .hbm, ⟨22, _⟩ => ⟨S12x2097152, .f32⟩
  | .hbm, ⟨23, _⟩ => ⟨S12x32x256x256, .i1⟩
  | .hbm, ⟨24, _⟩ => ⟨S12x2097152, .i1⟩
  | .hbm, ⟨25, _⟩ => ⟨S12x2097152, .f32⟩
  | .hbm, ⟨26, _⟩ => ⟨S_, .f32⟩
  | .hbm, ⟨27, _⟩ => ⟨S12, .f32⟩
  | .hbm, ⟨28, _⟩ => ⟨S12x2097152, .f32⟩
  | .hbm, ⟨29, _⟩ => ⟨S_, .f32⟩
  | .hbm, ⟨30, _⟩ => ⟨S12, .f32⟩
  | .hbm, ⟨31, _⟩ => ⟨S12x2097152, .f32⟩
  | .hbm, ⟨32, _⟩ => ⟨S12x2097152, .f32⟩
  | .hbm, ⟨33, _⟩ => ⟨S_, .f32⟩
  | .hbm, ⟨34, _⟩ => ⟨S12, .f32⟩
  | .hbm, ⟨35, _⟩ => ⟨S_, .f32⟩
  | .hbm, ⟨36, _⟩ => ⟨S12, .f32⟩
  | .hbm, ⟨37, _⟩ => ⟨S12, .f32⟩
  | .hbm, ⟨38, _⟩ => ⟨S_, .f32⟩
  | .hbm, ⟨39, _⟩ => ⟨S12, .f32⟩
  | .hbm, ⟨40, _⟩ => ⟨S12, .i1⟩
  | .hbm, ⟨41, _⟩ => ⟨S12, .f32⟩
  | .hbm, ⟨42, _⟩ => ⟨S_, .f32⟩
  | .hbm, ⟨43, _⟩ => ⟨S_, .f32⟩
  | .hbm, ⟨44, _⟩ => ⟨S12, .f32⟩
  | .hbm, ⟨45, _⟩ => ⟨S12, .f32⟩
  | .hbm, ⟨46, _⟩ => ⟨S12, .f32⟩
  | .hbm, ⟨47, _⟩ => ⟨S12, .f32⟩
  | .hbm, ⟨48, _⟩ => ⟨S12, .f32⟩
  | .hbm, ⟨49, _⟩ => ⟨S_, .f32⟩
  | .hbm, ⟨50, _⟩ => ⟨S12, .f32⟩
  | .hbm, ⟨51, _⟩ => ⟨S12, .f32⟩
  | .hbm, ⟨52, _⟩ => ⟨S_, .f32⟩
  | .hbm, ⟨53, _⟩ => ⟨S12, .f32⟩
  | .hbm, ⟨54, _⟩ => ⟨S12, .i1⟩
  | .hbm, ⟨55, _⟩ => ⟨S_, .f32⟩
  | .hbm, ⟨56, _⟩ => ⟨S_, .f32⟩
  | .hbm, ⟨57, _⟩ => ⟨S12, .f32⟩
  | .hbm, ⟨58, _⟩ => ⟨S12, .f32⟩
  | .hbm, ⟨59, _⟩ => ⟨S_, .f32⟩
  | .hbm, ⟨60, _⟩ => ⟨S_, .f32⟩
  | .hbm, ⟨61, _⟩ => ⟨S12x2097152, .f32⟩
  | .hbm, ⟨62, _⟩ => ⟨S12x2097152, .f32⟩
  | .hbm, ⟨63, _⟩ => ⟨S_, .f32⟩
  | .hbm, ⟨64, _⟩ => ⟨S12, .f32⟩
  | .hbm, ⟨65, _⟩ => ⟨S_, .f32⟩
  | .hbm, ⟨66, _⟩ => ⟨S_, .f32⟩
  | .hbm, ⟨67, _⟩ => ⟨S12x2097152, .f32⟩
  | .hbm, ⟨68, _⟩ => ⟨S12x2097152, .f32⟩
  | .hbm, ⟨69, _⟩ => ⟨S_, .f32⟩
  | .hbm, ⟨70, _⟩ => ⟨S12, .f32⟩
  | .hbm, ⟨71, _⟩ => ⟨S12, .f32⟩
  | .hbm, ⟨72, _⟩ => ⟨S12, .f32⟩
  | .hbm, ⟨73, _⟩ => ⟨S_, .f32⟩
  | .hbm, ⟨74, _⟩ => ⟨S12, .f32⟩
  | .hbm, ⟨75, _⟩ => ⟨S12, .f32⟩
  | .hbm, ⟨76, _⟩ => ⟨S12, .f32⟩
  | .hbm, ⟨77, _⟩ => ⟨S12, .f32⟩
  | .hbm, ⟨78, _⟩ => ⟨S12, .f32⟩
  | .hbm, ⟨79, _⟩ => ⟨S12, .f32⟩
  | .hbm, ⟨80, _⟩ => ⟨S12, .f32⟩
  | .hbm, ⟨81, _⟩ => ⟨S12, .f32⟩
  | .hbm, ⟨82, _⟩ => ⟨S12, .f32⟩
  | .hbm, ⟨83, _⟩ => ⟨S12, .f32⟩
  | .hbm, ⟨84, _⟩ => ⟨S12, .f32⟩
  | .hbm, ⟨85, _⟩ => ⟨S12, .f32⟩
  | .hbm, ⟨86, _⟩ => ⟨S12, .f32⟩
  | .hbm, ⟨87, _⟩ => ⟨S_, .f32⟩
  | .hbm, ⟨88, _⟩ => ⟨S12, .f32⟩
  | .hbm, ⟨89, _⟩ => ⟨S12, .i1⟩
  | .hbm, ⟨90, _⟩ => ⟨S12, .f32⟩
  | .hbm, ⟨91, _⟩ => ⟨S12, .f32⟩
  | .hbm, ⟨92, _⟩ => ⟨S12, .f32⟩
  | .hbm, ⟨93, _⟩ => ⟨S_, .f32⟩
  | .hbm, ⟨94, _⟩ => ⟨S12, .f32⟩
  | .hbm, ⟨95, _⟩ => ⟨S12, .f32⟩
  | .hbm, ⟨96, _⟩ => ⟨S12, .f32⟩
  | .hbm, ⟨97, _⟩ => ⟨S12, .f32⟩
  | .hbm, ⟨98, _⟩ => ⟨S12, .f32⟩
  | .hbm, ⟨99, _⟩ => ⟨S12, .f32⟩
  | .hbm, ⟨100, _⟩ => ⟨S12, .f32⟩
  | .hbm, ⟨101, _⟩ => ⟨S1x12, .f32⟩
  | .hbm, ⟨102, _⟩ => ⟨S1x12, .f32⟩
  | .hbm, ⟨103, _⟩ => ⟨S1x12, .f32⟩
  | .hbm, ⟨104, _⟩ => ⟨S1x12, .f32⟩
  | .hbm, ⟨105, _⟩ => ⟨S1x12, .f32⟩
  | .hbm, ⟨106, _⟩ => ⟨S1x12, .f32⟩
  | .hbm, ⟨107, _⟩ => ⟨S6x12, .f32⟩
  | _, _ => ⟨S32x12x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_cst_6 : Ref sig .tc := ⟨.hbm, 35, rfl⟩
abbrev main_v16 : Ref sig .tc := ⟨.hbm, 36, rfl⟩
abbrev main_v17 : Ref sig .tc := ⟨.hbm, 37, rfl⟩
abbrev main_cst_7 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_8 : Ref sig .tc := ⟨.hbm, 42, rfl⟩
abbrev main_call1_v0 : Ref sig .tc := ⟨.hbm, 43, rfl⟩
abbrev main_call1_v1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_9 : Ref sig .tc := ⟨.hbm, 49, rfl⟩
abbrev main_v25 : Ref sig .tc := ⟨.hbm, 50, rfl⟩
abbrev main_v26 : Ref sig .tc := ⟨.hbm, 51, rfl⟩
abbrev main_cst_10 : Ref sig .tc := ⟨.hbm, 52, rfl⟩
abbrev main_v27 : Ref sig .tc := ⟨.hbm, 53, rfl⟩
abbrev main_v28 : Ref sig .tc := ⟨.hbm, 54, rfl⟩
abbrev main_cst_11 : Ref sig .tc := ⟨.hbm, 55, rfl⟩
abbrev main_call2_v0 : Ref sig .tc := ⟨.hbm, 56, rfl⟩
abbrev main_call2_v1 : Ref sig .tc := ⟨.hbm, 57, rfl⟩
abbrev main_v29 : Ref sig .tc := ⟨.hbm, 58, rfl⟩
abbrev main_cst_12 : Ref sig .tc := ⟨.hbm, 59, rfl⟩
abbrev main_call3_v0 : Ref sig .tc := ⟨.hbm, 60, rfl⟩
abbrev main_call3_v1 : Ref sig .tc := ⟨.hbm, 61, rfl⟩
abbrev main_v30 : Ref sig .tc := ⟨.hbm, 62, rfl⟩
abbrev main_cst_13 : Ref sig .tc := ⟨.hbm, 63, rfl⟩
abbrev main_v31 : Ref sig .tc := ⟨.hbm, 64, rfl⟩
abbrev main_cst_14 : Ref sig .tc := ⟨.hbm, 65, rfl⟩
abbrev main_call4_v0 : Ref sig .tc := ⟨.hbm, 66, rfl⟩
abbrev main_call4_v1 : Ref sig .tc := ⟨.hbm, 67, rfl⟩
abbrev main_v32 : Ref sig .tc := ⟨.hbm, 68, rfl⟩
abbrev main_cst_15 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_16 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_17 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_18 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩

abbrev nD : Nat := 1
abbrev τ : Topo := Topo.v7x

variable {F : FTy → Type} [FloatOps F]

class Facts₀ : Prop where
  bcast_S_S32x12x256x256 : S_.BroadcastsInDim S32x12x256x256 (![] : Fin 0 → Fin S32x12x256x256.rank)
  transposes_S32x12x256x256_S12x32x256x256_1_0_2_3 : S32x12x256x256.Transposes [1, 0, 2, 3] S12x32x256x256
  shapeCasts_S12x32x256x256_S12x2097152 : S12x32x256x256.ShapeCasts S12x2097152
  reducesTo_S12x2097152_S12_d1 : S12x2097152.ReducesTo [1] S12
  h_S_ : 0 < S_.numel
  bcast_S_S12 : S_.BroadcastsInDim S12 (![] : Fin 0 → Fin S12.rank)
  bcast_S_S12x2097152 : S_.BroadcastsInDim S12x2097152 (![] : Fin 0 → Fin S12x2097152.rank)
  bcast_S12_S1x12_1 : S12.BroadcastsInDim S1x12 (![1] : Fin 1 → Fin S1x12.rank)
  concatenates_S1x12_S1x12_S1x12_S1x12_S1x12_S1x12_S6x12_d0 : Shape.Concatenates [S1x12, S1x12, S1x12, S1x12, S1x12, S1x12] S6x12 0

variable [Facts₀]

class Facts : Prop extends Facts₀ where

variable [Facts]
-- ==== Proof.FrameKernelShared.lean ====
/-
  The frame of the program, first part: what its two control cases share.

  The program is one kernel region followed by host operations. The region walks a grid of 2 × 16 points; point
  (g, j) loads batch element 16·g + j (all twelve channels) and updates five per-channel accumulators that live in the
  five output windows' blocks, block g of each: at j = 0 the accumulators are reset, at every j the element's moments
  are folded in; a block is written back after its last point, j = 15. The host operations after the region read the
  five output arrays and the six small arguments, write only buffers of their own, and allocate nothing; so the
  argument arrays end as they began.

  Here: the buffer contents the region starts from; the program as "region, then the later lines"; that the later
  lines stay inside the unscoped buffers, allocate nothing, and write none of the region's arrays nor an argument;
  each window's block read off its array; the reset condition decided over the grid (it holds exactly at the points
  with j = 0); that no window is ever idle; and the frame claim read off a run of the region-and-tail.
-/
import proofs.«149877_j6811818131595_1_alg».proof.Proof.Gen.Kernel.Launch
import proofs.«149877_j6811818131595_1_alg».proof.Proof.Gen.Kernel.Skeleton
import proofs.«149877_j6811818131595_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region -/

/-- The host operations after the region, stretch by stretch. -/
abbrev tailOps : List (List (HloOp τ sig (Elt F))) :=
  [hostOps1, hostOps1_1, hostOps1_2, hostOps1_3, hostOps1_4, hostOps1_5, hostOps1_6, hostOps1_7, hostOps1_8, hostOps1_9, hostOps1_10]

/-- Core `c`'s buffer contents when the region is entered: the launch contents (no host operation comes before). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- The program is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later lines touch unscoped TensorCore buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop

/-- No line of this stretch writes an array of the region: each writes its own result buffer. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_6_keeps : (hostOps1_6 : List (HloOp τ sig (Elt F))).Forall fun op =>
    ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_7_keeps : (hostOps1_7 : List (HloOp τ sig (Elt F))).Forall fun op =>
    ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_8_keeps : (hostOps1_8 : List (HloOp τ sig (Elt F))).Forall fun op =>
    ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_9_keeps : (hostOps1_9 : List (HloOp τ sig (Elt F))).Forall fun op =>
    ∀ w, Proc.devRef .tc (Pipeline.arrRef spec0 w) ∉ op.writes := by
  simp only [hostOps1_9, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_10_keeps : (hostOps1_10 : List (HloOp τ sig (Elt F))).Forall fun op =>
    ∀ w, Proc.devRef .tc (Pipeline.arrRef spec0 w) ∉ op.writes := by
  simp only [hostOps1_10, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))

/-- The later lines write no array of the region. -/
theorem tail_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop

/-- The later lines' result buffers, listed: none is an argument. -/
abbrev tailWrites : List (Ref sig .tc) :=
  [main_v1, main_cst, main_v2, main_v3, main_cst_0, main_v4, main_v5, main_cst_1, main_v6, main_v7, main_cst_2, main_v8, main_v9,
   main_cst_3, main_v10, main_cst_4, main_v11, main_v12, main_cst_5, main_v13, main_v14, main_v15, main_cst_6,
   main_call0_v0, main_call0_v1, main_v16,
   main_v17, main_v18, main_v19, main_cst_7, main_v20, main_v21, main_cst_8, main_v22, main_v23, main_cst_9,
   main_call1_v0, main_call1_v1, main_v24,
   main_v25, main_v26, main_cst_10, main_v27, main_v28, main_v29, main_v30, main_v31, main_v32, main_v33, main_v34, main_v35,
   main_v36, main_v37, main_v38, main_v39, main_cst_11, main_v40, main_v41,
   main_v42, main_v43, main_v44, main_cst_12, main_v45, main_v46, main_v47, main_v48,
   main_v49, main_v50, main_v51, main_v52, main_v53, main_v54, main_v55, main_v56, main_v57, main_v58]

theorem hostOps1_writes : (hostOps1 : List (HloOp τ sig (Elt F))).Forall fun op =>
    op.writes ⊆ (tailWrites.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_1_writes : (hostOps1_1 : List (HloOp τ sig (Elt F))).Forall fun op =>
    op.writes ⊆ (tailWrites.map (Proc.devRef (τ := τ) .tc)).toFinset := by
  simp only [hostOps1_1, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_2_writes : (hostOps1_2 : List (HloOp τ sig (Elt F))).Forall fun op =>
    op.writes ⊆ (tailWrites.map (Proc.devRef (τ := τ) .tc)).toFinset := by
  simp only [hostOps1_2, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_3_writes : (hostOps1_3 : List (HloOp τ sig (Elt F))).Forall fun op =>
    op.writes ⊆ (tailWrites.map (Proc.devRef (τ := τ) .tc)).toFinset := by
  simp only [hostOps1_3, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_4_writes : (hostOps1_4 : List (HloOp τ sig (Elt F))).Forall fun op =>
    op.writes ⊆ (tailWrites.map (Proc.devRef (τ := τ) .tc)).toFinset := by
  simp only [hostOps1_4, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_5_writes : (hostOps1_5 : List (HloOp τ sig (Elt F))).Forall fun op =>
    op.writes ⊆ (tailWrites.map (Proc.devRef (τ := τ) .tc)).toFinset := by
  simp only [hostOps1_5, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_6_writes : (hostOps1_6 : List (HloOp τ sig (Elt F))).Forall fun op =>
    op.writes ⊆ (tailWrites.map (Proc.devRef (τ := τ) .tc)).toFinset := by
  simp only [hostOps1_6, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_7_writes : (hostOps1_7 : List (HloOp τ sig (Elt F))).Forall fun op =>
    op.writes ⊆ (tailWrites.map (Proc.devRef (τ := τ) .tc)).toFinset := by
  simp only [hostOps1_7, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_8_writes : (hostOps1_8 : List (HloOp τ sig (Elt F))).Forall fun op =>
    op.writes ⊆ (tailWrites.map (Proc.devRef (τ := τ) .tc)).toFinset := by
  simp only [hostOps1_8, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_9_writes : (hostOps1_9 : List (HloOp τ sig (Elt F))).Forall fun op =>
    op.writes ⊆ (tailWrites.map (Proc.devRef (τ := τ) .tc)).toFinset := by
  simp only [hostOps1_9, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_10_writes : (hostOps1_10 : List (HloOp τ sig (Elt F))).Forall fun op =>
    op.writes ⊆ (tailWrites.map (Proc.devRef (τ := τ) .tc)).toFinset := by
  simp only [hostOps1_10, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))

/-- Every later line writes one of the listed buffers. -/
theorem tail_writes : ((tailOps : List (List (HloOp τ sig (Elt F)))).flatten).Forall fun op =>
    op.writes ⊆ (tailWrites.map (Proc.devRef (τ := τ) .tc)).toFinset := by
  rw [List.forall_iff_forall_mem]
  intro op hop
  obtain ⟨ops, hops, hop⟩ := List.mem_flatten.mp hop
  simp only [List.mem_cons, List.mem_nil_iff, or_false] at hops
  rcases hops with rfl | rfl | rfl | rfl | rfl | rfl | rfl | rfl | rfl | rfl | rfl
  · exact (List.forall_iff_forall_mem.mp hostOps1_writes) op hop
  · exact (List.forall_iff_forall_mem.mp hostOps1_1_writes) op hop
  · exact (List.forall_iff_forall_mem.mp hostOps1_2_writes) op hop
  · exact (List.forall_iff_forall_mem.mp hostOps1_3_writes) op hop
  · exact (List.forall_iff_forall_mem.mp hostOps1_4_writes) op hop
  · exact (List.forall_iff_forall_mem.mp hostOps1_5_writes) op hop
  · exact (List.forall_iff_forall_mem.mp hostOps1_6_writes) op hop
  · exact (List.forall_iff_forall_mem.mp hostOps1_7_writes) op hop
  · exact (List.forall_iff_forall_mem.mp hostOps1_8_writes) op hop
  · exact (List.forall_iff_forall_mem.mp hostOps1_9_writes) op hop
  · exact (List.forall_iff_forall_mem.mp hostOps1_10_writes) op hop

theorem V_main_arg0 (c : Dev nD) : V m c main_arg0 = m ((c : Thread nD τ).loc main_arg0) := rfl

/-- After the later lines a buffer that is neither an array of the region nor one of their results holds its launch
    contents: each small argument does. -/
theorem tail_arg (dats : (p : Fin 1) → (c : Dev nD) → Dat τ (Elt F) Unit ℕ (UR sig nD τ) ℕ (cfgs p) c) (c : Dev nD)
    (b : Ref sig .tc) (hb : b ∉ tailWrites) (ha : ∀ w, Pipeline.arrRef spec0 w ≠ b) :
    Pipeline.afterTail₀ cfgs dats 0 (V0 m) tailOps c b = m ((c : Thread nD τ).loc b) := by
  unfold Pipeline.afterTail₀
  rw [StableHlo.after_of_writes_sub _ _ tail_writes hb, Pipeline.withArrays_of_ne _ c (V0 m c) _ b ha]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region and the later lines -/

/-- From a run whose post has every array of the region at what the proof data compute and every other unscoped
    buffer as the later lines leave it: the seven arguments end as launched. The large input is the input window's
    array, which the region only reads; the six small ones are buffers the region bypasses and no later line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (tail_arg m dats c main_arg1 (by decide) (by decide)),
    ((h c).2 main_arg2 (Pipeline.mem_restRefs_of main_arg2 (by decide) (by decide))).trans (tail_arg m dats c main_arg2 (by decide) (by decide)),
    ((h c).2 main_arg3 (Pipeline.mem_restRefs_of main_arg3 (by decide) (by decide))).trans (tail_arg m dats c main_arg3 (by decide) (by decide)),
    ((h c).2 main_arg4 (Pipeline.mem_restRefs_of main_arg4 (by decide) (by decide))).trans (tail_arg m dats c main_arg4 (by decide) (by decide)),
    ((h c).2 main_arg5 (Pipeline.mem_restRefs_of main_arg5 (by decide) (by decide))).trans (tail_arg m dats c main_arg5 (by decide) (by decide)),
    ((h c).2 main_arg6 (Pipeline.mem_restRefs_of main_arg6 (by decide) (by decide))).trans (tail_arg m dats c main_arg6 (by decide) (by decide))⟩) h

/-! ## The reset condition -/

/-- The condition of the body's one branch, from the grid coordinates: the second coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 16): the first point of each half of the batch. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The staging memrefs the body is called with -/

/-- One staging buffer of an output window, through which its contents are stated. -/
abbrev VO0_1 : View sig .tc .vmem S1x1x12 .f32 := (Memref.whole cc0_stg1_0 : Memref sig .tc .vmem S1x1x12 .f32).view
abbrev VO0_2 : View sig .tc .vmem S1x1x12 .f32 := (Memref.whole cc0_stg2_0 : Memref sig .tc .vmem S1x1x12 .f32).view
abbrev VO0_3 : View sig .tc .vmem S1x1x12 .f32 := (Memref.whole cc0_stg3_0 : Memref sig .tc .vmem S1x1x12 .f32).view
abbrev VO0_4 : View sig .tc .vmem S1x1x12 .f32 := (Memref.whole cc0_stg4_0 : Memref sig .tc .vmem S1x1x12 .f32).view
abbrev VO0_5 : View sig .tc .vmem S1x1x12 .f32 := (Memref.whole cc0_stg5_0 : Memref sig .tc .vmem S1x1x12 .f32).view
/-- Each window's current staging memref at point `t`, as the pipeline passes it, and its wholeness. -/
abbrev ms0_0 (t : Fin cfg0.N) : Memref sig .tc .vmem S1x12x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x12 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x12 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x12 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x12 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x12 .f32 := win0_5.stage (cfg0.slots t 5)
abbrev hs0_5 (t : Fin cfg0.N) : (ms0_5 t).IsWhole := hstage0_5 ((cfg0.slots t 5).cast nbuf0_5)

end Cert.Kernel.Hand

end
-- ==== Proof.FrameKernelReset.lean ====
/-
  The frame of the program, second part: the kernel body at a point where the accumulators are reset (j = 0).

  On whole staging buffers — the input's at the batch element's block, the five outputs' at anything — the body runs
  to its end without a fault: it stores the reset values (0, 0, 0, +∞, −∞) into the five output buffers, loads the
  block, and stores into each output buffer the reset value combined with the block's moment. What each output buffer
  ends with is recorded as the list of its stores, last first; the run itself finds those lists.
-/
import proofs.«149877_j6811818131595_1_alg».proof.Proof.FrameKernelShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the reset branch is taken: the stores each output buffer ends with, and the run. -/
noncomputable def kernelRun0_A (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) :
    Σ' (L1 : List (View.Piece (Elt F) S1x1x12 .f32)) (L2 : List (View.Piece (Elt F) S1x1x12 .f32)) (L3 : List (View.Piece (Elt F) S1x1x12 .f32)) (L4 : List (View.Piece (Elt F) S1x1x12 .f32)), { L5 : List (View.Piece (Elt F) S1x1x12 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [H4]; · iexists _; iexact H4
    iexists _; iexact H5

end Cert.Kernel.Hand

end
-- ==== Proof.FrameKernelAcc.lean ====
/-
  The frame of the program, third part: the kernel body at a point where the accumulators are kept (j ≠ 0).

  On whole staging buffers — the input's at the batch element's block, each output's at what the point before left
  in it — the body runs to its end without a fault: it loads the block and the five accumulators and stores into each
  output buffer the accumulator combined with the block's moment. What each output buffer ends with is recorded as
  the list of its stores; the run itself finds those lists.
-/
import proofs.«149877_j6811818131595_1_alg».proof.Proof.FrameKernelReset

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the reset branch is not taken: the stores each output buffer ends with, and the run. -/
noncomputable def kernelRun0_B (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) :
    Σ' (L1 : List (View.Piece (Elt F) S1x1x12 .f32)) (L2 : List (View.Piece (Elt F) S1x1x12 .f32)) (L3 : List (View.Piece (Elt F) S1x1x12 .f32)) (L4 : List (View.Piece (Elt F) S1x1x12 .f32)), { L5 : List (View.Piece (Elt F) S1x1x12 .f32) //
      ∀ (E : Set ℕ) (K : PUnit → sProp 𝕄),
        iprop(owns (c : Thread nD τ) arg2 fullShare x0 ∗ owns (c : Thread nD τ) arg3 fullShare xo1 ∗ owns (c : Thread nD τ) arg4 fullShare xo2 ∗ owns (c : Thread nD τ) arg5 fullShare xo3 ∗ owns (c : Thread nD τ) arg6 fullShare xo4 ∗ owns (c : Thread nD τ) arg7 fullShare xo5
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [H4]; · iexists _; iexact H4
    iexists _; iexact H5

end Cert.Kernel.Hand

end
-- ==== Proof.FrameKernel.lean ====
/-
  The frame of the program, last part: what the five accumulators hold after each grid point, and the run.

  After point n the output windows' staging buffers hold: at a point with j = 0 what the reset case leaves (the reset
  value combined with the block's moment); at any other point what the keeping case leaves over what point n − 1
  left (a block is not written back between two points of the same half, so the buffer still holds it). With these as
  the proof data the body meets its obligation at every point (by cases on j = 0), the region runs to its end, the
  later lines run after it, and the argument arrays end as launched.
-/
import proofs.«149877_j6811818131595_1_alg».proof.Proof.FrameKernelAcc

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each output's buffer -/

/-- The reset case's stores into output 1 cover its block. -/
theorem cover0_A_1 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) (y : S1x1x12.Idx) :
    ∃ pc ∈ (kernelRun0_A c i arg2 harg2 arg3 harg3 arg4 harg4 arg5 harg5 arg6 harg6 arg7 harg7 hc0 x0).1, y ∈ pc.1.set :=
  View.cover_of_tiledL (kernelRun0_A c i arg2 harg2 arg3 harg3 arg4 harg4 arg5 harg5 arg6 harg6 arg7 harg7 hc0 x0).1 S1x1x12.size (by sl_kernel_rfl) y

/-- What the reset case leaves in output 1's buffer: its stores read back. -/
def out0_A_1 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) : Vec F S1x1x12 .f32 :=
  VO0_1.read (Elt F) (VO0_1.writes (Elt F) VO0_1.junk (kernelRun0_A c i arg2 harg2 arg3 harg3 arg4 harg4 arg5 harg5 arg6 harg6 arg7 harg7 hc0 x0).1)

/-- The keeping case's stores into output 1 cover its block. -/
theorem cover0_B_1 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).1, y ∈ pc.1.set :=
  View.cover_of_tiledL (kernelRun0_B c i arg2 harg2 arg3 harg3 arg4 harg4 arg5 harg5 arg6 harg6 arg7 harg7 hc0 x0 xo1 xo2 xo3 xo4 xo5).1 S1x1x12.size (by sl_kernel_rfl) y

/-- What the keeping case leaves in output 1's buffer: its stores read back. -/
def out0_B_1 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) : Vec F S1x1x12 .f32 :=
  VO0_1.read (Elt F) (VO0_1.writes (Elt F) VO0_1.junk (kernelRun0_B c i arg2 harg2 arg3 harg3 arg4 harg4 arg5 harg5 arg6 harg6 arg7 harg7 hc0 x0 xo1 xo2 xo3 xo4 xo5).1)

/-- The reset case's stores into output 2 cover its block. -/
theorem cover0_A_2 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) (y : S1x1x12.Idx) :
    ∃ pc ∈ (kernelRun0_A c i arg2 harg2 arg3 harg3 arg4 harg4 arg5 harg5 arg6 harg6 arg7 harg7 hc0 x0).2.1, y ∈ pc.1.set :=
  View.cover_of_tiledL (kernelRun0_A c i arg2 harg2 arg3 harg3 arg4 harg4 arg5 harg5 arg6 harg6 arg7 harg7 hc0 x0).2.1 S1x1x12.size (by sl_kernel_rfl) y

/-- What the reset case leaves in output 2's buffer: its stores read back. -/
def out0_A_2 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) : Vec F S1x1x12 .f32 :=
  VO0_2.read (Elt F) (VO0_2.writes (Elt F) VO0_2.junk (kernelRun0_A c i arg2 harg2 arg3 harg3 arg4 harg4 arg5 harg5 arg6 harg6 arg7 harg7 hc0 x0).2.1)

/-- The keeping case's stores into output 2 cover its block. -/
theorem cover0_B_2 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).2.1, y ∈ pc.1.set :=
  View.cover_of_tiledL (kernelRun0_B c i arg2 harg2 arg3 harg3 arg4 harg4 arg5 harg5 arg6 harg6 arg7 harg7 hc0 x0 xo1 xo2 xo3 xo4 xo5).2.1 S1x1x12.size (by sl_kernel_rfl) y

/-- What the keeping case leaves in output 2's buffer: its stores read back. -/
def out0_B_2 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) : Vec F S1x1x12 .f32 :=
  VO0_2.read (Elt F) (VO0_2.writes (Elt F) VO0_2.junk (kernelRun0_B c i arg2 harg2 arg3 harg3 arg4 harg4 arg5 harg5 arg6 harg6 arg7 harg7 hc0 x0 xo1 xo2 xo3 xo4 xo5).2.1)

/-- The reset case's stores into output 3 cover its block. -/
theorem cover0_A_3 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) (y : S1x1x12.Idx) :
    ∃ pc ∈ (kernelRun0_A c i arg2 harg2 arg3 harg3 arg4 harg4 arg5 harg5 arg6 harg6 arg7 harg7 hc0 x0).2.2.1, y ∈ pc.1.set :=
  View.cover_of_tiledL (kernelRun0_A c i arg2 harg2 arg3 harg3 arg4 harg4 arg5 harg5 arg6 harg6 arg7 harg7 hc0 x0).2.2.1 S1x1x12.size (by sl_kernel_rfl) y

/-- What the reset case leaves in output 3's buffer: its stores read back. -/
def out0_A_3 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) : Vec F S1x1x12 .f32 :=
  VO0_3.read (Elt F) (VO0_3.writes (Elt F) VO0_3.junk (kernelRun0_A c i arg2 harg2 arg3 harg3 arg4 harg4 arg5 harg5 arg6 harg6 arg7 harg7 hc0 x0).2.2.1)

/-- The keeping case's stores into output 3 cover its block. -/
theorem cover0_B_3 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).2.2.1, y ∈ pc.1.set :=
  View.cover_of_tiledL (kernelRun0_B c i arg2 harg2 arg3 harg3 arg4 harg4 arg5 harg5 arg6 harg6 arg7 harg7 hc0 x0 xo1 xo2 xo3 xo4 xo5).2.2.1 S1x1x12.size (by sl_kernel_rfl) y

/-- What the keeping case leaves in output 3's buffer: its stores read back. -/
def out0_B_3 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) : Vec F S1x1x12 .f32 :=
  VO0_3.read (Elt F) (VO0_3.writes (Elt F) VO0_3.junk (kernelRun0_B c i arg2 harg2 arg3 harg3 arg4 harg4 arg5 harg5 arg6 harg6 arg7 harg7 hc0 x0 xo1 xo2 xo3 xo4 xo5).2.2.1)

/-- The reset case's stores into output 4 cover its block. -/
theorem cover0_A_4 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) (y : S1x1x12.Idx) :
    ∃ pc ∈ (kernelRun0_A c i arg2 harg2 arg3 harg3 arg4 harg4 arg5 harg5 arg6 harg6 arg7 harg7 hc0 x0).2.2.2.1, y ∈ pc.1.set :=
  View.cover_of_tiledL (kernelRun0_A c i arg2 harg2 arg3 harg3 arg4 harg4 arg5 harg5 arg6 harg6 arg7 harg7 hc0 x0).2.2.2.1 S1x1x12.size (by sl_kernel_rfl) y

/-- What the reset case leaves in output 4's buffer: its stores read back. -/
def out0_A_4 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) : Vec F S1x1x12 .f32 :=
  VO0_4.read (Elt F) (VO0_4.writes (Elt F) VO0_4.junk (kernelRun0_A c i arg2 harg2 arg3 harg3 arg4 harg4 arg5 harg5 arg6 harg6 arg7 harg7 hc0 x0).2.2.2.1)

/-- The keeping case's stores into output 4 cover its block. -/
theorem cover0_B_4 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).2.2.2.1, y ∈ pc.1.set :=
  View.cover_of_tiledL (kernelRun0_B c i arg2 harg2 arg3 harg3 arg4 harg4 arg5 harg5 arg6 harg6 arg7 harg7 hc0 x0 xo1 xo2 xo3 xo4 xo5).2.2.2.1 S1x1x12.size (by sl_kernel_rfl) y

/-- What the keeping case leaves in output 4's buffer: its stores read back. -/
def out0_B_4 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) : Vec F S1x1x12 .f32 :=
  VO0_4.read (Elt F) (VO0_4.writes (Elt F) VO0_4.junk (kernelRun0_B c i arg2 harg2 arg3 harg3 arg4 harg4 arg5 harg5 arg6 harg6 arg7 harg7 hc0 x0 xo1 xo2 xo3 xo4 xo5).2.2.2.1)

/-- The reset case's stores into output 5 cover its block. -/
theorem cover0_A_5 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) (y : S1x1x12.Idx) :
    ∃ pc ∈ (kernelRun0_A c i arg2 harg2 arg3 harg3 arg4 harg4 arg5 harg5 arg6 harg6 arg7 harg7 hc0 x0).2.2.2.2.1, y ∈ pc.1.set :=
  View.cover_of_tiledL (kernelRun0_A c i arg2 harg2 arg3 harg3 arg4 harg4 arg5 harg5 arg6 harg6 arg7 harg7 hc0 x0).2.2.2.2.1 S1x1x12.size (by sl_kernel_rfl) y

/-- What the reset case leaves in output 5's buffer: its stores read back. -/
def out0_A_5 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) : Vec F S1x1x12 .f32 :=
  VO0_5.read (Elt F) (VO0_5.writes (Elt F) VO0_5.junk (kernelRun0_A c i arg2 harg2 arg3 harg3 arg4 harg4 arg5 harg5 arg6 harg6 arg7 harg7 hc0 x0).2.2.2.2.1)

/-- The keeping case's stores into output 5 cover its block. -/
theorem cover0_B_5 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).2.2.2.2.1, y ∈ pc.1.set :=
  View.cover_of_tiledL (kernelRun0_B c i arg2 harg2 arg3 harg3 arg4 harg4 arg5 harg5 arg6 harg6 arg7 harg7 hc0 x0 xo1 xo2 xo3 xo4 xo5).2.2.2.2.1 S1x1x12.size (by sl_kernel_rfl) y

/-- What the keeping case leaves in output 5's buffer: its stores read back. -/
def out0_B_5 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) : Vec F S1x1x12 .f32 :=
  VO0_5.read (Elt F) (VO0_5.writes (Elt F) VO0_5.junk (kernelRun0_B c i arg2 harg2 arg3 harg3 arg4 harg4 arg5 harg5 arg6 harg6 arg7 harg7 hc0 x0 xo1 xo2 xo3 xo4 xo5).2.2.2.2.1)

/-! ## What the outputs hold after each point -/

/-- The five accumulators' blocks, in window order. -/
abbrev Outs (F : FTy → Type) [FloatOps F] : Type := Vec F S1x1x12 .f32 × Vec F S1x1x12 .f32 × Vec F S1x1x12 .f32 × Vec F S1x1x12 .f32 × Vec F S1x1x12 .f32

/-- What the reset case leaves at point `t`. -/
def outA (c : Dev nD) (t : Fin cfg0.N) (h0 : t.val % 16 = 0) : Outs F :=
  (out0_A_1 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t),
   out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t),
   out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t),
   out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t),
   out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t))

/-- What the keeping case leaves at point `t` over the blocks `p` the point before left. -/
def outB (c : Dev nD) (t : Fin cfg0.N) (h0 : ¬t.val % 16 = 0) (p : Outs F) : Outs F :=
  (out0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) p.1 p.2.1 p.2.2.1 p.2.2.2.1 p.2.2.2.2,
   out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) p.1 p.2.1 p.2.2.1 p.2.2.2.1 p.2.2.2.2,
   out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) p.1 p.2.1 p.2.2.1 p.2.2.2.1 p.2.2.2.2,
   out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) p.1 p.2.1 p.2.2.1 p.2.2.2.1 p.2.2.2.2,
   out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) p.1 p.2.1 p.2.2.1 p.2.2.2.1 p.2.2.2.2)

/-- The accumulation: what the outputs' staging buffers hold after the body at position `n`. -/
def outsAt0 (c : Dev nD) : (n : ℕ) → n < cfg0.N → Outs F
  | 0, hn => outA m c ⟨0, hn⟩ (Nat.zero_mod _)
  | n + 1, hn =>
    if h0 : (n + 1) % 16 = 0 then outA m c ⟨n + 1, hn⟩ h0
    else outB m c ⟨n + 1, hn⟩ h0 (outsAt0 c n (Nat.lt_of_succ_lt hn))

/-- At a point with j = 0: the reset case's contents. -/
theorem outsAt0_A (c : Dev nD) (t : Fin cfg0.N) (h0 : t.val % 16 = 0) :
    outsAt0 m c t.val t.isLt = outA m c t h0 := by
  obtain ⟨n, hn⟩ := t
  cases n with
  | zero => exact rfl
  | succ n => exact (dif_pos h0).trans rfl

/-- At any other point: the keeping case's contents over what the point before left. -/
theorem outsAt0_B (c : Dev nD) (t : Fin cfg0.N) (h0 : ¬t.val % 16 = 0) :
    outsAt0 m c t.val t.isLt = outB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the
    outputs' at the accumulation; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
    | ⟨2, _⟩ => (outsAt0 m c t.val t.isLt).2.1
    | ⟨3, _⟩ => (outsAt0 m c t.val t.isLt).2.2.1
    | ⟨4, _⟩ => (outsAt0 m c t.val t.isLt).2.2.2.1
    | ⟨5, _⟩ => (outsAt0 m c t.val t.isLt).2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]
theorem after0_2 (c : Dev nD) (t : Fin cfg0.N) : (dats m 0 c).after 2 t = (outsAt0 m c t.val t.isLt).2.1 := by dsimp only [dats]
theorem after0_3 (c : Dev nD) (t : Fin cfg0.N) : (dats m 0 c).after 3 t = (outsAt0 m c t.val t.isLt).2.2.1 := by dsimp only [dats]
theorem after0_4 (c : Dev nD) (t : Fin cfg0.N) : (dats m 0 c).after 4 t = (outsAt0 m c t.val t.isLt).2.2.2.1 := by dsimp only [dats]
theorem after0_5 (c : Dev nD) (t : Fin cfg0.N) : (dats m 0 c).after 5 t = (outsAt0 m c t.val t.isLt).2.2.2.2 := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d
/-- At a point with j ≠ 0 output 1's current staging buffer holds what the body left at the point before: the block
    was not written back between. -/
theorem before0_1_B (c : Dev nD) (t : Fin cfg0.N) (h0 : ¬t.val % 16 = 0) (d) :
    (dats m 0 c).before 1 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 1 rfl t (by omega) (Bool.eq_false_iff.mpr fun h => by have := (flush0_1 _).mp h; dsimp only at this; omega)
    (fun _ => rfl) (fun _ _ => rfl)]
  dsimp only [dats]
/-- At a point with j ≠ 0 output 2's current staging buffer holds what the body left at the point before: the block
    was not written back between. -/
theorem before0_2_B (c : Dev nD) (t : Fin cfg0.N) (h0 : ¬t.val % 16 = 0) (d) :
    (dats m 0 c).before 2 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]
/-- At a point with j ≠ 0 output 3's current staging buffer holds what the body left at the point before: the block
    was not written back between. -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]
/-- At a point with j ≠ 0 output 4's current staging buffer holds what the body left at the point before: the block
    was not written back between. -/
theorem before0_4_B (c : Dev nD) (t : Fin cfg0.N) (h0 : ¬t.val % 16 = 0) (d) :
    (dats m 0 c).before 4 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]
/-- At a point with j ≠ 0 output 5's current staging buffer holds what the body left at the point before: the block
    was not written back between. -/
theorem before0_5_B (c : Dev nD) (t : Fin cfg0.N) (h0 : ¬t.val % 16 = 0) (d) :
    (dats m 0 c).before 5 t d = (outsAt0 m c (t.val - 1) (Nat.lt_of_le_of_lt (Nat.sub_le _ _) t.isLt)).2.2.2.2 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body at any point: the input's memref holds its block; by cases on j = 0 the matching run applies, at a
    keeping point each output's memref holding what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t]]
  rw [show (dats m 0 c).leavesExact 1 t = owns (c : Thread nD τ) (ms0_1 t) fullShare ((dats m 0 c).after 1 t) from by
    unfold Dat.leavesExact; rw [liveAt0_1 t]]
  rw [show (dats m 0 c).leavesExact 2 t = owns (c : Thread nD τ) (ms0_2 t) fullShare ((dats m 0 c).after 2 t) from by
    unfold Dat.leavesExact; rw [liveAt0_2 t]]
  rw [show (dats m 0 c).leavesExact 3 t = owns (c : Thread nD τ) (ms0_3 t) fullShare ((dats m 0 c).after 3 t) from by
    unfold Dat.leavesExact; rw [liveAt0_3 t]]
  rw [show (dats m 0 c).leavesExact 4 t = owns (c : Thread nD τ) (ms0_4 t) fullShare ((dats m 0 c).after 4 t) from by
    unfold Dat.leavesExact; rw [liveAt0_4 t]]
  rw [show (dats m 0 c).leavesExact 5 t = owns (c : Thread nD τ) (ms0_5 t) fullShare ((dats m 0 c).after 5 t) from by
    unfold Dat.leavesExact; rw [liveAt0_5 t]]
  rw [after0_0, after0_1, after0_2, after0_3, after0_4, after0_5]
  have hN : t.val < 32 := lt_of_lt_of_eq t.isLt (show cfg0.N = 32 from N_0)
  by_cases h0 : t.val % 16 = 0
  · rw [outsAt0_A m c t h0]
    unfold outA out0_A_1 out0_A_2 out0_A_3 out0_A_4 out0_A_5; dsimp only
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t)).2.2.2.2.2 Set.univ _)
    isplitl [H0]; · iexact H0
    isplitl [H1]; · iexists _; iexact H1
    isplitl [H2]; · iexists _; iexact H2
    isplitl [H3]; · iexists _; iexact H3
    isplitl [H4]; · iexists _; iexact H4
    isplitl [H5]; · iexists _; iexact H5
    iintro ⟨H0, ⟨%e1, H1⟩, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _ _ _ _ _ _ _)
    isplitl [H2]
    · unfold owns; iexists _; isplitr
      swap; · iexact H2
      ipureintro; exact View.read_writes_of_cover _ _ _ _ _ (cover0_A_2 c _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _)
  · rw [outsAt0_B m c t h0]
    simp only [before0_1_B m c t h0, before0_2_B m c t h0, before0_3_B m c t h0, before0_4_B m c t h0, before0_5_B m c t h0]
    unfold outB out0_B_1 out0_B_2 out0_B_3 out0_B_4 out0_B_5; dsimp only
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) _ _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, ⟨%e1, H1⟩, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _ _ _ _ _ _ _ _ _ _)
    isplitl [H2]
    · unfold owns; iexists _; isplitr
      swap; · iexact H2
      ipureintro; exact View.read_writes_of_cover _ _ _ _ _ (cover0_B_2 c _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; at the end every array of the region holds
    what the proof data compute and every other unscoped buffer what the later lines leave in it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame: the program runs to its end and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.FrameKernelIdealShared.lean ====
/-
  The frame of the program, first part: what its two control cases share.

  The program is one kernel region followed by host operations. The region walks a grid of 2 × 16 points; point
  (g, j) loads batch element 16·g + j (all twelve channels) and updates five per-channel accumulators that live in the
  five output windows' blocks, block g of each: at j = 0 the accumulators are reset, at every j the element's moments
  are folded in; a block is written back after its last point, j = 15. The host operations after the region read the
  five output arrays and the six small arguments, write only buffers of their own, and allocate nothing; so the
  argument arrays end as they began.

  Here: the buffer contents the region starts from; the program as "region, then the later lines"; that the later
  lines stay inside the unscoped buffers, allocate nothing, and write none of the region's arrays nor an argument;
  each window's block read off its array; the reset condition decided over the grid (it holds exactly at the points
  with j = 0); that no window is ever idle; and the frame claim read off a run of the region-and-tail.
-/
import proofs.«149877_j6811818131595_1_alg».proof.Proof.Gen.KernelIdeal.Launch
import proofs.«149877_j6811818131595_1_alg».proof.Proof.Gen.KernelIdeal.Skeleton
import proofs.«149877_j6811818131595_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region -/

/-- The host operations after the region, stretch by stretch. -/
abbrev tailOps : List (List (HloOp τ sig (Elt F))) :=
  [hostOps1, hostOps1_1, hostOps1_2, hostOps1_3, hostOps1_4, hostOps1_5, hostOps1_6, hostOps1_7, hostOps1_8, hostOps1_9, hostOps1_10]

/-- Core `c`'s buffer contents when the region is entered: the launch contents (no host operation comes before). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- The program is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later lines touch unscoped TensorCore buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop

/-- No line of this stretch writes an array of the region: each writes its own result buffer. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_6_keeps : (hostOps1_6 : List (HloOp τ sig (Elt F))).Forall fun op =>
    ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_7_keeps : (hostOps1_7 : List (HloOp τ sig (Elt F))).Forall fun op =>
    ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_8_keeps : (hostOps1_8 : List (HloOp τ sig (Elt F))).Forall fun op =>
    ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_9_keeps : (hostOps1_9 : List (HloOp τ sig (Elt F))).Forall fun op =>
    ∀ w, Proc.devRef .tc (Pipeline.arrRef spec0 w) ∉ op.writes := by
  simp only [hostOps1_9, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))
/-- No line of this stretch writes an array of the region: each writes its own result buffer. -/
theorem hostOps1_10_keeps : (hostOps1_10 : List (HloOp τ sig (Elt F))).Forall fun op =>
    ∀ w, Proc.devRef .tc (Pipeline.arrRef spec0 w) ∉ op.writes := by
  simp only [hostOps1_10, List.Forall, StableHlo.nullary_writes, StableHlo.unary_writes, StableHlo.binary_writes, StableHlo.ternary_writes, StableHlo.quaternary_writes, StableHlo.reshape_writes, StableHlo.nary_writes, Finset.mem_singleton]
  repeat' apply And.intro
  all_goals (intro w; fin_cases w <;> exact StableHlo.devRef_ne_of_ne (by decide))

/-- The later lines write no array of the region. -/
theorem tail_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop

/-- The later lines' result buffers, listed: none is an argument. -/
abbrev tailWrites : List (Ref sig .tc) :=
  [main_v1, main_cst, main_v2, main_v3, main_cst_0, main_v4, main_v5, main_cst_1, main_v6, main_v7, main_cst_2, main_v8, main_v9,
   main_cst_3, main_v10, main_cst_4, main_v11, main_v12, main_cst_5, main_v13, main_v14, main_v15, main_cst_6,
   main_call0_v0, main_call0_v1, main_v16,
   main_v17, main_v18, main_v19, main_cst_7, main_v20, main_v21, main_cst_8, main_v22, main_v23, main_cst_9,
   main_call1_v0, main_call1_v1, main_v24,
   main_v25, main_v26, main_cst_10, main_v27, main_v28, main_v29, main_v30, main_v31, main_v32, main_v33, main_v34, main_v35,
   main_v36, main_v37, main_v38, main_v39, main_cst_11, main_v40, main_v41,
   main_v42, main_v43, main_v44, main_cst_12, main_v45, main_v46, main_v47, main_v48,
   main_v49, main_v50, main_v51, main_v52, main_v53, main_v54, main_v55, main_v56, main_v57, main_v58]

theorem hostOps1_writes : (hostOps1 : List (HloOp τ sig (Elt F))).Forall fun op =>
    op.writes ⊆ (tailWrites.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_1_writes : (hostOps1_1 : List (HloOp τ sig (Elt F))).Forall fun op =>
    op.writes ⊆ (tailWrites.map (Proc.devRef (τ := τ) .tc)).toFinset := by
  simp only [hostOps1_1, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_2_writes : (hostOps1_2 : List (HloOp τ sig (Elt F))).Forall fun op =>
    op.writes ⊆ (tailWrites.map (Proc.devRef (τ := τ) .tc)).toFinset := by
  simp only [hostOps1_2, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_3_writes : (hostOps1_3 : List (HloOp τ sig (Elt F))).Forall fun op =>
    op.writes ⊆ (tailWrites.map (Proc.devRef (τ := τ) .tc)).toFinset := by
  simp only [hostOps1_3, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_4_writes : (hostOps1_4 : List (HloOp τ sig (Elt F))).Forall fun op =>
    op.writes ⊆ (tailWrites.map (Proc.devRef (τ := τ) .tc)).toFinset := by
  simp only [hostOps1_4, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_5_writes : (hostOps1_5 : List (HloOp τ sig (Elt F))).Forall fun op =>
    op.writes ⊆ (tailWrites.map (Proc.devRef (τ := τ) .tc)).toFinset := by
  simp only [hostOps1_5, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_6_writes : (hostOps1_6 : List (HloOp τ sig (Elt F))).Forall fun op =>
    op.writes ⊆ (tailWrites.map (Proc.devRef (τ := τ) .tc)).toFinset := by
  simp only [hostOps1_6, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_7_writes : (hostOps1_7 : List (HloOp τ sig (Elt F))).Forall fun op =>
    op.writes ⊆ (tailWrites.map (Proc.devRef (τ := τ) .tc)).toFinset := by
  simp only [hostOps1_7, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_8_writes : (hostOps1_8 : List (HloOp τ sig (Elt F))).Forall fun op =>
    op.writes ⊆ (tailWrites.map (Proc.devRef (τ := τ) .tc)).toFinset := by
  simp only [hostOps1_8, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_9_writes : (hostOps1_9 : List (HloOp τ sig (Elt F))).Forall fun op =>
    op.writes ⊆ (tailWrites.map (Proc.devRef (τ := τ) .tc)).toFinset := by
  simp only [hostOps1_9, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))
theorem hostOps1_10_writes : (hostOps1_10 : List (HloOp τ sig (Elt F))).Forall fun op =>
    op.writes ⊆ (tailWrites.map (Proc.devRef (τ := τ) .tc)).toFinset := by
  simp only [hostOps1_10, List.Forall, StableHlo.nullary_writes, StableHlo.unary_writes, StableHlo.binary_writes, StableHlo.ternary_writes, StableHlo.quaternary_writes, StableHlo.reshape_writes, StableHlo.nary_writes, Finset.mem_singleton, Finset.singleton_subset_iff]
  repeat' apply And.intro
  all_goals (exact List.mem_toFinset.mpr (List.mem_map.mpr ⟨_, by decide, rfl⟩))

/-- Every later line writes one of the listed buffers. -/
theorem tail_writes : ((tailOps : List (List (HloOp τ sig (Elt F)))).flatten).Forall fun op =>
    op.writes ⊆ (tailWrites.map (Proc.devRef (τ := τ) .tc)).toFinset := by
  rw [List.forall_iff_forall_mem]
  intro op hop
  obtain ⟨ops, hops, hop⟩ := List.mem_flatten.mp hop
  simp only [List.mem_cons, List.mem_nil_iff, or_false] at hops
  rcases hops with rfl | rfl | rfl | rfl | rfl | rfl | rfl | rfl | rfl | rfl | rfl
  · exact (List.forall_iff_forall_mem.mp hostOps1_writes) op hop
  · exact (List.forall_iff_forall_mem.mp hostOps1_1_writes) op hop
  · exact (List.forall_iff_forall_mem.mp hostOps1_2_writes) op hop
  · exact (List.forall_iff_forall_mem.mp hostOps1_3_writes) op hop
  · exact (List.forall_iff_forall_mem.mp hostOps1_4_writes) op hop
  · exact (List.forall_iff_forall_mem.mp hostOps1_5_writes) op hop
  · exact (List.forall_iff_forall_mem.mp hostOps1_6_writes) op hop
  · exact (List.forall_iff_forall_mem.mp hostOps1_7_writes) op hop
  · exact (List.forall_iff_forall_mem.mp hostOps1_8_writes) op hop
  · exact (List.forall_iff_forall_mem.mp hostOps1_9_writes) op hop
  · exact (List.forall_iff_forall_mem.mp hostOps1_10_writes) op hop

theorem V_main_arg0 (c : Dev nD) : V m c main_arg0 = m ((c : Thread nD τ).loc main_arg0) := rfl

/-- After the later lines a buffer that is neither an array of the region nor one of their results holds its launch
    contents: each small argument does. -/
theorem tail_arg (dats : (p : Fin 1) → (c : Dev nD) → Dat τ (Elt F) Unit ℕ (UR sig nD τ) ℕ (cfgs p) c) (c : Dev nD)
    (b : Ref sig .tc) (hb : b ∉ tailWrites) (ha : ∀ w, Pipeline.arrRef spec0 w ≠ b) :
    Pipeline.afterTail₀ cfgs dats 0 (V0 m) tailOps c b = m ((c : Thread nD τ).loc b) := by
  unfold Pipeline.afterTail₀
  rw [StableHlo.after_of_writes_sub _ _ tail_writes hb, Pipeline.withArrays_of_ne _ c (V0 m c) _ b ha]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region and the later lines -/

/-- From a run whose post has every array of the region at what the proof data compute and every other unscoped
    buffer as the later lines leave it: the seven arguments end as launched. The large input is the input window's
    array, which the region only reads; the six small ones are buffers the region bypasses and no later line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (tail_arg m dats c main_arg1 (by decide) (by decide)),
    ((h c).2 main_arg2 (Pipeline.mem_restRefs_of main_arg2 (by decide) (by decide))).trans (tail_arg m dats c main_arg2 (by decide) (by decide)),
    ((h c).2 main_arg3 (Pipeline.mem_restRefs_of main_arg3 (by decide) (by decide))).trans (tail_arg m dats c main_arg3 (by decide) (by decide)),
    ((h c).2 main_arg4 (Pipeline.mem_restRefs_of main_arg4 (by decide) (by decide))).trans (tail_arg m dats c main_arg4 (by decide) (by decide)),
    ((h c).2 main_arg5 (Pipeline.mem_restRefs_of main_arg5 (by decide) (by decide))).trans (tail_arg m dats c main_arg5 (by decide) (by decide)),
    ((h c).2 main_arg6 (Pipeline.mem_restRefs_of main_arg6 (by decide) (by decide))).trans (tail_arg m dats c main_arg6 (by decide) (by decide))⟩) h

/-! ## The reset condition -/

/-- The condition of the body's one branch, from the grid coordinates: the second coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 16): the first point of each half of the batch. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The staging memrefs the body is called with -/

/-- One staging buffer of an output window, through which its contents are stated. -/
abbrev VO0_1 : View sig .tc .vmem S1x1x12 .f32 := (Memref.whole cc0_stg1_0 : Memref sig .tc .vmem S1x1x12 .f32).view
abbrev VO0_2 : View sig .tc .vmem S1x1x12 .f32 := (Memref.whole cc0_stg2_0 : Memref sig .tc .vmem S1x1x12 .f32).view
abbrev VO0_3 : View sig .tc .vmem S1x1x12 .f32 := (Memref.whole cc0_stg3_0 : Memref sig .tc .vmem S1x1x12 .f32).view
abbrev VO0_4 : View sig .tc .vmem S1x1x12 .f32 := (Memref.whole cc0_stg4_0 : Memref sig .tc .vmem S1x1x12 .f32).view
abbrev VO0_5 : View sig .tc .vmem S1x1x12 .f32 := (Memref.whole cc0_stg5_0 : Memref sig .tc .vmem S1x1x12 .f32).view
/-- Each window's current staging memref at point `t`, as the pipeline passes it, and its wholeness. -/
abbrev ms0_0 (t : Fin cfg0.N) : Memref sig .tc .vmem S1x12x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x12 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x12 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x12 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x12 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x12 .f32 := win0_5.stage (cfg0.slots t 5)
abbrev hs0_5 (t : Fin cfg0.N) : (ms0_5 t).IsWhole := hstage0_5 ((cfg0.slots t 5).cast nbuf0_5)

end Cert.KernelIdeal.Hand

end
-- ==== Proof.FrameKernelIdealReset.lean ====
/-
  The frame of the program, second part: the kernel body at a point where the accumulators are reset (j = 0).

  On whole staging buffers — the input's at the batch element's block, the five outputs' at anything — the body runs
  to its end without a fault: it stores the reset values (0, 0, 0, +∞, −∞) into the five output buffers, loads the
  block, and stores into each output buffer the reset value combined with the block's moment. What each output buffer
  ends with is recorded as the list of its stores, last first; the run itself finds those lists.
-/
import proofs.«149877_j6811818131595_1_alg».proof.Proof.FrameKernelIdealShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the reset branch is taken: the stores each output buffer ends with, and the run. -/
noncomputable def kernelRun0_A (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) :
    Σ' (L1 : List (View.Piece (Elt F) S1x1x12 .f32)) (L2 : List (View.Piece (Elt F) S1x1x12 .f32)) (L3 : List (View.Piece (Elt F) S1x1x12 .f32)) (L4 : List (View.Piece (Elt F) S1x1x12 .f32)), { L5 : List (View.Piece (Elt F) S1x1x12 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [H4]; · iexists _; iexact H4
    iexists _; iexact H5

end Cert.KernelIdeal.Hand

end
-- ==== Proof.FrameKernelIdealAcc.lean ====
/-
  The frame of the program, third part: the kernel body at a point where the accumulators are kept (j ≠ 0).

  On whole staging buffers — the input's at the batch element's block, each output's at what the point before left
  in it — the body runs to its end without a fault: it loads the block and the five accumulators and stores into each
  output buffer the accumulator combined with the block's moment. What each output buffer ends with is recorded as
  the list of its stores; the run itself finds those lists.
-/
import proofs.«149877_j6811818131595_1_alg».proof.Proof.FrameKernelIdealReset

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the reset branch is not taken: the stores each output buffer ends with, and the run. -/
noncomputable def kernelRun0_B (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) :
    Σ' (L1 : List (View.Piece (Elt F) S1x1x12 .f32)) (L2 : List (View.Piece (Elt F) S1x1x12 .f32)) (L3 : List (View.Piece (Elt F) S1x1x12 .f32)) (L4 : List (View.Piece (Elt F) S1x1x12 .f32)), { L5 : List (View.Piece (Elt F) S1x1x12 .f32) //
      ∀ (E : Set ℕ) (K : PUnit → sProp 𝕄),
        iprop(owns (c : Thread nD τ) arg2 fullShare x0 ∗ owns (c : Thread nD τ) arg3 fullShare xo1 ∗ owns (c : Thread nD τ) arg4 fullShare xo2 ∗ owns (c : Thread nD τ) arg5 fullShare xo3 ∗ owns (c : Thread nD τ) arg6 fullShare xo4 ∗ owns (c : Thread nD τ) arg7 fullShare xo5
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [H4]; · iexists _; iexact H4
    iexists _; iexact H5

end Cert.KernelIdeal.Hand

end
-- ==== Proof.FrameKernelIdeal.lean ====
/-
  The frame of the program, last part: what the five accumulators hold after each grid point, and the run.

  After point n the output windows' staging buffers hold: at a point with j = 0 what the reset case leaves (the reset
  value combined with the block's moment); at any other point what the keeping case leaves over what point n − 1
  left (a block is not written back between two points of the same half, so the buffer still holds it). With these as
  the proof data the body meets its obligation at every point (by cases on j = 0), the region runs to its end, the
  later lines run after it, and the argument arrays end as launched.
-/
import proofs.«149877_j6811818131595_1_alg».proof.Proof.FrameKernelIdealAcc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each output's buffer -/

/-- The reset case's stores into output 1 cover its block. -/
theorem cover0_A_1 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) (y : S1x1x12.Idx) :
    ∃ pc ∈ (kernelRun0_A c i arg2 harg2 arg3 harg3 arg4 harg4 arg5 harg5 arg6 harg6 arg7 harg7 hc0 x0).1, y ∈ pc.1.set :=
  View.cover_of_tiledL (kernelRun0_A c i arg2 harg2 arg3 harg3 arg4 harg4 arg5 harg5 arg6 harg6 arg7 harg7 hc0 x0).1 S1x1x12.size (by sl_kernel_rfl) y

/-- What the reset case leaves in output 1's buffer: its stores read back. -/
def out0_A_1 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) : Vec F S1x1x12 .f32 :=
  VO0_1.read (Elt F) (VO0_1.writes (Elt F) VO0_1.junk (kernelRun0_A c i arg2 harg2 arg3 harg3 arg4 harg4 arg5 harg5 arg6 harg6 arg7 harg7 hc0 x0).1)

/-- The keeping case's stores into output 1 cover its block. -/
theorem cover0_B_1 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).1, y ∈ pc.1.set :=
  View.cover_of_tiledL (kernelRun0_B c i arg2 harg2 arg3 harg3 arg4 harg4 arg5 harg5 arg6 harg6 arg7 harg7 hc0 x0 xo1 xo2 xo3 xo4 xo5).1 S1x1x12.size (by sl_kernel_rfl) y

/-- What the keeping case leaves in output 1's buffer: its stores read back. -/
def out0_B_1 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) : Vec F S1x1x12 .f32 :=
  VO0_1.read (Elt F) (VO0_1.writes (Elt F) VO0_1.junk (kernelRun0_B c i arg2 harg2 arg3 harg3 arg4 harg4 arg5 harg5 arg6 harg6 arg7 harg7 hc0 x0 xo1 xo2 xo3 xo4 xo5).1)

/-- The reset case's stores into output 2 cover its block. -/
theorem cover0_A_2 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) (y : S1x1x12.Idx) :
    ∃ pc ∈ (kernelRun0_A c i arg2 harg2 arg3 harg3 arg4 harg4 arg5 harg5 arg6 harg6 arg7 harg7 hc0 x0).2.1, y ∈ pc.1.set :=
  View.cover_of_tiledL (kernelRun0_A c i arg2 harg2 arg3 harg3 arg4 harg4 arg5 harg5 arg6 harg6 arg7 harg7 hc0 x0).2.1 S1x1x12.size (by sl_kernel_rfl) y

/-- What the reset case leaves in output 2's buffer: its stores read back. -/
def out0_A_2 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) : Vec F S1x1x12 .f32 :=
  VO0_2.read (Elt F) (VO0_2.writes (Elt F) VO0_2.junk (kernelRun0_A c i arg2 harg2 arg3 harg3 arg4 harg4 arg5 harg5 arg6 harg6 arg7 harg7 hc0 x0).2.1)

/-- The keeping case's stores into output 2 cover its block. -/
theorem cover0_B_2 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).2.1, y ∈ pc.1.set :=
  View.cover_of_tiledL (kernelRun0_B c i arg2 harg2 arg3 harg3 arg4 harg4 arg5 harg5 arg6 harg6 arg7 harg7 hc0 x0 xo1 xo2 xo3 xo4 xo5).2.1 S1x1x12.size (by sl_kernel_rfl) y

/-- What the keeping case leaves in output 2's buffer: its stores read back. -/
def out0_B_2 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) : Vec F S1x1x12 .f32 :=
  VO0_2.read (Elt F) (VO0_2.writes (Elt F) VO0_2.junk (kernelRun0_B c i arg2 harg2 arg3 harg3 arg4 harg4 arg5 harg5 arg6 harg6 arg7 harg7 hc0 x0 xo1 xo2 xo3 xo4 xo5).2.1)

/-- The reset case's stores into output 3 cover its block. -/
theorem cover0_A_3 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) (y : S1x1x12.Idx) :
    ∃ pc ∈ (kernelRun0_A c i arg2 harg2 arg3 harg3 arg4 harg4 arg5 harg5 arg6 harg6 arg7 harg7 hc0 x0).2.2.1, y ∈ pc.1.set :=
  View.cover_of_tiledL (kernelRun0_A c i arg2 harg2 arg3 harg3 arg4 harg4 arg5 harg5 arg6 harg6 arg7 harg7 hc0 x0).2.2.1 S1x1x12.size (by sl_kernel_rfl) y

/-- What the reset case leaves in output 3's buffer: its stores read back. -/
def out0_A_3 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) : Vec F S1x1x12 .f32 :=
  VO0_3.read (Elt F) (VO0_3.writes (Elt F) VO0_3.junk (kernelRun0_A c i arg2 harg2 arg3 harg3 arg4 harg4 arg5 harg5 arg6 harg6 arg7 harg7 hc0 x0).2.2.1)

/-- The keeping case's stores into output 3 cover its block. -/
theorem cover0_B_3 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).2.2.1, y ∈ pc.1.set :=
  View.cover_of_tiledL (kernelRun0_B c i arg2 harg2 arg3 harg3 arg4 harg4 arg5 harg5 arg6 harg6 arg7 harg7 hc0 x0 xo1 xo2 xo3 xo4 xo5).2.2.1 S1x1x12.size (by sl_kernel_rfl) y

/-- What the keeping case leaves in output 3's buffer: its stores read back. -/
def out0_B_3 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) : Vec F S1x1x12 .f32 :=
  VO0_3.read (Elt F) (VO0_3.writes (Elt F) VO0_3.junk (kernelRun0_B c i arg2 harg2 arg3 harg3 arg4 harg4 arg5 harg5 arg6 harg6 arg7 harg7 hc0 x0 xo1 xo2 xo3 xo4 xo5).2.2.1)

/-- The reset case's stores into output 4 cover its block. -/
theorem cover0_A_4 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) (y : S1x1x12.Idx) :
    ∃ pc ∈ (kernelRun0_A c i arg2 harg2 arg3 harg3 arg4 harg4 arg5 harg5 arg6 harg6 arg7 harg7 hc0 x0).2.2.2.1, y ∈ pc.1.set :=
  View.cover_of_tiledL (kernelRun0_A c i arg2 harg2 arg3 harg3 arg4 harg4 arg5 harg5 arg6 harg6 arg7 harg7 hc0 x0).2.2.2.1 S1x1x12.size (by sl_kernel_rfl) y

/-- What the reset case leaves in output 4's buffer: its stores read back. -/
def out0_A_4 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) : Vec F S1x1x12 .f32 :=
  VO0_4.read (Elt F) (VO0_4.writes (Elt F) VO0_4.junk (kernelRun0_A c i arg2 harg2 arg3 harg3 arg4 harg4 arg5 harg5 arg6 harg6 arg7 harg7 hc0 x0).2.2.2.1)

/-- The keeping case's stores into output 4 cover its block. -/
theorem cover0_B_4 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).2.2.2.1, y ∈ pc.1.set :=
  View.cover_of_tiledL (kernelRun0_B c i arg2 harg2 arg3 harg3 arg4 harg4 arg5 harg5 arg6 harg6 arg7 harg7 hc0 x0 xo1 xo2 xo3 xo4 xo5).2.2.2.1 S1x1x12.size (by sl_kernel_rfl) y

/-- What the keeping case leaves in output 4's buffer: its stores read back. -/
def out0_B_4 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) : Vec F S1x1x12 .f32 :=
  VO0_4.read (Elt F) (VO0_4.writes (Elt F) VO0_4.junk (kernelRun0_B c i arg2 harg2 arg3 harg3 arg4 harg4 arg5 harg5 arg6 harg6 arg7 harg7 hc0 x0 xo1 xo2 xo3 xo4 xo5).2.2.2.1)

/-- The reset case's stores into output 5 cover its block. -/
theorem cover0_A_5 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) (y : S1x1x12.Idx) :
    ∃ pc ∈ (kernelRun0_A c i arg2 harg2 arg3 harg3 arg4 harg4 arg5 harg5 arg6 harg6 arg7 harg7 hc0 x0).2.2.2.2.1, y ∈ pc.1.set :=
  View.cover_of_tiledL (kernelRun0_A c i arg2 harg2 arg3 harg3 arg4 harg4 arg5 harg5 arg6 harg6 arg7 harg7 hc0 x0).2.2.2.2.1 S1x1x12.size (by sl_kernel_rfl) y

/-- What the reset case leaves in output 5's buffer: its stores read back. -/
def out0_A_5 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : cond0_0 i)
    (x0 : Vec F S1x12x256x256 .f32) : Vec F S1x1x12 .f32 :=
  VO0_5.read (Elt F) (VO0_5.writes (Elt F) VO0_5.junk (kernelRun0_A c i arg2 harg2 arg3 harg3 arg4 harg4 arg5 harg5 arg6 harg6 arg7 harg7 hc0 x0).2.2.2.2.1)

/-- The keeping case's stores into output 5 cover its block. -/
theorem cover0_B_5 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) (y : S1x1x12.Idx) :
    ∃ pc ∈ (kernelRun0_B c i arg2 harg2 arg3 harg3 arg4 harg4 arg5 harg5 arg6 harg6 arg7 harg7 hc0 x0 xo1 xo2 xo3 xo4 xo5).2.2.2.2.1, y ∈ pc.1.set :=
  View.cover_of_tiledL (kernelRun0_B c i arg2 harg2 arg3 harg3 arg4 harg4 arg5 harg5 arg6 harg6 arg7 harg7 hc0 x0 xo1 xo2 xo3 xo4 xo5).2.2.2.2.1 S1x1x12.size (by sl_kernel_rfl) y

/-- What the keeping case leaves in output 5's buffer: its stores read back. -/
def out0_B_5 (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc0 : ¬cond0_0 i)
    (x0 : Vec F S1x12x256x256 .f32) (xo1 xo2 xo3 xo4 xo5 : Vec F S1x1x12 .f32) : Vec F S1x1x12 .f32 :=
  VO0_5.read (Elt F) (VO0_5.writes (Elt F) VO0_5.junk (kernelRun0_B c i arg2 harg2 arg3 harg3 arg4 harg4 arg5 harg5 arg6 harg6 arg7 harg7 hc0 x0 xo1 xo2 xo3 xo4 xo5).2.2.2.2.1)

/-! ## What the outputs hold after each point -/

/-- The five accumulators' blocks, in window order. -/
abbrev Outs (F : FTy → Type) [FloatOps F] : Type := Vec F S1x1x12 .f32 × Vec F S1x1x12 .f32 × Vec F S1x1x12 .f32 × Vec F S1x1x12 .f32 × Vec F S1x1x12 .f32

/-- What the reset case leaves at point `t`. -/
def outA (c : Dev nD) (t : Fin cfg0.N) (h0 : t.val % 16 = 0) : Outs F :=
  (out0_A_1 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t),
   out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t),
   out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t),
   out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t),
   out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t))

/-- What the keeping case leaves at point `t` over the blocks `p` the point before left. -/
def outB (c : Dev nD) (t : Fin cfg0.N) (h0 : ¬t.val % 16 = 0) (p : Outs F) : Outs F :=
  (out0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) p.1 p.2.1 p.2.2.1 p.2.2.2.1 p.2.2.2.2,
   out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) p.1 p.2.1 p.2.2.1 p.2.2.2.1 p.2.2.2.2,
   out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) p.1 p.2.1 p.2.2.1 p.2.2.2.1 p.2.2.2.2,
   out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) p.1 p.2.1 p.2.2.1 p.2.2.2.1 p.2.2.2.2,
   out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) p.1 p.2.1 p.2.2.1 p.2.2.2.1 p.2.2.2.2)

/-- The accumulation: what the outputs' staging buffers hold after the body at position `n`. -/
def outsAt0 (c : Dev nD) : (n : ℕ) → n < cfg0.N → Outs F
  | 0, hn => outA m c ⟨0, hn⟩ (Nat.zero_mod _)
  | n + 1, hn =>
    if h0 : (n + 1) % 16 = 0 then outA m c ⟨n + 1, hn⟩ h0
    else outB m c ⟨n + 1, hn⟩ h0 (outsAt0 c n (Nat.lt_of_succ_lt hn))

/-- At a point with j = 0: the reset case's contents. -/
theorem outsAt0_A (c : Dev nD) (t : Fin cfg0.N) (h0 : t.val % 16 = 0) :
    outsAt0 m c t.val t.isLt = outA m c t h0 := by
  obtain ⟨n, hn⟩ := t
  cases n with
  | zero => exact rfl
  | succ n => exact (dif_pos h0).trans rfl

/-- At any other point: the keeping case's contents over what the point before left. -/
theorem outsAt0_B (c : Dev nD) (t : Fin cfg0.N) (h0 : ¬t.val % 16 = 0) :
    outsAt0 m c t.val t.isLt = outB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the
    outputs' at the accumulation; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
    | ⟨2, _⟩ => (outsAt0 m c t.val t.isLt).2.1
    | ⟨3, _⟩ => (outsAt0 m c t.val t.isLt).2.2.1
    | ⟨4, _⟩ => (outsAt0 m c t.val t.isLt).2.2.2.1
    | ⟨5, _⟩ => (outsAt0 m c t.val t.isLt).2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]
theorem after0_2 (c : Dev nD) (t : Fin cfg0.N) : (dats m 0 c).after 2 t = (outsAt0 m c t.val t.isLt).2.1 := by dsimp only [dats]
theorem after0_3 (c : Dev nD) (t : Fin cfg0.N) : (dats m 0 c).after 3 t = (outsAt0 m c t.val t.isLt).2.2.1 := by dsimp only [dats]
theorem after0_4 (c : Dev nD) (t : Fin cfg0.N) : (dats m 0 c).after 4 t = (outsAt0 m c t.val t.isLt).2.2.2.1 := by dsimp only [dats]
theorem after0_5 (c : Dev nD) (t : Fin cfg0.N) : (dats m 0 c).after 5 t = (outsAt0 m c t.val t.isLt).2.2.2.2 := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d
/-- At a point with j ≠ 0 output 1's current staging buffer holds what the body left at the point before: the block
    was not written back between. -/
theorem before0_1_B (c : Dev nD) (t : Fin cfg0.N) (h0 : ¬t.val % 16 = 0) (d) :
    (dats m 0 c).before 1 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 1 rfl t (by omega) (Bool.eq_false_iff.mpr fun h => by have := (flush0_1 _).mp h; dsimp only at this; omega)
    (fun _ => rfl) (fun _ _ => rfl)]
  dsimp only [dats]
/-- At a point with j ≠ 0 output 2's current staging buffer holds what the body left at the point before: the block
    was not written back between. -/
theorem before0_2_B (c : Dev nD) (t : Fin cfg0.N) (h0 : ¬t.val % 16 = 0) (d) :
    (dats m 0 c).before 2 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]
/-- At a point with j ≠ 0 output 3's current staging buffer holds what the body left at the point before: the block
    was not written back between. -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]
/-- At a point with j ≠ 0 output 4's current staging buffer holds what the body left at the point before: the block
    was not written back between. -/
theorem before0_4_B (c : Dev nD) (t : Fin cfg0.N) (h0 : ¬t.val % 16 = 0) (d) :
    (dats m 0 c).before 4 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]
/-- At a point with j ≠ 0 output 5's current staging buffer holds what the body left at the point before: the block
    was not written back between. -/
theorem before0_5_B (c : Dev nD) (t : Fin cfg0.N) (h0 : ¬t.val % 16 = 0) (d) :
    (dats m 0 c).before 5 t d = (outsAt0 m c (t.val - 1) (Nat.lt_of_le_of_lt (Nat.sub_le _ _) t.isLt)).2.2.2.2 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body at any point: the input's memref holds its block; by cases on j = 0 the matching run applies, at a
    keeping point each output's memref holding what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t]]
  rw [show (dats m 0 c).leavesExact 1 t = owns (c : Thread nD τ) (ms0_1 t) fullShare ((dats m 0 c).after 1 t) from by
    unfold Dat.leavesExact; rw [liveAt0_1 t]]
  rw [show (dats m 0 c).leavesExact 2 t = owns (c : Thread nD τ) (ms0_2 t) fullShare ((dats m 0 c).after 2 t) from by
    unfold Dat.leavesExact; rw [liveAt0_2 t]]
  rw [show (dats m 0 c).leavesExact 3 t = owns (c : Thread nD τ) (ms0_3 t) fullShare ((dats m 0 c).after 3 t) from by
    unfold Dat.leavesExact; rw [liveAt0_3 t]]
  rw [show (dats m 0 c).leavesExact 4 t = owns (c : Thread nD τ) (ms0_4 t) fullShare ((dats m 0 c).after 4 t) from by
    unfold Dat.leavesExact; rw [liveAt0_4 t]]
  rw [show (dats m 0 c).leavesExact 5 t = owns (c : Thread nD τ) (ms0_5 t) fullShare ((dats m 0 c).after 5 t) from by
    unfold Dat.leavesExact; rw [liveAt0_5 t]]
  rw [after0_0, after0_1, after0_2, after0_3, after0_4, after0_5]
  have hN : t.val < 32 := lt_of_lt_of_eq t.isLt (show cfg0.N = 32 from N_0)
  by_cases h0 : t.val % 16 = 0
  · rw [outsAt0_A m c t h0]
    unfold outA out0_A_1 out0_A_2 out0_A_3 out0_A_4 out0_A_5; dsimp only
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t)).2.2.2.2.2 Set.univ _)
    isplitl [H0]; · iexact H0
    isplitl [H1]; · iexists _; iexact H1
    isplitl [H2]; · iexists _; iexact H2
    isplitl [H3]; · iexists _; iexact H3
    isplitl [H4]; · iexists _; iexact H4
    isplitl [H5]; · iexists _; iexact H5
    iintro ⟨H0, ⟨%e1, H1⟩, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _ _ _ _ _ _ _)
    isplitl [H2]
    · unfold owns; iexists _; isplitr
      swap; · iexact H2
      ipureintro; exact View.read_writes_of_cover _ _ _ _ _ (cover0_A_2 c _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _)
  · rw [outsAt0_B m c t h0]
    simp only [before0_1_B m c t h0, before0_2_B m c t h0, before0_3_B m c t h0, before0_4_B m c t h0, before0_5_B m c t h0]
    unfold outB out0_B_1 out0_B_2 out0_B_3 out0_B_4 out0_B_5; dsimp only
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) _ _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, ⟨%e1, H1⟩, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _ _ _ _ _ _ _ _ _ _)
    isplitl [H2]
    · unfold owns; iexists _; isplitr
      swap; · iexact H2
      ipureintro; exact View.read_writes_of_cover _ _ _ _ _ (cover0_B_2 c _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; at the end every array of the region holds
    what the proof data compute and every other unscoped buffer what the later lines leave in it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame: the program runs to its end and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.KernelBlock.lean ====
/-
  The input window's block at grid point t is batch element t of the input array.

  The grid has 2 × 16 points; point t = 16·g + j carries the block index (16·g + j, 0, 0, 0) of the input window, whose
  block is one batch element: 12 channels × 256 rows × 256 columns. So entry (0, ch, h, w) of the block at point t is
  entry (t, ch, h, w) of the input array.
-/
import proofs.«149877_j6811818131595_1_alg».proof.Proof.FrameKernelIdealShared
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The input window's block index at point t: (t, 0, 0, 0), decided over the grid. -/
theorem index0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)

/-- Entry (0, ch, h, w) of the input's block at point t sits in the input array at (t, ch, h, w). -/
theorem rect0_emb (t : Fin cfg0.N) (ch : Fin 12) (h w : Fin 256) :
    (win0_0.rect t).emb (ix4 0 ch h w) = ix4 ⟨t.val, lt_of_lt_of_eq t.isLt N_0⟩ ch h w := by
  obtain ⟨i0, i1, i2, i3⟩ := index0 t
  refine funext fun a => Fin.ext ?_
  rw [Pipeline.Window.rect_emb_val]
  match a with
  | ⟨0, _⟩ => show win0_0.index t 0 * 1 + 0 = t.val; rw [i0]; omega
  | ⟨1, _⟩ => show win0_0.index t 1 * 12 + ch.val = ch.val; rw [i1]; omega
  | ⟨2, _⟩ => show win0_0.index t 2 * 256 + h.val = h.val; rw [i2]; omega
  | ⟨3, _⟩ => show win0_0.index t 3 * 256 + w.val = w.val; rw [i3]; omega

/-- The input's block at point t is batch element t of the input array. -/
theorem iblk_apply (c : Dev nD) (t : Fin cfg0.N) (ch : Fin 12) (h w : Fin 256) :
    iblk m c 0 t (ix4 0 ch h w)
      = m ((c : Thread nD τ).loc main_arg0) (ix4 ⟨t.val, lt_of_lt_of_eq t.isLt N_0⟩ ch h w) := by
  unfold iblk
  rw [View.read_apply]
  show m ((c : Thread nD τ).loc main_arg0) ((win0_0.rect t).emb (ix4 0 ch h w)) = _
  rw [rect0_emb]

end Cert.KernelIdeal.HandValue

end
-- ==== Proof.Moments.lean ====
/-
  What both programs compute, stated once over the extended reals.

  From one entry `x` of the input array: the shifted value `x + 1000`; the validity bit `x + 1000 > 0`; the
  clipped value `min 10000 (max 0 (x + 1000))`; the weight, 1 on a valid entry and 0 elsewhere. Per channel `c` the five
  batch moments range over every batch element, row and column of that channel: the count (sum of the weights), the
  weighted sum and sum of squares of the clipped values, and the least and the greatest clipped value among the valid
  entries (an invalid entry counts as +∞ for the least, −∞ for the greatest; with no valid entry they are +∞ and −∞).
  The literals stay as their binary words: the same word stands on both sides and is never evaluated.
-/
import Idealize.ShloMosaic.PureOps.Ideal
import Idealize.ShloMosaic.Lib.ValueIdx

noncomputable section

open scoped BigOperators

namespace Cert.Moments

open Idealize.ShloMosaic Idealize.ShloMosaic.ValueIdx

/-- The input array's shape, batch × channel × row × column. -/
abbrev SX : Shape := ⟨4, ![32, 12, 256, 256]⟩
/-- One value per channel. -/
abbrev SC : Shape := ⟨1, ![12]⟩

/-- `x + 1000`. -/
def shifted (x : EReal) : EReal := x + Ideal.ofBits .f32 0x447A0000#32
/-- The bit of `x + 1000 > 0`. -/
def valid (x : EReal) : BitVec 1 :=
  FloatOps.cmpf (F := Ideal) (φ := .f32) .ogt (shifted x) (Ideal.ofBits .f32 0x00000000#32)
/-- `min 10000 (max 0 (x + 1000))`. -/
def clipped (x : EReal) : EReal :=
  min (Ideal.ofBits .f32 0x461C4000#32) (max (Ideal.ofBits .f32 0x00000000#32) (shifted x))
/-- The validity bit as a number: 1 or 0. -/
def weight (x : EReal) : EReal := (((valid x).toNat : ℝ) : EReal)
/-- The clipped value where valid, 0 elsewhere. -/
def weighted (x : EReal) : EReal := clipped x * weight x
/-- Its square where valid, 0 elsewhere. -/
def weightedSq (x : EReal) : EReal := clipped x * clipped x * weight x
/-- The clipped value where valid, +∞ elsewhere. -/
def maskedLo (x : EReal) : EReal := Scalar.select (valid x) (clipped x) (Ideal.ofBits .f32 0x7F800000#32)
/-- The clipped value where valid, −∞ elsewhere. -/
def maskedHi (x : EReal) : EReal := Scalar.select (valid x) (clipped x) (Ideal.ofBits .f32 0xFF800000#32)

/-- The sum over batch, row and column of `e` of channel `c`'s entries. -/
def sumOver (e : EReal → EReal) (x : SX.Idx → EReal) (c : Fin 12) : EReal :=
  ∑ b : Fin 32, ∑ h : Fin 256, ∑ w : Fin 256, e (x (ix4 b c h w))
/-- The least of `e` over channel `c`'s entries. -/
def infOver (e : EReal → EReal) (x : SX.Idx → EReal) (c : Fin 12) : EReal :=
  ⨅ b : Fin 32, ⨅ h : Fin 256, ⨅ w : Fin 256, e (x (ix4 b c h w))
/-- The greatest of `e` over channel `c`'s entries. -/
def supOver (e : EReal → EReal) (x : SX.Idx → EReal) (c : Fin 12) : EReal :=
  ⨆ b : Fin 32, ⨆ h : Fin 256, ⨆ w : Fin 256, e (x (ix4 b c h w))

/-- The five batch moments, one vector of twelve each. -/
def count (x : SX.Idx → EReal) : SC.Idx → EReal := fun j => sumOver weight x (j 0)
def total (x : SX.Idx → EReal) : SC.Idx → EReal := fun j => sumOver weighted x (j 0)
def totalSq (x : SX.Idx → EReal) : SC.Idx → EReal := fun j => sumOver weightedSq x (j 0)
def least (x : SX.Idx → EReal) : SC.Idx → EReal := fun j => infOver maskedLo x (j 0)
def greatest (x : SX.Idx → EReal) : SC.Idx → EReal := fun j => supOver maskedHi x (j 0)

/-- The weight is 1 or 0, so the square may be weighted before or after the second factor. -/
theorem weighted_mul_clipped (x : EReal) : weighted x * clipped x = weightedSq x := by
  unfold weighted weightedSq
  rw [mul_assoc, mul_comm (weight x) (clipped x), ← mul_assoc]

/-- A one-bit word widened to 32 bits and read signed is the bit read unsigned. -/
theorem toInt_setWidth_bit (v : BitVec 1) : ((v.setWidth 32).toInt : ℝ) = (v.toNat : ℝ) := by
  have h : ∀ v : BitVec 1, (v.setWidth 32).toInt = (v.toNat : ℤ) := by decide
  rw [h v]; norm_cast

end Cert.Moments

end
-- ==== Proof.PayloadAt.lean ====
/-
  The kernel's payloads read at an index, at the ideal values.

  One grid point loads a block `x` of one batch element: 12 channels × 256 rows × 256 columns. Entry by entry the
  block's payloads are the shifted value, the validity bit, the clipped value, the weight and the weighted value of that
  entry; per channel the five block moments are the sums over rows and columns of the weight, the weighted value and
  the weighted square, and the folds of `min` from +∞ and of `max` from −∞ over rows and columns of the masked
  values. What is stored into a moment's buffer is what it held combined with the block's moment (sum, `min`, `max`),
  or the neutral value of the combination when the buffer is reset.
-/
import proofs.«149877_j6811818131595_1_alg».proof.Proof.Gen.KernelIdeal.Skeleton
import proofs.«149877_j6811818131595_1_alg».proof.Proof.Moments
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayloadAt

open Idealize.ShloMosaic Idealize.ShloMosaic.ValueIdx Cert.KernelIdeal Cert.KernelIdeal.Gen

/-! ## Entry by entry -/

/-- The shifted block at (c, h, w) is the shifted entry. -/
theorem pay11_apply (x : Vec Ideal S1x12x256x256 .f32) (c : Fin 12) (h w : Fin 256) :
    k0_pay11 x (ix3 c h w) = Cert.Moments.shifted (x (ix4 0 c h w)) := by
  unfold k0_pay11
  refine (addf_apply _ _ _).trans ?_
  rw [shapeCast_1abc_abc_apply]
  rfl

/-- The comparison at (c, h, w) is the entry's validity bit. -/
theorem pay12_apply (x : Vec Ideal S1x12x256x256 .f32) (c : Fin 12) (h w : Fin 256) :
    k0_pay12 x (ix3 c h w) = Cert.Moments.valid (x (ix4 0 c h w)) := by
  unfold k0_pay12
  refine (cmpf_apply _ _ _ _).trans ?_
  rw [pay11_apply]
  rfl

/-- The clipped block at (c, h, w) is the clipped entry. -/
theorem pay13_apply (x : Vec Ideal S1x12x256x256 .f32) (c : Fin 12) (h w : Fin 256) :
    k0_pay13 x (ix3 c h w) = Cert.Moments.clipped (x (ix4 0 c h w)) := by
  unfold k0_pay13
  refine (minimumf_apply _ _ _).trans ?_
  refine (congrArg (min _) (maximumf_apply _ _ _)).trans ?_
  rw [pay11_apply]
  rfl

/-- The bit widened and converted at (c, h, w) is the entry's weight. -/
theorem pay14_apply (x : Vec Ideal S1x12x256x256 .f32) (c : Fin 12) (h w : Fin 256) :
    k0_pay14 x (ix3 c h w) = Cert.Moments.weight (x (ix4 0 c h w)) := by
  unfold k0_pay14
  refine (sitofp_apply _ _).trans ?_
  show ((((k0_pay12 x (ix3 c h w)).setWidth 32).toInt : ℝ) : EReal) = _
  rw [pay12_apply, Cert.Moments.toInt_setWidth_bit]
  rfl

/-- The product at (c, h, w) is the entry's weighted value. -/
theorem pay15_apply (x : Vec Ideal S1x12x256x256 .f32) (c : Fin 12) (h w : Fin 256) :
    k0_pay15 x (ix3 c h w) = Cert.Moments.weighted (x (ix4 0 c h w)) := by
  unfold k0_pay15
  refine (mulf_apply _ _ _).trans ?_
  rw [pay13_apply, pay14_apply]
  rfl

/-! ## The index a reduction over one axis reads -/

/-- Over a row index (c, h) of the 12 × 256 × 256 block, column `w` is (c, h, w). -/
theorem lift_cols (c : Fin 12) (h w : Fin 256) :
    reduces_S12x256x256_S12x256.lift (ix2 c h) w = ix3 c h w :=
  funext fun a => match a with | ⟨0, _⟩ => rfl | ⟨1, _⟩ => rfl | ⟨2, _⟩ => rfl

/-- Over a channel index c of the 12 × 256 table, row `h` is (c, h). -/
theorem lift_rows (c : Fin 12) (h : Fin 256) :
    reduces_S12x256_S12.lift (ix1 c) h = ix2 c h :=
  funext fun a => match a with | ⟨0, _⟩ => rfl | ⟨1, _⟩ => rfl

/-! ## A sum over columns, then over rows -/

/-- The sum over the columns of a 12 × 256 × 256 block at (c, h). -/
theorem sum_cols (v : FVec Ideal S12x256x256 .f32) (c : Fin 12) (h : Fin 256) :
    multiReduction (F := Ideal) .add [2] S12x256 v 0x00000000#32 reduces_S12x256x256_S12x256 (.inl rfl) rfl (ix2 c h)
      = ∑ w : Fin 256, v (ix3 c h w) :=
  (Ideal.multiReduction_add_single _ _ _ _ _ _).trans
    (Finset.sum_congr rfl fun w _ => congrArg v (lift_cols c h w))

/-- The sum over the rows of a 12 × 256 table at c. -/
theorem sum_rows (u : FVec Ideal S12x256 .f32) (c : Fin 12) :
    multiReduction (F := Ideal) .add [1] S12 u 0x00000000#32 reduces_S12x256_S12 (.inl rfl) rfl (ix1 c)
      = ∑ h : Fin 256, u (ix2 c h) :=
  (Ideal.multiReduction_add_single _ _ _ _ _ _).trans
    (Finset.sum_congr rfl fun h _ => congrArg u (lift_rows c h))

/-- The sum over columns, then over rows, of a 12 × 256 × 256 block at channel c. -/
theorem sum_cols_rows (v : FVec Ideal S12x256x256 .f32) (c : Fin 12) :
    multiReduction (F := Ideal) .add [1] S12
        (multiReduction (F := Ideal) .add [2] S12x256 v 0x00000000#32 reduces_S12x256x256_S12x256 (.inl rfl) rfl)
        0x00000000#32 reduces_S12x256_S12 (.inl rfl) rfl (ix1 c)
      = ∑ h : Fin 256, ∑ w : Fin 256, v (ix3 c h w) :=
  (sum_rows _ c).trans (Finset.sum_congr rfl fun h _ => sum_cols v c h)

/-! ## A least and a greatest value over columns, then over rows -/

/-- A `min` reduction over one axis: the fold of `min` from the accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The least value over the columns of a 12 × 256 × 256 block at (c, h), from +∞. -/
theorem min_cols (v : FVec Ideal S12x256x256 .f32) (c : Fin 12) (h : Fin 256) :
    multiReduction (F := Ideal) .minimumf [2] S12x256 v 0x7F800000#32 reduces_S12x256x256_S12x256 (.inl rfl) rfl (ix2 c h)
      = (Finset.univ : Finset (Fin 256)).fold min (Ideal.ofBits .f32 0x7F800000#32) (fun w => v (ix3 c h w)) :=
  (multiReduction_minimumf_single _ _ _ _ _ _).trans
    (congrArg (fun f => (Finset.univ : Finset (Fin 256)).fold min (Ideal.ofBits .f32 0x7F800000#32) f)
      (funext fun w => congrArg v (lift_cols c h w)))

/-- The least value over the rows of a 12 × 256 table at c, from +∞. -/
theorem min_rows (u : FVec Ideal S12x256 .f32) (c : Fin 12) :
    multiReduction (F := Ideal) .minimumf [1] S12 u 0x7F800000#32 reduces_S12x256_S12 (.inl rfl) rfl (ix1 c)
      = (Finset.univ : Finset (Fin 256)).fold min (Ideal.ofBits .f32 0x7F800000#32) (fun h => u (ix2 c h)) :=
  (multiReduction_minimumf_single _ _ _ _ _ _).trans
    (congrArg (fun f => (Finset.univ : Finset (Fin 256)).fold min (Ideal.ofBits .f32 0x7F800000#32) f)
      (funext fun h => congrArg u (lift_rows c h)))

/-- The greatest value over the columns of a 12 × 256 × 256 block at (c, h), from −∞. -/
theorem max_cols (v : FVec Ideal S12x256x256 .f32) (c : Fin 12) (h : Fin 256) :
    multiReduction (F := Ideal) .maximumf [2] S12x256 v 0xFF800000#32 reduces_S12x256x256_S12x256 (.inl rfl) rfl (ix2 c h)
      = (Finset.univ : Finset (Fin 256)).fold max (Ideal.ofBits .f32 0xFF800000#32) (fun w => v (ix3 c h w)) :=
  (Ideal.multiReduction_maximumf_single _ _ _ _ _ _).trans
    (congrArg (fun f => (Finset.univ : Finset (Fin 256)).fold max (Ideal.ofBits .f32 0xFF800000#32) f)
      (funext fun w => congrArg v (lift_cols c h w)))

/-- The greatest value over the rows of a 12 × 256 table at c, from −∞. -/
theorem max_rows (u : FVec Ideal S12x256 .f32) (c : Fin 12) :
    multiReduction (F := Ideal) .maximumf [1] S12 u 0xFF800000#32 reduces_S12x256_S12 (.inl rfl) rfl (ix1 c)
      = (Finset.univ : Finset (Fin 256)).fold max (Ideal.ofBits .f32 0xFF800000#32) (fun h => u (ix2 c h)) :=
  (Ideal.multiReduction_maximumf_single _ _ _ _ _ _).trans
    (congrArg (fun f => (Finset.univ : Finset (Fin 256)).fold max (Ideal.ofBits .f32 0xFF800000#32) f)
      (funext fun h => congrArg u (lift_rows c h)))

/-! ## The block's five moments at a channel -/

/-- The block's count at channel c: the sum of the weights over its rows and columns. -/
theorem pay16_apply (x : Vec Ideal S1x12x256x256 .f32) (c : Fin 12) :
    k0_pay16 x (ix1 c) = ∑ h : Fin 256, ∑ w : Fin 256, Cert.Moments.weight (x (ix4 0 c h w)) := by
  unfold k0_pay16
  refine (sum_cols_rows _ c).trans ?_
  exact Finset.sum_congr rfl fun h _ => Finset.sum_congr rfl fun w _ => pay14_apply x c h w

/-- The block's weighted sum at channel c. -/
theorem pay17_apply (x : Vec Ideal S1x12x256x256 .f32) (c : Fin 12) :
    k0_pay17 x (ix1 c) = ∑ h : Fin 256, ∑ w : Fin 256, Cert.Moments.weighted (x (ix4 0 c h w)) := by
  unfold k0_pay17
  refine (sum_cols_rows _ c).trans ?_
  exact Finset.sum_congr rfl fun h _ => Finset.sum_congr rfl fun w _ => pay15_apply x c h w

/-- The block's weighted sum of squares at channel c. -/
theorem pay18_apply (x : Vec Ideal S1x12x256x256 .f32) (c : Fin 12) :
    k0_pay18 x (ix1 c) = ∑ h : Fin 256, ∑ w : Fin 256, Cert.Moments.weightedSq (x (ix4 0 c h w)) := by
  unfold k0_pay18
  refine (sum_cols_rows _ c).trans ?_
  refine Finset.sum_congr rfl fun h _ => Finset.sum_congr rfl fun w _ => ?_
  refine (mulf_apply _ _ _).trans ?_
  rw [pay15_apply, pay13_apply]
  exact Cert.Moments.weighted_mul_clipped _

/-- The block's least valid clipped value at channel c, +∞ where no entry is valid. -/
theorem pay19_apply (x : Vec Ideal S1x12x256x256 .f32) (c : Fin 12) :
    k0_pay19 x (ix1 c)
      = (Finset.univ : Finset (Fin 256)).fold min (Ideal.ofBits .f32 0x7F800000#32) (fun h =>
          (Finset.univ : Finset (Fin 256)).fold min (Ideal.ofBits .f32 0x7F800000#32) (fun w =>
            Cert.Moments.maskedLo (x (ix4 0 c h w)))) := by
  unfold k0_pay19
  refine (min_rows _ c).trans ?_
  refine congrArg (fun f => (Finset.univ : Finset (Fin 256)).fold min (Ideal.ofBits .f32 0x7F800000#32) f)
    (funext fun h => ?_)
  refine (min_cols _ c h).trans ?_
  refine congrArg (fun f => (Finset.univ : Finset (Fin 256)).fold min (Ideal.ofBits .f32 0x7F800000#32) f)
    (funext fun w => ?_)
  refine (select_apply _ _ _ _).trans ?_
  rw [pay12_apply, pay13_apply]
  rfl

/-- The block's greatest valid clipped value at channel c, −∞ where no entry is valid. -/
theorem pay20_apply (x : Vec Ideal S1x12x256x256 .f32) (c : Fin 12) :
    k0_pay20 x (ix1 c)
      = (Finset.univ : Finset (Fin 256)).fold max (Ideal.ofBits .f32 0xFF800000#32) (fun h =>
          (Finset.univ : Finset (Fin 256)).fold max (Ideal.ofBits .f32 0xFF800000#32) (fun w =>
            Cert.Moments.maskedHi (x (ix4 0 c h w)))) := by
  unfold k0_pay20
  refine (max_rows _ c).trans ?_
  refine congrArg (fun f => (Finset.univ : Finset (Fin 256)).fold max (Ideal.ofBits .f32 0xFF800000#32) f)
    (funext fun h => ?_)
  refine (max_cols _ c h).trans ?_
  refine congrArg (fun f => (Finset.univ : Finset (Fin 256)).fold max (Ideal.ofBits .f32 0xFF800000#32) f)
    (funext fun w => ?_)
  refine (select_apply _ _ _ _).trans ?_
  rw [pay12_apply, pay13_apply]
  rfl

/-! ## What a moment's buffer receives -/

/-- A vector of twelve viewed 1 × 1 × 12 reads, at (0, 0, c), its entry c. -/
theorem cast_S12_apply (p : FVec Ideal S12 .f32) (c : Fin 12) :
    shapeCast S1x1x12 p shapeCasts_S12_S1x1x12 (ix3 0 0 c) = p (ix1 c) :=
  shapeCast_apply p _ _ _ (by
    rw [Shape.rowMajor_val_one, Shape.rowMajor_val_three]
    show c.val = (0 * 1 + 0) * 12 + c.val
    omega)

/-- The count's buffer receives what it held plus the block's count. -/
theorem pay1_apply (p : FVec Ideal S12 .f32) (prev : Vec Ideal S1x1x12 .f32) (c : Fin 12) :
    k0_pay1 p prev (ix3 0 0 c) = prev (ix3 0 0 c) + p (ix1 c) := by
  unfold k0_pay1
  refine (addf_apply _ _ _).trans ?_
  rw [shapeCast_self, cast_S12_apply]

/-- The sum's buffer receives what it held plus the block's weighted sum. -/
theorem pay2_apply (p : FVec Ideal S12 .f32) (prev : Vec Ideal S1x1x12 .f32) (c : Fin 12) :
    k0_pay2 p prev (ix3 0 0 c) = prev (ix3 0 0 c) + p (ix1 c) := by
  unfold k0_pay2
  refine (addf_apply _ _ _).trans ?_
  rw [shapeCast_self, cast_S12_apply]

/-- The buffer of the sum of squares receives what it held plus the block's weighted sum of squares. -/
theorem pay3_apply (p : FVec Ideal S12 .f32) (prev : Vec Ideal S1x1x12 .f32) (c : Fin 12) :
    k0_pay3 p prev (ix3 0 0 c) = prev (ix3 0 0 c) + p (ix1 c) := by
  unfold k0_pay3
  refine (addf_apply _ _ _).trans ?_
  rw [shapeCast_self, cast_S12_apply]

/-- The least value's buffer receives the lesser of what it held and the block's least value. -/
theorem pay4_apply (p : FVec Ideal S12 .f32) (prev : Vec Ideal S1x1x12 .f32) (c : Fin 12) :
    k0_pay4 p prev (ix3 0 0 c) = min (prev (ix3 0 0 c)) (p (ix1 c)) := by
  unfold k0_pay4
  refine (minimumf_apply _ _ _).trans ?_
  rw [shapeCast_self, cast_S12_apply]

/-- The greatest value's buffer receives the greater of what it held and the block's greatest value. -/
theorem pay5_apply (p : FVec Ideal S12 .f32) (prev : Vec Ideal S1x1x12 .f32) (c : Fin 12) :
    k0_pay5 p prev (ix3 0 0 c) = max (prev (ix3 0 0 c)) (p (ix1 c)) := by
  unfold k0_pay5
  refine (maximumf_apply _ _ _).trans ?_
  rw [shapeCast_self, cast_S12_apply]

/-! ## The reset values -/

/-- On a reset the count's buffer receives 0. -/
theorem pay6_apply (c : Fin 12) : k0_pay6 (F := Ideal) (ix3 0 0 c) = Ideal.ofBits .f32 0x00000000#32 := rfl
/-- On a reset the sum's buffer receives 0. -/
theorem pay7_apply (c : Fin 12) : k0_pay7 (F := Ideal) (ix3 0 0 c) = Ideal.ofBits .f32 0x00000000#32 := rfl
/-- On a reset the buffer of the sum of squares receives 0. -/
theorem pay8_apply (c : Fin 12) : k0_pay8 (F := Ideal) (ix3 0 0 c) = Ideal.ofBits .f32 0x00000000#32 := rfl
/-- On a reset the least value's buffer receives +∞. -/
theorem pay9_apply (c : Fin 12) : k0_pay9 (F := Ideal) (ix3 0 0 c) = Ideal.ofBits .f32 0x7F800000#32 := rfl
/-- On a reset the greatest value's buffer receives −∞. -/
theorem pay10_apply (c : Fin 12) : k0_pay10 (F := Ideal) (ix3 0 0 c) = Ideal.ofBits .f32 0xFF800000#32 := rfl

end Cert.KernelIdeal.PayloadAt

end
-- ==== Proof.LibReindex.lean ====
import Mathlib.Algebra.BigOperators.Fin
import Mathlib.Algebra.BigOperators.Group.Finset.Basic
import Mathlib.Data.Finset.Fold
import Mathlib.Logic.Equiv.Fin.Basic
import Mathlib.Order.CompleteLattice.Basic
import Mathlib.Data.EReal.Basic
import Idealize.ShloMosaic.PureOps.Ideal

/-!
# Re-indexing of finite sums, infima and suprema

A reduction over one flattened axis of `2097152 = 32 · 256 · 256` entries equals the
nested reduction over (batch, row, column); a reduction over the batch of `32` equals the
nested reduction over `2` halves of `16`.  The statements hold in any commutative additive
monoid (sums) and in any complete lattice (infima, suprema).  Also: a fold of `min` / `max`
from the neutral value is the infimum / supremum, the extended reals denoted by three
single-precision bit patterns, and the closed form of a running accumulation.
-/

namespace Cert.Reindex

open scoped BigOperators

/-! ### Splitting one index of size `m · n` into a pair -/

/-- The bound `i · n + j < m · n` for `i < m`, `j < n`. -/
theorem pair_lt {m n : ℕ} (i : Fin m) (j : Fin n) : i.val * n + j.val < m * n :=
  calc i.val * n + j.val < i.val * n + n := Nat.add_lt_add_left j.isLt _
    _ = (i.val + 1) * n := (Nat.succ_mul _ _).symm
    _ ≤ m * n := Nat.mul_le_mul_right _ i.isLt

/-- The pairing `(i, j) ↦ i · n + j` as an equivalence `Fin m × Fin n ≃ Fin N` when `N = m · n`. -/
def pairEquiv {N : ℕ} (m n : ℕ) (hN : N = m * n) : Fin m × Fin n ≃ Fin N :=
  finProdFinEquiv.trans (finCongr hN.symm)

/-- The value of the pairing equivalence. -/
theorem pairEquiv_val {N : ℕ} (m n : ℕ) (hN : N = m * n) (i : Fin m) (j : Fin n) :
    (pairEquiv m n hN (i, j)).val = i.val * n + j.val := by
  simp [pairEquiv, finProdFinEquiv, Nat.mul_comm, Nat.add_comm]

/-- A sum over `Fin N`, `N = m · n`, is the nested sum over `Fin m` and `Fin n`. -/
theorem sum_fin_mul {M : Type*} [AddCommMonoid M] {N : ℕ} (m n : ℕ) (hN : N = m * n)
    (F : Fin N → M) :
    ∑ k, F k = ∑ i : Fin m, ∑ j : Fin n, F ⟨i.val * n + j.val, hN ▸ pair_lt i j⟩ := by
  rw [← (pairEquiv m n hN).sum_comp F, Fintype.sum_prod_type]
  refine Finset.sum_congr rfl fun i _ => Finset.sum_congr rfl fun j _ => ?_
  exact congrArg F (Fin.ext (pairEquiv_val m n hN i j))

/-- An infimum over `Fin N`, `N = m · n`, is the nested infimum over `Fin m` and `Fin n`. -/
theorem iInf_fin_mul {M : Type*} [CompleteLattice M] {N : ℕ} (m n : ℕ) (hN : N = m * n)
    (F : Fin N → M) :
    ⨅ k, F k = ⨅ i : Fin m, ⨅ j : Fin n, F ⟨i.val * n + j.val, hN ▸ pair_lt i j⟩ := by
  rw [← (pairEquiv m n hN).iInf_comp (g := F), iInf_prod]
  refine iInf_congr fun i => iInf_congr fun j => ?_
  exact congrArg F (Fin.ext (pairEquiv_val m n hN i j))

/-- A supremum over `Fin N`, `N = m · n`, is the nested supremum over `Fin m` and `Fin n`. -/
theorem iSup_fin_mul {M : Type*} [CompleteLattice M] {N : ℕ} (m n : ℕ) (hN : N = m * n)
    (F : Fin N → M) :
    ⨆ k, F k = ⨆ i : Fin m, ⨆ j : Fin n, F ⟨i.val * n + j.val, hN ▸ pair_lt i j⟩ := by
  rw [← (pairEquiv m n hN).iSup_comp (g := F), iSup_prod]
  refine iSup_congr fun i => iSup_congr fun j => ?_
  exact congrArg F (Fin.ext (pairEquiv_val m n hN i j))

/-! ### The flattened axis `2097152 = 32 · 256 · 256` and the batch `32 = 2 · 16` -/

/-- A sum over the flattened axis is the nested sum over (batch, row, column). -/
theorem sum_flat {M : Type*} [AddCommMonoid M] (F : Fin 2097152 → M) :
    ∑ k, F k = ∑ b : Fin 32, ∑ h : Fin 256, ∑ w : Fin 256,
      F ⟨b.val * 65536 + h.val * 256 + w.val, by omega⟩ := by
  rw [sum_fin_mul 32 65536 (by norm_num) F]
  refine Finset.sum_congr rfl fun b _ => ?_
  rw [sum_fin_mul 256 256 (by norm_num)
    (fun j : Fin 65536 => F ⟨b.val * 65536 + j.val, by omega⟩)]
  refine Finset.sum_congr rfl fun h _ => Finset.sum_congr rfl fun w _ => ?_
  exact congrArg F (Fin.ext (Nat.add_assoc _ _ _).symm)

/-- A sum over the batch of `32` is the nested sum over `2` halves of `16`. -/
theorem sum_batch {M : Type*} [AddCommMonoid M] (G : Fin 32 → M) :
    ∑ b, G b = ∑ g : Fin 2, ∑ j : Fin 16, G ⟨g.val * 16 + j.val, by omega⟩ :=
  sum_fin_mul 2 16 (by norm_num) G

/-- An infimum over the flattened axis is the nested infimum over (batch, row, column). -/
theorem iInf_flat {M : Type*} [CompleteLattice M] (F : Fin 2097152 → M) :
    ⨅ k, F k = ⨅ b : Fin 32, ⨅ h : Fin 256, ⨅ w : Fin 256,
      F ⟨b.val * 65536 + h.val * 256 + w.val, by omega⟩ := by
  rw [iInf_fin_mul 32 65536 (by norm_num) F]
  refine iInf_congr fun b => ?_
  rw [iInf_fin_mul 256 256 (by norm_num)
    (fun j : Fin 65536 => F ⟨b.val * 65536 + j.val, by omega⟩)]
  refine iInf_congr fun h => iInf_congr fun w => ?_
  exact congrArg F (Fin.ext (Nat.add_assoc _ _ _).symm)

/-- An infimum over the batch of `32` is the nested infimum over `2` halves of `16`. -/
theorem iInf_batch {M : Type*} [CompleteLattice M] (G : Fin 32 → M) :
    ⨅ b, G b = ⨅ g : Fin 2, ⨅ j : Fin 16, G ⟨g.val * 16 + j.val, by omega⟩ :=
  iInf_fin_mul 2 16 (by norm_num) G

/-- A supremum over the flattened axis is the nested supremum over (batch, row, column). -/
theorem iSup_flat {M : Type*} [CompleteLattice M] (F : Fin 2097152 → M) :
    ⨆ k, F k = ⨆ b : Fin 32, ⨆ h : Fin 256, ⨆ w : Fin 256,
      F ⟨b.val * 65536 + h.val * 256 + w.val, by omega⟩ := by
  rw [iSup_fin_mul 32 65536 (by norm_num) F]
  refine iSup_congr fun b => ?_
  rw [iSup_fin_mul 256 256 (by norm_num)
    (fun j : Fin 65536 => F ⟨b.val * 65536 + j.val, by omega⟩)]
  refine iSup_congr fun h => iSup_congr fun w => ?_
  exact congrArg F (Fin.ext (Nat.add_assoc _ _ _).symm)

/-- A supremum over the batch of `32` is the nested supremum over `2` halves of `16`. -/
theorem iSup_batch {M : Type*} [CompleteLattice M] (G : Fin 32 → M) :
    ⨆ b, G b = ⨆ g : Fin 2, ⨆ j : Fin 16, G ⟨g.val * 16 + j.val, by omega⟩ :=
  iSup_fin_mul 2 16 (by norm_num) G

/-! ### Folds of `min` and `max` from the neutral value -/

/-- A fold of `min` over all of `Fin n`, started at `⊤`, is the infimum. -/
theorem fold_min_eq_iInf {n : ℕ} (t : EReal) (ht : t = ⊤) (f : Fin n → EReal) :
    (Finset.univ : Finset (Fin n)).fold min t f = ⨅ i, f i := by
  refine eq_of_forall_le_iff fun c => ?_
  rw [Finset.le_fold_min, le_iInf_iff, ht]
  simp

/-- A fold of `max` over all of `Fin n`, started at `⊥`, is the supremum. -/
theorem fold_max_eq_iSup {n : ℕ} (t : EReal) (ht : t = ⊥) (f : Fin n → EReal) :
    (Finset.univ : Finset (Fin n)).fold max t f = ⨆ i, f i := by
  refine eq_of_forall_ge_iff fun c => ?_
  rw [Finset.fold_max_le, iSup_le_iff, ht]
  simp

/-! ### Three single-precision bit patterns as extended reals -/

/-- The pattern `0x7F800000` (sign 0, exponent all ones, fraction 0) denotes `+∞`. -/
theorem ofBits_posInf :
    Idealize.ShloMosaic.Ideal.ofBits .f32 0x7F800000#32 = (⊤ : EReal) := by
  simp [Idealize.ShloMosaic.Ideal.ofBits, Idealize.ShloMosaic.Ideal.ieee]

/-- The pattern `0xFF800000` (sign 1, exponent all ones, fraction 0) denotes `-∞`. -/
theorem ofBits_negInf :
    Idealize.ShloMosaic.Ideal.ofBits .f32 0xFF800000#32 = (⊥ : EReal) := by
  simp [Idealize.ShloMosaic.Ideal.ofBits, Idealize.ShloMosaic.Ideal.ieee]

/-- The all-zero pattern denotes `0`. -/
theorem ofBits_zero :
    Idealize.ShloMosaic.Ideal.ofBits .f32 0x00000000#32 = (0 : EReal) := by
  simp [Idealize.ShloMosaic.Ideal.ofBits, Idealize.ShloMosaic.Ideal.ieee]

/-! ### Running accumulations -/

/-- A sum over `range n` as a sum over `Fin n`. -/
theorem sum_range_fin {M : Type*} [AddCommMonoid M] (p : ℕ → M) (n : ℕ) :
    ∑ i ∈ Finset.range n, p i = ∑ i : Fin n, p i.val :=
  (Fin.sum_univ_eq_sum_range p n).symm

/-- A running sum `a 0 = z + p 0`, `a (n+1) = a n + p (n+1)` is `z` plus the partial sum. -/
theorem acc_sum {M : Type*} [AddCommMonoid M] (z : M) (p a : ℕ → M) (h0 : a 0 = z + p 0)
    (hs : ∀ n, a (n + 1) = a n + p (n + 1)) (n : ℕ) :
    a n = z + ∑ i ∈ Finset.range (n + 1), p i := by
  induction n with
  | zero => simp [h0]
  | succ n ih => rw [hs, ih, Finset.sum_range_succ _ (n + 1), add_assoc]

/-- `c` is below the infimum of `p` over `Fin n` iff it is below every `p i`, `i < n`. -/
theorem le_iInf_fin_iff (p : ℕ → EReal) (n : ℕ) (c : EReal) :
    c ≤ ⨅ i : Fin n, p i.val ↔ ∀ i < n, c ≤ p i := by
  rw [le_iInf_iff]
  exact ⟨fun h i hi => h ⟨i, hi⟩, fun h i => h i.val i.isLt⟩

/-- The supremum of `p` over `Fin n` is below `c` iff every `p i`, `i < n`, is. -/
theorem iSup_fin_le_iff (p : ℕ → EReal) (n : ℕ) (c : EReal) :
    ⨆ i : Fin n, p i.val ≤ c ↔ ∀ i < n, p i ≤ c := by
  rw [iSup_le_iff]
  exact ⟨fun h i hi => h ⟨i, hi⟩, fun h i => h i.val i.isLt⟩

/-- A running minimum `a 0 = min t (p 0)`, `a (n+1) = min (a n) (p (n+1))` is `min t` of the
infimum of the first `n + 1` terms. -/
theorem acc_min (t : EReal) (p a : ℕ → EReal) (h0 : a 0 = min t (p 0))
    (hs : ∀ n, a (n + 1) = min (a n) (p (n + 1))) (n : ℕ) :
    a n = min t (⨅ i : Fin (n + 1), p i.val) := by
  refine eq_of_forall_le_iff fun c => ?_
  rw [le_min_iff, le_iInf_fin_iff]
  induction n with
  | zero => rw [h0, le_min_iff]; simp
  | succ n ih => rw [hs, le_min_iff, ih, Nat.forall_lt_succ_right (n := n + 1), and_assoc]

/-- A running maximum `a 0 = max t (p 0)`, `a (n+1) = max (a n) (p (n+1))` is `max t` of the
supremum of the first `n + 1` terms. -/
theorem acc_max (t : EReal) (p a : ℕ → EReal) (h0 : a 0 = max t (p 0))
    (hs : ∀ n, a (n + 1) = max (a n) (p (n + 1))) (n : ℕ) :
    a n = max t (⨆ i : Fin (n + 1), p i.val) := by
  refine eq_of_forall_ge_iff fun c => ?_
  rw [max_le_iff, iSup_fin_le_iff]
  induction n with
  | zero => rw [h0, max_le_iff]; simp
  | succ n ih => rw [hs, max_le_iff, ih, Nat.forall_lt_succ_right (n := n + 1), and_assoc]

end Cert.Reindex
-- ==== Proof.KernelSums.lean ====
/-
  What the three sum accumulators' arrays hold after the region, at the ideal values.

  Point (g, j) of the 2 × 16 grid loads batch element 16·g + j of the input array. At j = 0 an accumulator's buffer
  is reset to 0 and the element's moment is added; at every later j the element's moment is added to what the buffer
  held; after j = 15 the buffer is written back as block g of the accumulator's array. So entry (g, 0, c) of the
  count's, the sum's and the sum of squares' arrays ends as the sum, over the sixteen batch elements of half g and
  over the rows and columns of channel c, of the entry's weight, weighted value and weighted square.
-/
import proofs.«149877_j6811818131595_1_alg».proof.Proof.FrameKernelIdeal
import proofs.«149877_j6811818131595_1_alg».proof.Proof.KernelBlock
import proofs.«149877_j6811818131595_1_alg».proof.Proof.PayloadAt
import proofs.«149877_j6811818131595_1_alg».proof.Proof.Moments
import proofs.«149877_j6811818131595_1_alg».proof.Proof.LibReindex
import Idealize.ShloMosaic.Lib.Pipeline.Value
import Idealize.ShloMosaic.Lib.ValueIdx
import Idealize.ShloMosaic.Lib.Tactic

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.Tactic Idealize.SL.Sem
open Idealize.ShloMosaic.Pipeline (Dat)

variable (m : (ℓ : Loc nD τ sig) → Buf (Elt Ideal) ℓ)

/-! ## What a case leaves is the payload -/

/-- The zero offsets of a 1 × 1 × 12 block. -/
theorem hz : (![0, 0, 0] : Fin 3 → Nat) = fun _ => 0 := funext fun a => by fin_cases a <;> rfl
/-- The zero offsets of a 1 × 12 × 256 × 256 block. -/
theorem hz4 : (![0, 0, 0, 0] : Fin 4 → Nat) = fun _ => 0 := funext fun a => by fin_cases a <;> rfl

/-- At a keeping point the count's buffer ends with what it held combined with the block's moment. -/
theorem outB_1_eq {F : FTy → Type} [FloatOps F] (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc : ¬cond0_0 i)
    (x : Vec F S1x12x256x256 .f32) (xo1 xo2 xo3 xo4 xo5 : Vec F S1x1x12 .f32) :
    out0_B_1 c i arg2 harg2 arg3 harg3 arg4 harg4 arg5 harg5 arg6 harg6 arg7 harg7 hc x xo1 xo2 xo3 xo4 xo5 = k0_pay1 (k0_pay16 x) xo1 := by
  unfold out0_B_1
  rw [View.read_writes_eq_canon _ _ _ (cover0_B_1 c i arg2 harg2 arg3 harg3 arg4 harg4 arg5 harg5 arg6 harg6 arg7 harg7 hc x xo1 xo2 xo3 xo4 xo5)]
  unfold kernelRun0_B
  dsimp only
  sl_unfold_words
  rw [View.canon_unit_zero hz]
  simp only [View.readAt_eq_ld, harg2.read_unread, harg3.read_unread, View.ld_unit_zero (S := S1x1x12) hz,
    View.ld_unit_zero (S := S1x12x256x256) hz4]

/-- At a reset point the count's buffer ends with the reset value combined with the block's moment. -/
theorem outA_1_eq {F : FTy → Type} [FloatOps F] (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc : cond0_0 i)
    (x : Vec F S1x12x256x256 .f32) :
    out0_A_1 c i arg2 harg2 arg3 harg3 arg4 harg4 arg5 harg5 arg6 harg6 arg7 harg7 hc x = k0_pay1 (k0_pay16 x) k0_pay6 := by
  unfold out0_A_1
  rw [View.read_writes_eq_canon _ _ _ (cover0_A_1 c i arg2 harg2 arg3 harg3 arg4 harg4 arg5 harg5 arg6 harg6 arg7 harg7 hc x)]
  unfold kernelRun0_A
  dsimp only
  sl_unfold_words
  rw [View.canon_cons_unit_zero (S := S1x1x12) hz, View.readCov_unit_zero (S := S1x1x12) _ hz]
  simp only [View.readAt_eq_ld, harg2.read_unread, View.ld_unit_zero (S := S1x12x256x256) hz4]

/-- At a keeping point the sum's buffer ends with what it held combined with the block's moment. -/
theorem outB_2_eq {F : FTy → Type} [FloatOps F] (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc : ¬cond0_0 i)
    (x : Vec F S1x12x256x256 .f32) (xo1 xo2 xo3 xo4 xo5 : Vec F S1x1x12 .f32) :
    out0_B_2 c i arg2 harg2 arg3 harg3 arg4 harg4 arg5 harg5 arg6 harg6 arg7 harg7 hc x xo1 xo2 xo3 xo4 xo5 = k0_pay2 (k0_pay17 x) xo2 := by
  unfold out0_B_2
  rw [View.read_writes_eq_canon _ _ _ (cover0_B_2 c i arg2 harg2 arg3 harg3 arg4 harg4 arg5 harg5 arg6 harg6 arg7 harg7 hc x xo1 xo2 xo3 xo4 xo5)]
  unfold kernelRun0_B
  dsimp only
  sl_unfold_words
  rw [View.canon_unit_zero hz]
  simp only [View.readAt_eq_ld, harg2.read_unread, harg4.read_unread, View.ld_unit_zero (S := S1x1x12) hz,
    View.ld_unit_zero (S := S1x12x256x256) hz4]

/-- At a reset point the sum's buffer ends with the reset value combined with the block's moment. -/
theorem outA_2_eq {F : FTy → Type} [FloatOps F] (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc : cond0_0 i)
    (x : Vec F S1x12x256x256 .f32) :
    out0_A_2 c i arg2 harg2 arg3 harg3 arg4 harg4 arg5 harg5 arg6 harg6 arg7 harg7 hc x = k0_pay2 (k0_pay17 x) k0_pay7 := by
  unfold out0_A_2
  rw [View.read_writes_eq_canon _ _ _ (cover0_A_2 c i arg2 harg2 arg3 harg3 arg4 harg4 arg5 harg5 arg6 harg6 arg7 harg7 hc x)]
  unfold kernelRun0_A
  dsimp only
  sl_unfold_words
  rw [View.canon_cons_unit_zero (S := S1x1x12) hz, View.readCov_unit_zero (S := S1x1x12) _ hz]
  simp only [View.readAt_eq_ld, harg2.read_unread, View.ld_unit_zero (S := S1x12x256x256) hz4]

/-- At a keeping point the sum of squares's buffer ends with what it held combined with the block's moment. -/
theorem outB_3_eq {F : FTy → Type} [FloatOps F] (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc : ¬cond0_0 i)
    (x : Vec F S1x12x256x256 .f32) (xo1 xo2 xo3 xo4 xo5 : Vec F S1x1x12 .f32) :
    out0_B_3 c i arg2 harg2 arg3 harg3 arg4 harg4 arg5 harg5 arg6 harg6 arg7 harg7 hc x xo1 xo2 xo3 xo4 xo5 = k0_pay3 (k0_pay18 x) xo3 := by
  unfold out0_B_3
  rw [View.read_writes_eq_canon _ _ _ (cover0_B_3 c i arg2 harg2 arg3 harg3 arg4 harg4 arg5 harg5 arg6 harg6 arg7 harg7 hc x xo1 xo2 xo3 xo4 xo5)]
  unfold kernelRun0_B
  dsimp only
  sl_unfold_words
  rw [View.canon_unit_zero hz]
  simp only [View.readAt_eq_ld, harg2.read_unread, harg5.read_unread, View.ld_unit_zero (S := S1x1x12) hz,
    View.ld_unit_zero (S := S1x12x256x256) hz4]

/-- At a reset point the sum of squares's buffer ends with the reset value combined with the block's moment. -/
theorem outA_3_eq {F : FTy → Type} [FloatOps F] (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc : cond0_0 i)
    (x : Vec F S1x12x256x256 .f32) :
    out0_A_3 c i arg2 harg2 arg3 harg3 arg4 harg4 arg5 harg5 arg6 harg6 arg7 harg7 hc x = k0_pay3 (k0_pay18 x) k0_pay8 := by
  unfold out0_A_3
  rw [View.read_writes_eq_canon _ _ _ (cover0_A_3 c i arg2 harg2 arg3 harg3 arg4 harg4 arg5 harg5 arg6 harg6 arg7 harg7 hc x)]
  unfold kernelRun0_A
  dsimp only
  sl_unfold_words
  rw [View.canon_cons_unit_zero (S := S1x1x12) hz, View.readCov_unit_zero (S := S1x1x12) _ hz]
  simp only [View.readAt_eq_ld, harg2.read_unread, View.ld_unit_zero (S := S1x12x256x256) hz4]

/-! ## A sum accumulator over the grid, at a channel -/

section Acc

variable (c : Dev nD) (proj : Outs Ideal → Vec Ideal S1x1x12 .f32)
  (upd : FVec Ideal S12 .f32 → Vec Ideal S1x1x12 .f32 → FVec Ideal S1x1x12 .f32)
  (mom : Vec Ideal S1x12x256x256 .f32 → FVec Ideal S12 .f32) (rst : FVec Ideal S1x1x12 .f32) (e : EReal → EReal)

/-- The sum of `e` over the rows and columns of channel ch of batch element n; 0 past the batch. -/
def addend (n : ℕ) (ch : Fin 12) : EReal :=
  if hn : n < cfg0.N then
    ∑ h : Fin 256, ∑ w : Fin 256, e (m ((c : Thread nD τ).loc main_arg0) (ix4 ⟨n, lt_of_lt_of_eq hn N_0⟩ ch h w))
  else 0

/-- An accumulator that is reset to 0 and takes the block's moment at the points ≡ 0 (mod 16), and takes the block's moment
    over what the point before left at every other point, holds after point t the sum of the moments of the batch
    elements from the first of t's half up to t. -/
theorem acc_run
    (hA : ∀ (t : Fin cfg0.N) (h0 : t.val % 16 = 0), proj (outsAt0 m c t.val t.isLt) = upd (mom (iblk m c 0 t)) rst)
    (hB : ∀ (t : Fin cfg0.N) (h0 : ¬t.val % 16 = 0), proj (outsAt0 m c t.val t.isLt)
      = upd (mom (iblk m c 0 t)) (proj (outsAt0 m c (t.val - 1) (Nat.lt_of_le_of_lt (Nat.sub_le _ _) t.isLt))))
    (hupd : ∀ p prev ch, upd p prev (ix3 0 0 ch) = prev (ix3 0 0 ch) + p (ix1 ch))
    (hrst : ∀ ch, rst (ix3 0 0 ch) = Ideal.ofBits .f32 0x00000000#32)
    (hmom : ∀ x ch, mom x (ix1 ch) = ∑ h : Fin 256, ∑ w : Fin 256, e (x (ix4 0 ch h w)))
    (t : Fin cfg0.N) (ch : Fin 12) :
    proj (outsAt0 m c t.val t.isLt) (ix3 0 0 ch)
      = Ideal.ofBits .f32 0x00000000#32 + ∑ s ∈ Finset.range (t.val % 16 + 1), addend m c e (16 * (t.val / 16) + s) ch := by
  have h' : 16 * (t.val / 16) + t.val % 16 < cfg0.N := by rw [Nat.div_add_mod]; exact t.isLt
  have hP : ∀ (n : ℕ) (hn : n < cfg0.N) (ch : Fin 12), mom (iblk m c 0 ⟨n, hn⟩) (ix1 ch) = addend m c e n ch := by
    intro n hn ch
    rw [hmom]; unfold addend; rw [dif_pos hn]
    exact Finset.sum_congr rfl fun h _ => Finset.sum_congr rfl fun w _ => congrArg e (iblk_apply m c ⟨n, hn⟩ ch h w)
  have key := Pipeline.eq_accAt_of_mod (N := cfg0.N)
    (fun n hn (ch : Fin 12) => proj (outsAt0 m c n hn) (ix3 0 0 ch)) 16
    (fun n hn ch => Ideal.ofBits .f32 0x00000000#32 + addend m c e n ch)
    (fun n hn acc ch => acc ch + addend m c e n ch)
    (fun n hn h0 => funext fun ch => by rw [hA ⟨n, hn⟩ h0, hupd, hrst, hP])
    (fun n hn h0 => funext fun ch => by rw [hB ⟨n + 1, hn⟩ h0, hupd, hP]; rfl)
    (by norm_num) t.val t.isLt h'
  refine (congrFun key ch).trans ?_
  exact Pipeline.accAt_add_apply _ _ (fun _ => Ideal.ofBits .f32 0x00000000#32) (addend m c e) (16 * (t.val / 16)) 15
    (fun _ _ => rfl) (fun _ _ _ _ _ _ => rfl) (t.val % 16) (by omega) h' ch

/-- The sum of `e` over the sixteen batch elements of half g and the rows and columns of channel ch. -/
def halfSum (g : ℕ) (hg : g < 2) (ch : Fin 12) : EReal :=
  ∑ j : Fin 16, ∑ h : Fin 256, ∑ w : Fin 256,
    e (m ((c : Thread nD τ).loc main_arg0) (ix4 ⟨g * 16 + j.val, by omega⟩ ch h w))

/-- The point's half, below 2. -/
theorem half_lt (t : Fin cfg0.N) : t.val / 16 < 2 := by
  have := lt_of_lt_of_eq t.isLt N_0; omega

/-- At the last point of a half such an accumulator holds the half's sum. -/
theorem acc_flush
    (hA : ∀ (t : Fin cfg0.N) (h0 : t.val % 16 = 0), proj (outsAt0 m c t.val t.isLt) = upd (mom (iblk m c 0 t)) rst)
    (hB : ∀ (t : Fin cfg0.N) (h0 : ¬t.val % 16 = 0), proj (outsAt0 m c t.val t.isLt)
      = upd (mom (iblk m c 0 t)) (proj (outsAt0 m c (t.val - 1) (Nat.lt_of_le_of_lt (Nat.sub_le _ _) t.isLt))))
    (hupd : ∀ p prev ch, upd p prev (ix3 0 0 ch) = prev (ix3 0 0 ch) + p (ix1 ch))
    (hrst : ∀ ch, rst (ix3 0 0 ch) = Ideal.ofBits .f32 0x00000000#32)
    (hmom : ∀ x ch, mom x (ix1 ch) = ∑ h : Fin 256, ∑ w : Fin 256, e (x (ix4 0 ch h w)))
    (t : Fin cfg0.N) (h15 : t.val % 16 = 15) (ch : Fin 12) :
    proj (outsAt0 m c t.val t.isLt) (ix3 0 0 ch) = halfSum m c e (t.val / 16) (half_lt t) ch := by
  have hN : t.val < 32 := lt_of_lt_of_eq t.isLt N_0
  rw [acc_run m c proj upd mom rst e hA hB hupd hrst hmom t ch, h15, Cert.Reindex.ofBits_zero, zero_add,
    Cert.Reindex.sum_range_fin]
  unfold halfSum
  refine Finset.sum_congr rfl fun j _ => ?_
  have hj : 16 * (t.val / 16) + j.val < cfg0.N :=
    lt_of_lt_of_eq (by have := j.isLt; omega : 16 * (t.val / 16) + j.val < 32) N_0.symm
  unfold addend
  rw [dif_pos hj]
  refine Finset.sum_congr rfl fun h _ => Finset.sum_congr rfl fun w _ => ?_
  exact congrArg (fun n : Fin 32 => e (m ((c : Thread nD τ).loc main_arg0) (ix4 n ch h w))) (Fin.ext (by show 16 * (t.val / 16) + j.val = t.val / 16 * 16 + j.val; omega))

/-- The accumulator's array in closed form: entry (g, 0, ch) is the sum over half g at channel ch. -/
def halfArr : S2x1x12.Idx → EReal := fun i => halfSum m c e (i 0).val (i 0).isLt (i 2)

end Acc

/-- An index of a 1 × 1 × 12 block is (0, 0, ch). -/
theorem exists_ix3_00 (y : S1x1x12.Idx) : ∃ ch : Fin 12, y = ix3 0 0 ch :=
  ⟨y 2, funext fun a => match a with
    | ⟨0, _⟩ => Subsingleton.elim (α := Fin 1) _ _
    | ⟨1, _⟩ => Subsingleton.elim (α := Fin 1) _ _
    | ⟨2, _⟩ => rfl⟩

/-- An index of a 2 × 1 × 12 array is (g, 0, ch). -/
theorem exists_ix3_g0 (i : S2x1x12.Idx) : ∃ (g : Fin 2) (ch : Fin 12), i = ix3 g 0 ch :=
  ⟨i 0, i 2, funext fun a => match a with
    | ⟨0, _⟩ => rfl
    | ⟨1, _⟩ => Subsingleton.elim (α := Fin 1) _ _
    | ⟨2, _⟩ => rfl⟩

/-! ## The count's array -/

/-- Output 1's buffer after a reset point. -/
theorem acc1_A (c : Dev nD) (t : Fin cfg0.N) (h0 : t.val % 16 = 0) :
    (outsAt0 m c t.val t.isLt).1 = k0_pay1 (k0_pay16 (iblk m c 0 t)) (k0_pay6 (F := Ideal)) := by
  rw [outsAt0_A m c t h0]
  unfold outA
  dsimp only
  exact outA_1_eq ..

/-- Output 1's buffer after a keeping point, over what the point before left. -/
theorem acc1_B (c : Dev nD) (t : Fin cfg0.N) (h0 : ¬t.val % 16 = 0) :
    (outsAt0 m c t.val t.isLt).1 = k0_pay1 (k0_pay16 (iblk m c 0 t))
      (outsAt0 m c (t.val - 1) (Nat.lt_of_le_of_lt (Nat.sub_le _ _) t.isLt)).1 := by
  rw [outsAt0_B m c t h0]
  unfold outB
  dsimp only
  exact outB_1_eq ..

/-- Output 1's buffer after the last point of a half, at a channel. -/
theorem acc1_flush (c : Dev nD) (t : Fin cfg0.N) (h15 : t.val % 16 = 15) (ch : Fin 12) :
    (outsAt0 m c t.val t.isLt).1 (ix3 0 0 ch) = halfSum m c Cert.Moments.weight (t.val / 16) (half_lt t) ch :=
  acc_flush m c (fun p => p.1) k0_pay1 k0_pay16 k0_pay6 Cert.Moments.weight (acc1_A m c) (acc1_B m c)
    PayloadAt.pay1_apply PayloadAt.pay6_apply PayloadAt.pay16_apply t h15 ch

/-- Window 1's block index at point t: (t / 16, 0, 0), decided over the grid. -/
theorem index1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)

/-- Entry (0, 0, ch) of window 1's block at point t sits in its array at (t / 16, 0, ch). -/
theorem rect1_emb (t : Fin cfg0.N) (ch : Fin 12) :
    (win0_1.rect t).emb (ix3 0 0 ch) = ix3 ⟨t.val / 16, half_lt t⟩ 0 ch := by
  obtain ⟨i0, i1, i2⟩ := index1 t
  refine funext fun a => Fin.ext ?_
  rw [Pipeline.Window.rect_emb_val]
  match a with
  | ⟨0, _⟩ => show win0_1.index t 0 * 1 + 0 = t.val / 16; rw [i0]; omega
  | ⟨1, _⟩ => show win0_1.index t 1 * 1 + 0 = 0; rw [i1]
  | ⟨2, _⟩ => show win0_1.index t 2 * 12 + ch.val = ch.val; rw [i2]; omega

/-- A block of window 1 whose entry (0, 0, ch) is entry (t / 16, 0, ch) of an array, read through the window at point t. -/
theorem read_blk1 (t : Fin cfg0.N) (X : Vec Ideal S1x1x12 .f32) (G : S2x1x12.Idx → EReal)
    (key : ∀ ch : Fin 12, X (ix3 0 0 ch) = G (ix3 ⟨t.val / 16, half_lt t⟩ 0 ch)) :
    (cfg0.win 1).cut (grid0.coords t) X = View.read (Elt Ideal) ((cfg0.win 1).blk t).view G := by
  refine funext fun (y : S1x1x12.Idx) => ?_
  obtain ⟨ch, rfl⟩ := exists_ix3_00 y
  rw [View.read_apply]
  have hx : (cfg0.win 1).xinj (grid0.coords t) (ix3 0 0 ch) = ix3 0 0 ch :=
    funext fun a => match a with | ⟨0, _⟩ => rfl | ⟨1, _⟩ => rfl | ⟨2, _⟩ => rfl
  show X ((cfg0.win 1).xinj (grid0.coords t) (ix3 0 0 ch)) = G ((win0_1.rect t).emb (ix3 0 0 ch))
  rw [hx]
  exact (key ch).trans (congrArg G (rect1_emb t ch).symm)

/-- What the write-back after the last point of a half writes is that half's block of the closed form. -/
theorem flushed1_eq (c : Dev nD) (t : Fin cfg0.N) (hf : (cfg0.win 1).flush t = true) :
    (dats m 0 c).flushed 1 t = ((cfg0.win 1).blk t).view.read (Elt Ideal) (halfArr m c Cert.Moments.weight) := by
  have h15 : t.val % 16 = 15 := (flush0_1 t).mp hf
  show (cfg0.win 1).cut (grid0.coords t) ((dats m 0 c).after 1 t) = _
  rw [after0_1]
  exact read_blk1 t _ _ fun ch => acc1_flush m c t h15 ch

/-- Entry (g, 0, ch) of the array is in the block of any point of half g. -/
theorem mem_blk1 (t : Fin cfg0.N) (g : Fin 2) (hg : t.val / 16 = g.val) (ch : Fin 12) :
    (ix3 g 0 ch : S2x1x12.Idx) ∈ ((cfg0.win 1).blk t).view.set := by
  have hi : ((cfg0.win 1).blk t).view.emb (ix3 0 0 ch) = (ix3 g 0 ch : S2x1x12.Idx) :=
    (rect1_emb t ch).trans (congrArg (fun n : Fin 2 => (ix3 n 0 ch : S2x1x12.Idx)) (Fin.ext hg))
  exact Eq.subst (motive := fun z => z ∈ ((cfg0.win 1).blk t).view.set) hi
    (((cfg0.win 1).blk t).view.emb_mem_set (ix3 0 0 ch))

/-- Every entry of the array is in the block written back after the last point of its half. -/
theorem cover1 (i : S2x1x12.Idx) :
    ∃ t : Fin cfg0.N, (cfg0.win 1).flush t = true ∧ i ∈ ((cfg0.win 1).blk t).view.set := by
  obtain ⟨g, ch, rfl⟩ := exists_ix3_g0 i
  have ht : 16 * g.val + 15 < cfg0.N := lt_of_lt_of_eq (by omega : 16 * g.val + 15 < 32) N_0.symm
  exact ⟨⟨16 * g.val + 15, ht⟩, (flush0_1 _).mpr (by show (16 * g.val + 15) % 16 = 15; omega),
    mem_blk1 _ g (by show (16 * g.val + 15) / 16 = g.val; omega) ch⟩

/-- After the region entry (g, 0, ch) of the count's array is the number of valid entries of channel ch over half g of the batch. -/
theorem final_count (c : Dev nD) (g : Fin 2) (ch : Fin 12) :
    (dats (F := Ideal) m 0 c).arrAt 1 cfg0.N (ix3 g 0 ch)
      = ∑ j : Fin 16, ∑ h : Fin 256, ∑ w : Fin 256,
          Cert.Moments.weight (m ((c : Thread nD τ).loc main_arg0) (ix4 ⟨g.val * 16 + j.val, by omega⟩ ch h w)) := by
  have hfin := (dats m 0 c).arrAt_eq_of_cover 1 (halfArr m c Cert.Moments.weight) (flushed1_eq m c) cover1
  exact (congrFun hfin (ix3 g 0 ch)).trans rfl

/-! ## The sum's array -/

/-- Output 2's buffer after a reset point. -/
theorem acc2_A (c : Dev nD) (t : Fin cfg0.N) (h0 : t.val % 16 = 0) :
    (outsAt0 m c t.val t.isLt).2.1 = k0_pay2 (k0_pay17 (iblk m c 0 t)) (k0_pay7 (F := Ideal)) := by
  rw [outsAt0_A m c t h0]
  unfold outA
  dsimp only
  exact outA_2_eq ..

/-- Output 2's buffer after a keeping point, over what the point before left. -/
theorem acc2_B (c : Dev nD) (t : Fin cfg0.N) (h0 : ¬t.val % 16 = 0) :
    (outsAt0 m c t.val t.isLt).2.1 = k0_pay2 (k0_pay17 (iblk m c 0 t))
      (outsAt0 m c (t.val - 1) (Nat.lt_of_le_of_lt (Nat.sub_le _ _) t.isLt)).2.1 := by
  rw [outsAt0_B m c t h0]
  unfold outB
  dsimp only
  exact outB_2_eq ..

/-- Output 2's buffer after the last point of a half, at a channel. -/
theorem acc2_flush (c : Dev nD) (t : Fin cfg0.N) (h15 : t.val % 16 = 15) (ch : Fin 12) :
    (outsAt0 m c t.val t.isLt).2.1 (ix3 0 0 ch) = halfSum m c Cert.Moments.weighted (t.val / 16) (half_lt t) ch :=
  acc_flush m c (fun p => p.2.1) k0_pay2 k0_pay17 k0_pay7 Cert.Moments.weighted (acc2_A m c) (acc2_B m c)
    PayloadAt.pay2_apply PayloadAt.pay7_apply PayloadAt.pay17_apply t h15 ch

/-- Window 2's block index at point t: (t / 16, 0, 0), decided over the grid. -/
theorem index2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

/-- Entry (0, 0, ch) of window 2's block at point t sits in its array at (t / 16, 0, ch). -/
theorem rect2_emb (t : Fin cfg0.N) (ch : Fin 12) :
    (win0_2.rect t).emb (ix3 0 0 ch) = ix3 ⟨t.val / 16, half_lt t⟩ 0 ch := by
  obtain ⟨i0, i1, i2⟩ := index2 t
  refine funext fun a => Fin.ext ?_
  rw [Pipeline.Window.rect_emb_val]
  match a with
  | ⟨0, _⟩ => show win0_2.index t 0 * 1 + 0 = t.val / 16; rw [i0]; omega
  | ⟨1, _⟩ => show win0_2.index t 1 * 1 + 0 = 0; rw [i1]
  | ⟨2, _⟩ => show win0_2.index t 2 * 12 + ch.val = ch.val; rw [i2]; omega

/-- A block of window 2 whose entry (0, 0, ch) is entry (t / 16, 0, ch) of an array, read through the window at point t. -/
theorem read_blk2 (t : Fin cfg0.N) (X : Vec Ideal S1x1x12 .f32) (G : S2x1x12.Idx → EReal)
    (key : ∀ ch : Fin 12, X (ix3 0 0 ch) = G (ix3 ⟨t.val / 16, half_lt t⟩ 0 ch)) :
    (cfg0.win 2).cut (grid0.coords t) X = View.read (Elt Ideal) ((cfg0.win 2).blk t).view G := by
  refine funext fun (y : S1x1x12.Idx) => ?_
  obtain ⟨ch, rfl⟩ := exists_ix3_00 y
  rw [View.read_apply]
  have hx : (cfg0.win 2).xinj (grid0.coords t) (ix3 0 0 ch) = ix3 0 0 ch :=
    funext fun a => match a with | ⟨0, _⟩ => rfl | ⟨1, _⟩ => rfl | ⟨2, _⟩ => rfl
  show X ((cfg0.win 2).xinj (grid0.coords t) (ix3 0 0 ch)) = G ((win0_2.rect t).emb (ix3 0 0 ch))
  rw [hx]
  exact (key ch).trans (congrArg G (rect2_emb t ch).symm)

/-- What the write-back after the last point of a half writes is that half's block of the closed form. -/
theorem flushed2_eq (c : Dev nD) (t : Fin cfg0.N) (hf : (cfg0.win 2).flush t = true) :
    (dats m 0 c).flushed 2 t = ((cfg0.win 2).blk t).view.read (Elt Ideal) (halfArr m c Cert.Moments.weighted) := by
  have h15 : t.val % 16 = 15 := (flush0_2 t).mp hf
  show (cfg0.win 2).cut (grid0.coords t) ((dats m 0 c).after 2 t) = _
  rw [after0_2]
  exact read_blk2 t _ _ fun ch => acc2_flush m c t h15 ch

/-- Entry (g, 0, ch) of the array is in the block of any point of half g. -/
theorem mem_blk2 (t : Fin cfg0.N) (g : Fin 2) (hg : t.val / 16 = g.val) (ch : Fin 12) :
    (ix3 g 0 ch : S2x1x12.Idx) ∈ ((cfg0.win 2).blk t).view.set := by
  have hi : ((cfg0.win 2).blk t).view.emb (ix3 0 0 ch) = (ix3 g 0 ch : S2x1x12.Idx) :=
    (rect2_emb t ch).trans (congrArg (fun n : Fin 2 => (ix3 n 0 ch : S2x1x12.Idx)) (Fin.ext hg))
  exact Eq.subst (motive := fun z => z ∈ ((cfg0.win 2).blk t).view.set) hi
    (((cfg0.win 2).blk t).view.emb_mem_set (ix3 0 0 ch))

/-- Every entry of the array is in the block written back after the last point of its half. -/
theorem cover2 (i : S2x1x12.Idx) :
    ∃ t : Fin cfg0.N, (cfg0.win 2).flush t = true ∧ i ∈ ((cfg0.win 2).blk t).view.set := by
  obtain ⟨g, ch, rfl⟩ := exists_ix3_g0 i
  have ht : 16 * g.val + 15 < cfg0.N := lt_of_lt_of_eq (by omega : 16 * g.val + 15 < 32) N_0.symm
  exact ⟨⟨16 * g.val + 15, ht⟩, (flush0_2 _).mpr (by show (16 * g.val + 15) % 16 = 15; omega),
    mem_blk2 _ g (by show (16 * g.val + 15) / 16 = g.val; omega) ch⟩

/-- After the region entry (g, 0, ch) of the sum's array is the sum of the weighted values of channel ch over half g of the batch. -/
theorem final_total (c : Dev nD) (g : Fin 2) (ch : Fin 12) :
    (dats (F := Ideal) m 0 c).arrAt 2 cfg0.N (ix3 g 0 ch)
      = ∑ j : Fin 16, ∑ h : Fin 256, ∑ w : Fin 256,
          Cert.Moments.weighted (m ((c : Thread nD τ).loc main_arg0) (ix4 ⟨g.val * 16 + j.val, by omega⟩ ch h w)) := by
  have hfin := (dats m 0 c).arrAt_eq_of_cover 2 (halfArr m c Cert.Moments.weighted) (flushed2_eq m c) cover2
  exact (congrFun hfin (ix3 g 0 ch)).trans rfl

/-! ## The array of the sum of squares -/

/-- Output 3's buffer after a reset point. -/
theorem acc3_A (c : Dev nD) (t : Fin cfg0.N) (h0 : t.val % 16 = 0) :
    (outsAt0 m c t.val t.isLt).2.2.1 = k0_pay3 (k0_pay18 (iblk m c 0 t)) (k0_pay8 (F := Ideal)) := by
  rw [outsAt0_A m c t h0]
  unfold outA
  dsimp only
  exact outA_3_eq ..

/-- Output 3's buffer after a keeping point, over what the point before left. -/
theorem acc3_B (c : Dev nD) (t : Fin cfg0.N) (h0 : ¬t.val % 16 = 0) :
    (outsAt0 m c t.val t.isLt).2.2.1 = k0_pay3 (k0_pay18 (iblk m c 0 t))
      (outsAt0 m c (t.val - 1) (Nat.lt_of_le_of_lt (Nat.sub_le _ _) t.isLt)).2.2.1 := by
  rw [outsAt0_B m c t h0]
  unfold outB
  dsimp only
  exact outB_3_eq ..

/-- Output 3's buffer after the last point of a half, at a channel. -/
theorem acc3_flush (c : Dev nD) (t : Fin cfg0.N) (h15 : t.val % 16 = 15) (ch : Fin 12) :
    (outsAt0 m c t.val t.isLt).2.2.1 (ix3 0 0 ch) = halfSum m c Cert.Moments.weightedSq (t.val / 16) (half_lt t) ch :=
  acc_flush m c (fun p => p.2.2.1) k0_pay3 k0_pay18 k0_pay8 Cert.Moments.weightedSq (acc3_A m c) (acc3_B m c)
    PayloadAt.pay3_apply PayloadAt.pay8_apply PayloadAt.pay18_apply t h15 ch

/-- Window 3's block index at point t: (t / 16, 0, 0), decided over the grid. -/
theorem index3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)

/-- Entry (0, 0, ch) of window 3's block at point t sits in its array at (t / 16, 0, ch). -/
theorem rect3_emb (t : Fin cfg0.N) (ch : Fin 12) :
    (win0_3.rect t).emb (ix3 0 0 ch) = ix3 ⟨t.val / 16, half_lt t⟩ 0 ch := by
  obtain ⟨i0, i1, i2⟩ := index3 t
  refine funext fun a => Fin.ext ?_
  rw [Pipeline.Window.rect_emb_val]
  match a with
  | ⟨0, _⟩ => show win0_3.index t 0 * 1 + 0 = t.val / 16; rw [i0]; omega
  | ⟨1, _⟩ => show win0_3.index t 1 * 1 + 0 = 0; rw [i1]
  | ⟨2, _⟩ => show win0_3.index t 2 * 12 + ch.val = ch.val; rw [i2]; omega

/-- A block of window 3 whose entry (0, 0, ch) is entry (t / 16, 0, ch) of an array, read through the window at point t. -/
theorem read_blk3 (t : Fin cfg0.N) (X : Vec Ideal S1x1x12 .f32) (G : S2x1x12.Idx → EReal)
    (key : ∀ ch : Fin 12, X (ix3 0 0 ch) = G (ix3 ⟨t.val / 16, half_lt t⟩ 0 ch)) :
    (cfg0.win 3).cut (grid0.coords t) X = View.read (Elt Ideal) ((cfg0.win 3).blk t).view G := by
  refine funext fun (y : S1x1x12.Idx) => ?_
  obtain ⟨ch, rfl⟩ := exists_ix3_00 y
  rw [View.read_apply]
  have hx : (cfg0.win 3).xinj (grid0.coords t) (ix3 0 0 ch) = ix3 0 0 ch :=
    funext fun a => match a with | ⟨0, _⟩ => rfl | ⟨1, _⟩ => rfl | ⟨2, _⟩ => rfl
  show X ((cfg0.win 3).xinj (grid0.coords t) (ix3 0 0 ch)) = G ((win0_3.rect t).emb (ix3 0 0 ch))
  rw [hx]
  exact (key ch).trans (congrArg G (rect3_emb t ch).symm)

/-- What the write-back after the last point of a half writes is that half's block of the closed form. -/
theorem flushed3_eq (c : Dev nD) (t : Fin cfg0.N) (hf : (cfg0.win 3).flush t = true) :
    (dats m 0 c).flushed 3 t = ((cfg0.win 3).blk t).view.read (Elt Ideal) (halfArr m c Cert.Moments.weightedSq) := by
  have h15 : t.val % 16 = 15 := (flush0_3 t).mp hf
  show (cfg0.win 3).cut (grid0.coords t) ((dats m 0 c).after 3 t) = _
  rw [after0_3]
  exact read_blk3 t _ _ fun ch => acc3_flush m c t h15 ch

/-- Entry (g, 0, ch) of the array is in the block of any point of half g. -/
theorem mem_blk3 (t : Fin cfg0.N) (g : Fin 2) (hg : t.val / 16 = g.val) (ch : Fin 12) :
    (ix3 g 0 ch : S2x1x12.Idx) ∈ ((cfg0.win 3).blk t).view.set := by
  have hi : ((cfg0.win 3).blk t).view.emb (ix3 0 0 ch) = (ix3 g 0 ch : S2x1x12.Idx) :=
    (rect3_emb t ch).trans (congrArg (fun n : Fin 2 => (ix3 n 0 ch : S2x1x12.Idx)) (Fin.ext hg))
  exact Eq.subst (motive := fun z => z ∈ ((cfg0.win 3).blk t).view.set) hi
    (((cfg0.win 3).blk t).view.emb_mem_set (ix3 0 0 ch))

/-- Every entry of the array is in the block written back after the last point of its half. -/
theorem cover3 (i : S2x1x12.Idx) :
    ∃ t : Fin cfg0.N, (cfg0.win 3).flush t = true ∧ i ∈ ((cfg0.win 3).blk t).view.set := by
  obtain ⟨g, ch, rfl⟩ := exists_ix3_g0 i
  have ht : 16 * g.val + 15 < cfg0.N := lt_of_lt_of_eq (by omega : 16 * g.val + 15 < 32) N_0.symm
  exact ⟨⟨16 * g.val + 15, ht⟩, (flush0_3 _).mpr (by show (16 * g.val + 15) % 16 = 15; omega),
    mem_blk3 _ g (by show (16 * g.val + 15) / 16 = g.val; omega) ch⟩

/-- After the region entry (g, 0, ch) of the array of the sum of squares is the sum of the weighted squares of channel ch over half g of the batch. -/
theorem final_totalSq (c : Dev nD) (g : Fin 2) (ch : Fin 12) :
    (dats (F := Ideal) m 0 c).arrAt 3 cfg0.N (ix3 g 0 ch)
      = ∑ j : Fin 16, ∑ h : Fin 256, ∑ w : Fin 256,
          Cert.Moments.weightedSq (m ((c : Thread nD τ).loc main_arg0) (ix4 ⟨g.val * 16 + j.val, by omega⟩ ch h w)) := by
  have hfin := (dats m 0 c).arrAt_eq_of_cover 3 (halfArr m c Cert.Moments.weightedSq) (flushed3_eq m c) cover3
  exact (congrFun hfin (ix3 g 0 ch)).trans rfl

end Cert.KernelIdeal.HandValue

end
-- ==== Proof.KernelExtrema.lean ====
/-
  The least and the greatest accumulator after the region, at the ideal values.

  Per channel the kernel keeps, in the fourth and fifth output windows, the least and the greatest masked value met
  so far in the current half of the batch: at the first point of a half the buffer is reset to +∞ (−∞) and at once
  combined with the block's least (greatest) masked value; at every later point the buffer is combined with the
  block's. A block is written back after its half's last point. So block g of the fourth output array ends holding,
  per channel, the infimum over the sixteen batch elements of half g, the rows and the columns of the masked values,
  and block g of the fifth the supremum.
-/
import proofs.«149877_j6811818131595_1_alg».proof.Proof.FrameKernelIdeal
import proofs.«149877_j6811818131595_1_alg».proof.Proof.KernelBlock
import proofs.«149877_j6811818131595_1_alg».proof.Proof.PayloadAt
import proofs.«149877_j6811818131595_1_alg».proof.Proof.Moments
import proofs.«149877_j6811818131595_1_alg».proof.Proof.LibReindex
import Idealize.ShloMosaic.Lib.Pipeline.Value
import Idealize.ShloMosaic.Lib.ValueIdx
import Idealize.ShloMosaic.Lib.Tactic

set_option maxRecDepth 16384

noncomputable section

namespace Cert.KernelIdeal.HandValue

open Cert.KernelIdeal Cert.KernelIdeal.Gen Cert.KernelIdeal.Hand Idealize.ShloMosaic.ValueIdx
open Idealize.ShloMosaic Idealize.ShloMosaic.TcCoe Idealize.SL.Sem
open Idealize.ShloMosaic.Pipeline (Dat)

/-- The zero offsets of a whole 1 × 1 × 12 buffer, however they are spelt. -/
theorem hzE3 : (![0, 0, 0] : Fin 3 → Nat) = fun _ => 0 := funext fun a => by fin_cases a <;> rfl

/-- The zero offsets of a whole 1 × 12 × 256 × 256 buffer. -/
theorem hzE4 : (![0, 0, 0, 0] : Fin 4 → Nat) = fun _ => 0 := funext fun a => by fin_cases a <;> rfl

section Pieces

variable {F : FTy → Type} [FloatOps F]

/-- At a keeping point the fourth output's buffer, holding `xo4`, is left at `xo4` combined with the block's least
    masked value: its one covering store's payload, whose loads read the whole buffers. -/
theorem outB_4_eq (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc : ¬cond0_0 i)
    (x : Vec F S1x12x256x256 .f32) (xo1 xo2 xo3 xo4 xo5 : Vec F S1x1x12 .f32) :
    out0_B_4 c i arg2 harg2 arg3 harg3 arg4 harg4 arg5 harg5 arg6 harg6 arg7 harg7 hc x xo1 xo2 xo3 xo4 xo5 = k0_pay4 (k0_pay19 x) xo4 := by
  unfold out0_B_4
  rw [View.read_writes_eq_canon _ _ _ (cover0_B_4 c i arg2 harg2 arg3 harg3 arg4 harg4 arg5 harg5 arg6 harg6 arg7 harg7 hc x xo1 xo2 xo3 xo4 xo5)]
  unfold kernelRun0_B
  dsimp only
  sl_unfold_words
  rw [View.canon_unit_zero hzE3]
  simp only [View.readAt_eq_ld, harg2.read_unread, harg3.read_unread, harg4.read_unread, harg5.read_unread,
    harg6.read_unread, harg7.read_unread, View.ld_unit_zero (S := S1x1x12) hzE3, View.ld_unit_zero (S := S1x12x256x256) hzE4]

/-- Likewise the fifth output's buffer, holding `xo5`, is left at `xo5` combined with the block's greatest masked value. -/
theorem outB_5_eq (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc : ¬cond0_0 i)
    (x : Vec F S1x12x256x256 .f32) (xo1 xo2 xo3 xo4 xo5 : Vec F S1x1x12 .f32) :
    out0_B_5 c i arg2 harg2 arg3 harg3 arg4 harg4 arg5 harg5 arg6 harg6 arg7 harg7 hc x xo1 xo2 xo3 xo4 xo5 = k0_pay5 (k0_pay20 x) xo5 := by
  unfold out0_B_5
  rw [View.read_writes_eq_canon _ _ _ (cover0_B_5 c i arg2 harg2 arg3 harg3 arg4 harg4 arg5 harg5 arg6 harg6 arg7 harg7 hc x xo1 xo2 xo3 xo4 xo5)]
  unfold kernelRun0_B
  dsimp only
  sl_unfold_words
  rw [View.canon_unit_zero hzE3]
  simp only [View.readAt_eq_ld, harg2.read_unread, harg3.read_unread, harg4.read_unread, harg5.read_unread,
    harg6.read_unread, harg7.read_unread, View.ld_unit_zero (S := S1x1x12) hzE3, View.ld_unit_zero (S := S1x12x256x256) hzE4]

/-- At a reset point the fourth output's buffer receives +∞ and then, the stored value read back, +∞ combined with the
    block's least masked value: the last of its two covering stores decides. -/
theorem outA_4_eq (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc : cond0_0 i)
    (x : Vec F S1x12x256x256 .f32) :
    out0_A_4 c i arg2 harg2 arg3 harg3 arg4 harg4 arg5 harg5 arg6 harg6 arg7 harg7 hc x = k0_pay4 (k0_pay19 x) k0_pay9 := by
  unfold out0_A_4
  rw [View.read_writes_eq_canon _ _ _ (cover0_A_4 c i arg2 harg2 arg3 harg3 arg4 harg4 arg5 harg5 arg6 harg6 arg7 harg7 hc x)]
  unfold kernelRun0_A
  dsimp only
  sl_unfold_words
  rw [View.canon_cons_unit_zero (S := S1x1x12) hzE3, View.readCov_unit_zero (S := S1x1x12) _ hzE3]
  simp only [View.readAt_eq_ld, harg2.read_unread, harg3.read_unread, harg4.read_unread, harg5.read_unread,
    harg6.read_unread, harg7.read_unread, View.ld_unit_zero (S := S1x1x12) hzE3, View.ld_unit_zero (S := S1x12x256x256) hzE4,
    View.readCov_unit_zero (S := S1x1x12) _ hzE3]

/-- Likewise the fifth output's buffer receives −∞ and then −∞ combined with the block's greatest masked value. -/
theorem outA_5_eq (c : Dev nD) (i : grid0.Coords) (arg2 : Memref sig .tc .vmem S1x12x256x256 .f32) (harg2 : arg2.IsWhole) (arg3 : Memref sig .tc .vmem S1x1x12 .f32) (harg3 : arg3.IsWhole) (arg4 : Memref sig .tc .vmem S1x1x12 .f32) (harg4 : arg4.IsWhole) (arg5 : Memref sig .tc .vmem S1x1x12 .f32) (harg5 : arg5.IsWhole) (arg6 : Memref sig .tc .vmem S1x1x12 .f32) (harg6 : arg6.IsWhole) (arg7 : Memref sig .tc .vmem S1x1x12 .f32) (harg7 : arg7.IsWhole) (hc : cond0_0 i)
    (x : Vec F S1x12x256x256 .f32) :
    out0_A_5 c i arg2 harg2 arg3 harg3 arg4 harg4 arg5 harg5 arg6 harg6 arg7 harg7 hc x = k0_pay5 (k0_pay20 x) k0_pay10 := by
  unfold out0_A_5
  rw [View.read_writes_eq_canon _ _ _ (cover0_A_5 c i arg2 harg2 arg3 harg3 arg4 harg4 arg5 harg5 arg6 harg6 arg7 harg7 hc x)]
  unfold kernelRun0_A
  dsimp only
  sl_unfold_words
  rw [View.canon_cons_unit_zero (S := S1x1x12) hzE3, View.readCov_unit_zero (S := S1x1x12) _ hzE3]
  simp only [View.readAt_eq_ld, harg2.read_unread, harg3.read_unread, harg4.read_unread, harg5.read_unread,
    harg6.read_unread, harg7.read_unread, View.ld_unit_zero (S := S1x1x12) hzE3, View.ld_unit_zero (S := S1x12x256x256) hzE4,
    View.readCov_unit_zero (S := S1x1x12) _ hzE3]

end Pieces

section Ideal

variable (m : (ℓ : Loc nD τ sig) → Buf (Elt Ideal) ℓ)

/-! ## The least accumulator (output window 4) -/

/-- The least masked value of batch element `n` at channel `ch`, over its rows and columns (the neutral value
    outside the array). -/
def blkLo (c : Dev nD) (ch n : ℕ) : EReal :=
  if h : n < 32 ∧ ch < 12 then
    ⨅ r : Fin 256, ⨅ w : Fin 256, Cert.Moments.maskedLo (m ((c : Thread nD τ).loc main_arg0) (ix4 ⟨n, h.1⟩ ⟨ch, h.2⟩ r w))
  else ⊤

/-- The block's least masked value at a channel, as the kernel computes it from the block it loaded at point `t`,
    is that of batch element `t`. -/
theorem pay19_blk (c : Dev nD) (t : Fin cfg0.N) (ch : Fin 12) :
    k0_pay19 (iblk m c 0 t) (ix1 ch) = blkLo m c ch.val t.val := by
  have hN : t.val < 32 := lt_of_lt_of_eq t.isLt N_0
  rw [PayloadAt.pay19_apply, Reindex.fold_min_eq_iInf _ Reindex.ofBits_posInf]
  unfold blkLo
  rw [dif_pos ⟨hN, ch.isLt⟩]
  refine iInf_congr fun r => ?_
  rw [Reindex.fold_min_eq_iInf _ Reindex.ofBits_posInf]
  refine iInf_congr fun w => ?_
  rw [iblk_apply]

/-- After a point that starts a half the buffer holds the neutral value combined with the block's least value. -/
theorem acc4_A (c : Dev nD) (t : Fin cfg0.N) (h0 : t.val % 16 = 0) (ch : Fin 12) :
    (outsAt0 m c t.val t.isLt).2.2.2.1 (ix3 0 0 ch) = min ⊤ (blkLo m c ch.val t.val) := by
  rw [outsAt0_A m c t h0]
  unfold outA
  dsimp only
  rw [outA_4_eq, PayloadAt.pay4_apply, PayloadAt.pay9_apply, Reindex.ofBits_posInf, pay19_blk]

/-- After any other point it holds what the point before left combined with the block's least value. -/
theorem acc4_B (c : Dev nD) (t : Fin cfg0.N) (h0 : ¬t.val % 16 = 0) (ch : Fin 12) :
    (outsAt0 m c t.val t.isLt).2.2.2.1 (ix3 0 0 ch)
      = min ((outsAt0 m c (t.val - 1) (Nat.lt_of_le_of_lt (Nat.sub_le _ _) t.isLt)).2.2.2.1 (ix3 0 0 ch))
          (blkLo m c ch.val t.val) := by
  rw [outsAt0_B m c t h0]
  unfold outB
  dsimp only
  rw [outB_4_eq, PayloadAt.pay4_apply, pay19_blk]

/-- The running least value of half `g` after its point `j`. -/
def runLo (c : Dev nD) (ch g : ℕ) : ℕ → EReal
  | 0 => min ⊤ (blkLo m c ch (16 * g))
  | j + 1 => min (runLo c ch g j) (blkLo m c ch (16 * g + (j + 1)))

/-- What the buffer holds after point `n` is the running value of half `n / 16` after its point `n % 16`: by
    induction on the point. -/
theorem acc4_eq (c : Dev nD) (ch : Fin 12) : ∀ (n : ℕ) (h : n < cfg0.N),
    (outsAt0 m c n h).2.2.2.1 (ix3 0 0 ch) = runLo m c ch.val (n / 16) (n % 16) := by
  have hA : ∀ (n : ℕ) (h : n < cfg0.N), n % 16 = 0 →
      (outsAt0 m c n h).2.2.2.1 (ix3 0 0 ch) = runLo m c ch.val (n / 16) (n % 16) := by
    intro n h h0
    refine (acc4_A m c ⟨n, h⟩ h0 ch).trans ?_
    rw [h0]
    show min ⊤ (blkLo m c ch.val n) = min ⊤ (blkLo m c ch.val (16 * (n / 16)))
    rw [show 16 * (n / 16) = n from by omega]
  intro n
  induction n with
  | zero => intro h; exact hA 0 h (Nat.zero_mod _)
  | succ k ih =>
    intro h
    by_cases h0 : (k + 1) % 16 = 0
    · exact hA _ h h0
    · refine (acc4_B m c ⟨k + 1, h⟩ h0 ch).trans ?_
      show min ((outsAt0 m c k _).2.2.2.1 (ix3 0 0 ch)) (blkLo m c ch.val (k + 1)) = _
      rw [ih, show (k + 1) / 16 = k / 16 from by omega, show (k + 1) % 16 = k % 16 + 1 from by omega]
      show _ = min (runLo m c ch.val (k / 16) (k % 16)) (blkLo m c ch.val (16 * (k / 16) + (k % 16 + 1)))
      rw [show 16 * (k / 16) + (k % 16 + 1) = k + 1 from by omega]

/-- The running value in closed form: the least of the blocks' values met so far in the half (the neutral value the
    reset stored is absorbed). -/
theorem runLo_eq (c : Dev nD) (ch g j : ℕ) :
    runLo m c ch g j = ⨅ i : Fin (j + 1), blkLo m c ch (16 * g + i.val) := by
  rw [Reindex.acc_min ⊤ (fun i => blkLo m c ch (16 * g + i)) (runLo m c ch g) rfl (fun n => rfl) j]
  exact min_eq_right le_top

/-- The array the fourth output ends holding: at (g, 0, ch) the least over the sixteen batch elements of half `g`
    of their least masked values at channel `ch`. -/
def G4 (c : Dev nD) : S2x1x12.Idx → EReal :=
  fun i => ⨅ j : Fin 16, blkLo m c (i 2).val ((i 0).val * 16 + j.val)

/-- Window 4's block index at point `t`: block `t / 16` along the first axis. -/
theorem index4 : ∀ t : Fin grid0.N, win0_4.index t 0 = t.val / 16 ∧ win0_4.index t 1 = 0 ∧ win0_4.index t 2 = 0 := by
  decide +kernel

/-- What a half's last point writes back is its block of that array. -/
theorem flushed4_eq (c : Dev nD) (t : Fin cfg0.N) (hf : (cfg0.win 4).flush t = true) :
    (dats m 0 c).flushed 4 t = ((cfg0.win 4).blk t).view.read (Elt Ideal) (G4 m c) := by
  have h15 : t.val % 16 = 15 := (flush0_4 t).mp hf
  obtain ⟨i0, i1, i2⟩ := index4 t
  show (cfg0.win 4).cut (grid0.coords t) ((dats m 0 c).after 4 t) = _
  rw [after0_4]
  funext y
  rw [View.read_apply]
  have y0 : (y 0).val = 0 := by have : (y 0).val < 1 := (y 0).isLt; omega
  have y1 : (y 1).val = 0 := by have : (y 1).val < 1 := (y 1).isLt; omega
  have y2 : (y 2).val < 12 := (y 2).isLt
  have hy : (cfg0.win 4).xinj (grid0.coords t) y = ix3 0 0 ⟨(y 2).val, y2⟩ :=
    funext fun a => Fin.ext (match a with | ⟨0, _⟩ => y0 | ⟨1, _⟩ => y1 | ⟨2, _⟩ => rfl)
  have e0 : ((((cfg0.win 4).blk t).view.emb y) 0).val = t.val / 16 := by
    show ((win0_4.rect t).emb y 0 : Nat) = _
    rw [win0_4.rect_emb_val t y 0, i0, y0]
    show t.val / 16 * 1 + 0 = _
    omega
  have e2 : ((((cfg0.win 4).blk t).view.emb y) 2).val = (y 2).val := by
    show ((win0_4.rect t).emb y 2 : Nat) = _
    rw [win0_4.rect_emb_val t y 2, i2]
    show 0 * 12 + (y 2).val = _
    omega
  show (outsAt0 m c t.val t.isLt).2.2.2.1 ((cfg0.win 4).xinj (grid0.coords t) y) = G4 m c (((cfg0.win 4).blk t).view.emb y)
  rw [hy, acc4_eq, runLo_eq]
  unfold G4
  rw [e0, e2, h15]
  refine iInf_congr fun j => ?_
  show blkLo m c (y 2).val (16 * (t.val / 16) + j.val) = _
  rw [Nat.mul_comm]

/-- Every index (g, 0, ch) of the array is in the block written back after point 16·g + 15. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 2 := (i 0).isLt
  have h1 : (i 1 : Nat) < 1 := (i 1).isLt
  have h2 : (i 2 : Nat) < 12 := (i 2).isLt
  have hN : (i 0 : Nat) * 16 + 15 < cfg0.N := by rw [show cfg0.N = 32 from N_0]; omega
  refine ⟨⟨(i 0 : Nat) * 16 + 15, hN⟩, (flush0_4 _).mpr (by show ((i 0 : Nat) * 16 + 15) % 16 = 15; omega), ?_⟩
  obtain ⟨i0, i1, i2⟩ := index4 ⟨(i 0 : Nat) * 16 + 15, hN⟩
  show i ∈ ((View.whole main_v0_3).slice (win0_4.rect ⟨(i 0 : Nat) * 16 + 15, hN⟩)).set
  rw [View.set_slice_whole, Rect.mem_set_unit]
  intro a
  match a with
  | ⟨0, _⟩ =>
    show win0_4.index ⟨(i 0 : Nat) * 16 + 15, hN⟩ 0 * 1 ≤ (i 0 : Nat) ∧ (i 0 : Nat) < win0_4.index ⟨(i 0 : Nat) * 16 + 15, hN⟩ 0 * 1 + 1
    rw [i0]; show ((i 0 : Nat) * 16 + 15) / 16 * 1 ≤ (i 0 : Nat) ∧ (i 0 : Nat) < ((i 0 : Nat) * 16 + 15) / 16 * 1 + 1
    omega
  | ⟨1, _⟩ =>
    show win0_4.index ⟨(i 0 : Nat) * 16 + 15, hN⟩ 1 * 1 ≤ (i 1 : Nat) ∧ (i 1 : Nat) < win0_4.index ⟨(i 0 : Nat) * 16 + 15, hN⟩ 1 * 1 + 1
    rw [i1]; omega
  | ⟨2, _⟩ =>
    show win0_4.index ⟨(i 0 : Nat) * 16 + 15, hN⟩ 2 * 12 ≤ (i 2 : Nat) ∧ (i 2 : Nat) < win0_4.index ⟨(i 0 : Nat) * 16 + 15, hN⟩ 2 * 12 + 12
    rw [i2]; omega

/-- So the fourth output array ends holding it. -/
theorem final4 (c : Dev nD) : (dats (F := Ideal) m 0 c).arrAt 4 cfg0.N = G4 m c :=
  (dats m 0 c).arrAt_eq_of_cover 4 (G4 m c) (flushed4_eq m c) (cover4 c)

/-- At (g, 0, ch): the least masked value of channel `ch` over the sixteen batch elements of half `g`, their rows and
    their columns. -/
theorem final_least (c : Dev nD) (g : Fin 2) (ch : Fin 12) :
    (dats (F := Ideal) m 0 c).arrAt 4 cfg0.N (ix3 g 0 ch)
      = ⨅ j : Fin 16, ⨅ h : Fin 256, ⨅ w : Fin 256,
          Cert.Moments.maskedLo (m ((c : Thread nD τ).loc main_arg0) (ix4 ⟨g.val * 16 + j.val, by omega⟩ ch h w)) := by
  rw [final4]
  show (⨅ j : Fin 16, blkLo m c ch.val (g.val * 16 + j.val)) = _
  refine iInf_congr fun j => ?_
  unfold blkLo
  rw [dif_pos ⟨by omega, ch.isLt⟩]

/-! ## The greatest accumulator (output window 5) -/

/-- The greatest masked value of batch element `n` at channel `ch`, over its rows and columns (the neutral value
    outside the array). -/
def blkHi (c : Dev nD) (ch n : ℕ) : EReal :=
  if h : n < 32 ∧ ch < 12 then
    ⨆ r : Fin 256, ⨆ w : Fin 256, Cert.Moments.maskedHi (m ((c : Thread nD τ).loc main_arg0) (ix4 ⟨n, h.1⟩ ⟨ch, h.2⟩ r w))
  else ⊥

/-- The block's greatest masked value at a channel, as the kernel computes it from the block it loaded at point `t`,
    is that of batch element `t`. -/
theorem pay20_blk (c : Dev nD) (t : Fin cfg0.N) (ch : Fin 12) :
    k0_pay20 (iblk m c 0 t) (ix1 ch) = blkHi m c ch.val t.val := by
  have hN : t.val < 32 := lt_of_lt_of_eq t.isLt N_0
  rw [PayloadAt.pay20_apply, Reindex.fold_max_eq_iSup _ Reindex.ofBits_negInf]
  unfold blkHi
  rw [dif_pos ⟨hN, ch.isLt⟩]
  refine iSup_congr fun r => ?_
  rw [Reindex.fold_max_eq_iSup _ Reindex.ofBits_negInf]
  refine iSup_congr fun w => ?_
  rw [iblk_apply]

/-- After a point that starts a half the buffer holds the neutral value combined with the block's greatest value. -/
theorem acc5_A (c : Dev nD) (t : Fin cfg0.N) (h0 : t.val % 16 = 0) (ch : Fin 12) :
    (outsAt0 m c t.val t.isLt).2.2.2.2 (ix3 0 0 ch) = max ⊥ (blkHi m c ch.val t.val) := by
  rw [outsAt0_A m c t h0]
  unfold outA
  dsimp only
  rw [outA_5_eq, PayloadAt.pay5_apply, PayloadAt.pay10_apply, Reindex.ofBits_negInf, pay20_blk]

/-- After any other point it holds what the point before left combined with the block's greatest value. -/
theorem acc5_B (c : Dev nD) (t : Fin cfg0.N) (h0 : ¬t.val % 16 = 0) (ch : Fin 12) :
    (outsAt0 m c t.val t.isLt).2.2.2.2 (ix3 0 0 ch)
      = max ((outsAt0 m c (t.val - 1) (Nat.lt_of_le_of_lt (Nat.sub_le _ _) t.isLt)).2.2.2.2 (ix3 0 0 ch))
          (blkHi m c ch.val t.val) := by
  rw [outsAt0_B m c t h0]
  unfold outB
  dsimp only
  rw [outB_5_eq, PayloadAt.pay5_apply, pay20_blk]

/-- The running greatest value of half `g` after its point `j`. -/
def runHi (c : Dev nD) (ch g : ℕ) : ℕ → EReal
  | 0 => max ⊥ (blkHi m c ch (16 * g))
  | j + 1 => max (runHi c ch g j) (blkHi m c ch (16 * g + (j + 1)))

/-- What the buffer holds after point `n` is the running value of half `n / 16` after its point `n % 16`: by
    induction on the point. -/
theorem acc5_eq (c : Dev nD) (ch : Fin 12) : ∀ (n : ℕ) (h : n < cfg0.N),
    (outsAt0 m c n h).2.2.2.2 (ix3 0 0 ch) = runHi m c ch.val (n / 16) (n % 16) := by
  have hA : ∀ (n : ℕ) (h : n < cfg0.N), n % 16 = 0 →
      (outsAt0 m c n h).2.2.2.2 (ix3 0 0 ch) = runHi m c ch.val (n / 16) (n % 16) := by
    intro n h h0
    refine (acc5_A m c ⟨n, h⟩ h0 ch).trans ?_
    rw [h0]
    show max ⊥ (blkHi m c ch.val n) = max ⊥ (blkHi m c ch.val (16 * (n / 16)))
    rw [show 16 * (n / 16) = n from by omega]
  intro n
  induction n with
  | zero => intro h; exact hA 0 h (Nat.zero_mod _)
  | succ k ih =>
    intro h
    by_cases h0 : (k + 1) % 16 = 0
    · exact hA _ h h0
    · refine (acc5_B m c ⟨k + 1, h⟩ h0 ch).trans ?_
      show max ((outsAt0 m c k _).2.2.2.2 (ix3 0 0 ch)) (blkHi m c ch.val (k + 1)) = _
      rw [ih, show (k + 1) / 16 = k / 16 from by omega, show (k + 1) % 16 = k % 16 + 1 from by omega]
      show _ = max (runHi m c ch.val (k / 16) (k % 16)) (blkHi m c ch.val (16 * (k / 16) + (k % 16 + 1)))
      rw [show 16 * (k / 16) + (k % 16 + 1) = k + 1 from by omega]

/-- The running value in closed form: the greatest of the blocks' values met so far in the half (the neutral value the
    reset stored is absorbed). -/
theorem runHi_eq (c : Dev nD) (ch g j : ℕ) :
    runHi m c ch g j = ⨆ i : Fin (j + 1), blkHi m c ch (16 * g + i.val) := by
  rw [Reindex.acc_max ⊥ (fun i => blkHi m c ch (16 * g + i)) (runHi m c ch g) rfl (fun n => rfl) j]
  exact max_eq_right bot_le

/-- The array the fifth output ends holding: at (g, 0, ch) the greatest over the sixteen batch elements of half `g`
    of their greatest masked values at channel `ch`. -/
def G5 (c : Dev nD) : S2x1x12.Idx → EReal :=
  fun i => ⨆ j : Fin 16, blkHi m c (i 2).val ((i 0).val * 16 + j.val)

/-- Window 5's block index at point `t`: block `t / 16` along the first axis. -/
theorem index5 : ∀ t : Fin grid0.N, win0_5.index t 0 = t.val / 16 ∧ win0_5.index t 1 = 0 ∧ win0_5.index t 2 = 0 := by
  decide +kernel

/-- What a half's last point writes back is its block of that array. -/
theorem flushed5_eq (c : Dev nD) (t : Fin cfg0.N) (hf : (cfg0.win 5).flush t = true) :
    (dats m 0 c).flushed 5 t = ((cfg0.win 5).blk t).view.read (Elt Ideal) (G5 m c) := by
  have h15 : t.val % 16 = 15 := (flush0_5 t).mp hf
  obtain ⟨i0, i1, i2⟩ := index5 t
  show (cfg0.win 5).cut (grid0.coords t) ((dats m 0 c).after 5 t) = _
  rw [after0_5]
  funext y
  rw [View.read_apply]
  have y0 : (y 0).val = 0 := by have : (y 0).val < 1 := (y 0).isLt; omega
  have y1 : (y 1).val = 0 := by have : (y 1).val < 1 := (y 1).isLt; omega
  have y2 : (y 2).val < 12 := (y 2).isLt
  have hy : (cfg0.win 5).xinj (grid0.coords t) y = ix3 0 0 ⟨(y 2).val, y2⟩ :=
    funext fun a => Fin.ext (match a with | ⟨0, _⟩ => y0 | ⟨1, _⟩ => y1 | ⟨2, _⟩ => rfl)
  have e0 : ((((cfg0.win 5).blk t).view.emb y) 0).val = t.val / 16 := by
    show ((win0_5.rect t).emb y 0 : Nat) = _
    rw [win0_5.rect_emb_val t y 0, i0, y0]
    show t.val / 16 * 1 + 0 = _
    omega
  have e2 : ((((cfg0.win 5).blk t).view.emb y) 2).val = (y 2).val := by
    show ((win0_5.rect t).emb y 2 : Nat) = _
    rw [win0_5.rect_emb_val t y 2, i2]
    show 0 * 12 + (y 2).val = _
    omega
  show (outsAt0 m c t.val t.isLt).2.2.2.2 ((cfg0.win 5).xinj (grid0.coords t) y) = G5 m c (((cfg0.win 5).blk t).view.emb y)
  rw [hy, acc5_eq, runHi_eq]
  unfold G5
  rw [e0, e2, h15]
  refine iSup_congr fun j => ?_
  show blkHi m c (y 2).val (16 * (t.val / 16) + j.val) = _
  rw [Nat.mul_comm]

/-- Every index (g, 0, ch) of the array is in the block written back after point 16·g + 15. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 2 := (i 0).isLt
  have h1 : (i 1 : Nat) < 1 := (i 1).isLt
  have h2 : (i 2 : Nat) < 12 := (i 2).isLt
  have hN : (i 0 : Nat) * 16 + 15 < cfg0.N := by rw [show cfg0.N = 32 from N_0]; omega
  refine ⟨⟨(i 0 : Nat) * 16 + 15, hN⟩, (flush0_5 _).mpr (by show ((i 0 : Nat) * 16 + 15) % 16 = 15; omega), ?_⟩
  obtain ⟨i0, i1, i2⟩ := index5 ⟨(i 0 : Nat) * 16 + 15, hN⟩
  show i ∈ ((View.whole main_v0_4).slice (win0_5.rect ⟨(i 0 : Nat) * 16 + 15, hN⟩)).set
  rw [View.set_slice_whole, Rect.mem_set_unit]
  intro a
  match a with
  | ⟨0, _⟩ =>
    show win0_5.index ⟨(i 0 : Nat) * 16 + 15, hN⟩ 0 * 1 ≤ (i 0 : Nat) ∧ (i 0 : Nat) < win0_5.index ⟨(i 0 : Nat) * 16 + 15, hN⟩ 0 * 1 + 1
    rw [i0]; show ((i 0 : Nat) * 16 + 15) / 16 * 1 ≤ (i 0 : Nat) ∧ (i 0 : Nat) < ((i 0 : Nat) * 16 + 15) / 16 * 1 + 1
    omega
  | ⟨1, _⟩ =>
    show win0_5.index ⟨(i 0 : Nat) * 16 + 15, hN⟩ 1 * 1 ≤ (i 1 : Nat) ∧ (i 1 : Nat) < win0_5.index ⟨(i 0 : Nat) * 16 + 15, hN⟩ 1 * 1 + 1
    rw [i1]; omega
  | ⟨2, _⟩ =>
    show win0_5.index ⟨(i 0 : Nat) * 16 + 15, hN⟩ 2 * 12 ≤ (i 2 : Nat) ∧ (i 2 : Nat) < win0_5.index ⟨(i 0 : Nat) * 16 + 15, hN⟩ 2 * 12 + 12
    rw [i2]; omega

/-- So the fifth output array ends holding it. -/
theorem final5 (c : Dev nD) : (dats (F := Ideal) m 0 c).arrAt 5 cfg0.N = G5 m c :=
  (dats m 0 c).arrAt_eq_of_cover 5 (G5 m c) (flushed5_eq m c) (cover5 c)

/-- At (g, 0, ch): the greatest masked value of channel `ch` over the sixteen batch elements of half `g`, their rows and
    their columns. -/
theorem final_greatest (c : Dev nD) (g : Fin 2) (ch : Fin 12) :
    (dats (F := Ideal) m 0 c).arrAt 5 cfg0.N (ix3 g 0 ch)
      = ⨆ j : Fin 16, ⨆ h : Fin 256, ⨆ w : Fin 256,
          Cert.Moments.maskedHi (m ((c : Thread nD τ).loc main_arg0) (ix4 ⟨g.val * 16 + j.val, by omega⟩ ch h w)) := by
  rw [final5]
  show (⨆ j : Fin 16, blkHi m c ch.val (g.val * 16 + j.val)) = _
  refine iSup_congr fun j => ?_
  unfold blkHi
  rw [dif_pos ⟨by omega, ch.isLt⟩]

end Ideal

end Cert.KernelIdeal.HandValue

end
-- ==== Proof.Tail.lean ====
/-
  The host operations that follow the kernel region, as one function.

  The region leaves five arrays of shape [2, 1, 12]: for each of the two cores its half of the count, the sum, the
  sum of squares, the least and the greatest value of every channel. The first fifteen operations reshape each to
  [2, 12] and fold the two halves (sum from 0, minimum from +∞, maximum from −∞), giving five vectors of twelve. The
  remaining operations merge these five batch moments with the six running statistics the program is given (mean,
  variance, standard deviation, count, least, greatest) and stack the six updated vectors into one [6, 12] array.

  `halvesAdd`, `halvesMin`, `halvesMax` are the three folds; `merge` is the merge, a closed function of the five
  folded moments and the six statistics; `after_result` says the result buffer holds `merge` of them once the
  operations have run, and `after_arg0 … after_arg6` that the arguments are left as they were. At the extended reals
  the folds read, at channel `c`, as the initial value combined with the two halves' entries at `c`.
-/
import proofs.«149877_j6811818131595_1_alg».proof.Proof.Gen.KernelIdeal.Launch
import Idealize.ShloMosaic.Lib.StableHlo.Run
import Idealize.ShloMosaic.PureOps.Ideal.Laws
import Idealize.ShloMosaic.PureOps.Reduce
import Idealize.ShloMosaic.Lib.Pipeline.Value
import Idealize.ShloMosaic.Lib.ValueIdx

noncomputable section

namespace Cert.KernelIdeal.Tail

open Cert.KernelIdeal Cert.KernelIdeal.Gen Idealize.ShloMosaic Idealize.ShloMosaic.TcCoe Idealize.SL.Sem Idealize.ShloMosaic.StableHlo

/-! ## A six-operand operation's result, each operand's contents at its own reference -/

section Nary6

variable {τ' : Topo} {sig' : RefSig} {Val : EltTy → Type} {x0 x1 x2 x3 x4 x5 y : Ref sig' .tc}

/-- The result of an operation over a literal family of six references, with each operand's contents written at its
    own reference, so that what each operand holds can be rewritten further. -/
theorem nary6_result
    (f : ((k : Fin 6) → ((![x0, x1, x2, x3, x4, x5] : Fin 6 → Ref sig' .tc) k).ty.Contents Val) → y.ty.Contents Val) (hxs hy)
    (G : Valuation τ' sig' Val) :
    (nary (τ := τ') ![x0, x1, x2, x3, x4, x5] y f hxs hy).result G (Proc.devRef .tc y)
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5)) (fun i => i.elim0))))))) := by
  rw [nary_result]; congr 1; funext k; fin_cases k <;> rfl

/-- The same, stated for one rewriting pass. -/
theorem nary6_result'
    (f : ((k : Fin 6) → ((![x0, x1, x2, x3, x4, x5] : Fin 6 → Ref sig' .tc) k).ty.Contents Val) → y.ty.Contents Val) (hxs hy)
    (G : Valuation τ' sig' Val) :
    (nary (τ := τ') ![x0, x1, x2, x3, x4, x5] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5)) (fun i => i.elim0))))))) :=
  nary6_result f hxs hy G

end Nary6

variable {F : FTy → Type} [FloatOps F]

/-- The eleven stretches of host operations after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10]

/-- The two halves added from 0: the reshape to [2, 12], then the sum over the first axis. -/
def halvesAdd (o : (⟨S2x1x12, .f32⟩ : BufTy).Contents (Elt F)) : (⟨S12, .f32⟩ : BufTy).Contents (Elt F) :=
  Host.reduceAdd (shapeCast S2x12 o shapeCasts_S2x1x12_S2x12 : (⟨S2x12, .f32⟩ : BufTy).Contents (Elt F))
    (constant S_ .f32 0x00000000#32) reducesTo_S2x12_S12_d0 h_S_

/-- The lesser of the two halves, from +∞. -/
def halvesMin (o : (⟨S2x1x12, .f32⟩ : BufTy).Contents (Elt F)) : (⟨S12, .f32⟩ : BufTy).Contents (Elt F) :=
  Host.reduce FloatOps.minimumf (shapeCast S2x12 o shapeCasts_S2x1x12_S2x12 : (⟨S2x12, .f32⟩ : BufTy).Contents (Elt F))
    (constant S_ .f32 0x7F800000#32) reducesTo_S2x12_S12_d0 h_S_

/-- The greater of the two halves, from −∞. -/
def halvesMax (o : (⟨S2x1x12, .f32⟩ : BufTy).Contents (Elt F)) : (⟨S12, .f32⟩ : BufTy).Contents (Elt F) :=
  Host.reduce FloatOps.maximumf (shapeCast S2x12 o shapeCasts_S2x1x12_S2x12 : (⟨S2x12, .f32⟩ : BufTy).Contents (Elt F))
    (constant S_ .f32 0xFF800000#32) reducesTo_S2x12_S12_d0 h_S_

/-- The merge of the five batch moments `n` (count), `s` (sum), `ss` (sum of squares), `mn`, `mx` with the running
    `mean`, `var`, `std`, `count`, `minv`, `maxv`, operation by operation in the program's order.

    Batch mean `bm = s / max n 1` where `n > 0`, else 0; batch variance `bv = max (ss / max n 1 − bm²) 0` where
    `n > 1`, else 0. With `d = bm − mean` and `t = max (count + n) 1`: the new mean is `mean + d · (n / t)`, the new
    variance `(var · count + bv · n + d² · count · n / t) / t`, the new deviation the square root of that plus a small
    constant, each kept as it was where `n > 0` fails; the new count is `count + n`, the new least `min minv mn`, the
    new greatest `max maxv mx`. The six are stacked as the rows of a [6, 12] array. -/
def merge (n s ss mn mx mean var std count minv maxv : (⟨S12, .f32⟩ : BufTy).Contents (Elt F)) : (⟨S6x12, .f32⟩ : BufTy).Contents (Elt F) :=
  let c4 : (⟨S_, .f32⟩ : BufTy).Contents (Elt F) := constant S_ .f32 0x3F800000#32
  let v11 : (⟨S12, .f32⟩ : BufTy).Contents (Elt F) := broadcastInDim S12 ![] bcast_S_S12 c4
  let v12 : (⟨S12, .f32⟩ : BufTy).Contents (Elt F) := maximumf n v11
  let c5 : (⟨S_, .f32⟩ : BufTy).Contents (Elt F) := constant S_ .f32 0x00000000#32
  let v13 : (⟨S12, .f32⟩ : BufTy).Contents (Elt F) := broadcastInDim S12 ![] bcast_S_S12 c5
  let v14 : (⟨S12, .i1⟩ : BufTy).Contents (Elt F) := cmpf (F := F) .ogt n v13
  let v15 : (⟨S12, .f32⟩ : BufTy).Contents (Elt F) := Host.divf s v12
  let c6 : (⟨S_, .f32⟩ : BufTy).Contents (Elt F) := constant S_ .f32 0x00000000#32
  let w0 : (⟨S_, .f32⟩ : BufTy).Contents (Elt F) := id c6
  let w1 : (⟨S12, .f32⟩ : BufTy).Contents (Elt F) := broadcastInDim S12 ![] bcast_S_S12 w0
  let v16 : (⟨S12, .f32⟩ : BufTy).Contents (Elt F) := select v14 v15 w1
  let v17 : (⟨S12, .f32⟩ : BufTy).Contents (Elt F) := Host.divf ss v12
  let v18 : (⟨S12, .f32⟩ : BufTy).Contents (Elt F) := mulf v16 v16
  let v19 : (⟨S12, .f32⟩ : BufTy).Contents (Elt F) := subf v17 v18
  let c7 : (⟨S_, .f32⟩ : BufTy).Contents (Elt F) := constant S_ .f32 0x00000000#32
  let v20 : (⟨S12, .f32⟩ : BufTy).Contents (Elt F) := broadcastInDim S12 ![] bcast_S_S12 c7
  let v21 : (⟨S12, .f32⟩ : BufTy).Contents (Elt F) := maximumf v19 v20
  let c8 : (⟨S_, .f32⟩ : BufTy).Contents (Elt F) := constant S_ .f32 0x3F800000#32
  let v22 : (⟨S12, .f32⟩ : BufTy).Contents (Elt F) := broadcastInDim S12 ![] bcast_S_S12 c8
  let v23 : (⟨S12, .i1⟩ : BufTy).Contents (Elt F) := cmpf (F := F) .ogt n v22
  let c9 : (⟨S_, .f32⟩ : BufTy).Contents (Elt F) := constant S_ .f32 0x00000000#32
  let u0 : (⟨S_, .f32⟩ : BufTy).Contents (Elt F) := id c9
  let u1 : (⟨S12, .f32⟩ : BufTy).Contents (Elt F) := broadcastInDim S12 ![] bcast_S_S12 u0
  let v24 : (⟨S12, .f32⟩ : BufTy).Contents (Elt F) := select v23 v21 u1
  let v25 : (⟨S12, .f32⟩ : BufTy).Contents (Elt F) := subf v16 mean
  let v26 : (⟨S12, .f32⟩ : BufTy).Contents (Elt F) := addf count n
  let c10 : (⟨S_, .f32⟩ : BufTy).Contents (Elt F) := constant S_ .f32 0x3F800000#32
  let v27 : (⟨S12, .f32⟩ : BufTy).Contents (Elt F) := broadcastInDim S12 ![] bcast_S_S12 c10
  let v28 : (⟨S12, .f32⟩ : BufTy).Contents (Elt F) := maximumf v26 v27
  let v29 : (⟨S12, .f32⟩ : BufTy).Contents (Elt F) := Host.divf n v28
  let v30 : (⟨S12, .f32⟩ : BufTy).Contents (Elt F) := mulf v25 v29
  let v31 : (⟨S12, .f32⟩ : BufTy).Contents (Elt F) := addf mean v30
  let v32 : (⟨S12, .f32⟩ : BufTy).Contents (Elt F) := mulf var count
  let v33 : (⟨S12, .f32⟩ : BufTy).Contents (Elt F) := mulf v24 n
  let v34 : (⟨S12, .f32⟩ : BufTy).Contents (Elt F) := addf v32 v33
  let v35 : (⟨S12, .f32⟩ : BufTy).Contents (Elt F) := mulf v25 v25
  let v36 : (⟨S12, .f32⟩ : BufTy).Contents (Elt F) := mulf v35 count
  let v37 : (⟨S12, .f32⟩ : BufTy).Contents (Elt F) := mulf v36 n
  let v38 : (⟨S12, .f32⟩ : BufTy).Contents (Elt F) := Host.divf v37 v28
  let v39 : (⟨S12, .f32⟩ : BufTy).Contents (Elt F) := addf v34 v38
  let c11 : (⟨S_, .f32⟩ : BufTy).Contents (Elt F) := constant S_ .f32 0x00000000#32
  let v40 : (⟨S12, .f32⟩ : BufTy).Contents (Elt F) := broadcastInDim S12 ![] bcast_S_S12 c11
  let v41 : (⟨S12, .i1⟩ : BufTy).Contents (Elt F) := cmpf (F := F) .ogt n v40
  let v42 : (⟨S12, .f32⟩ : BufTy).Contents (Elt F) := select v41 v31 mean
  let v43 : (⟨S12, .f32⟩ : BufTy).Contents (Elt F) := Host.divf v39 v28
  let v44 : (⟨S12, .f32⟩ : BufTy).Contents (Elt F) := select v41 v43 var
  let c12 : (⟨S_, .f32⟩ : BufTy).Contents (Elt F) := constant S_ .f32 0x322BCC77#32
  let v45 : (⟨S12, .f32⟩ : BufTy).Contents (Elt F) := broadcastInDim S12 ![] bcast_S_S12 c12
  let v46 : (⟨S12, .f32⟩ : BufTy).Contents (Elt F) := addf v44 v45
  let v47 : (⟨S12, .f32⟩ : BufTy).Contents (Elt F) := Host.sqrt v46
  let v48 : (⟨S12, .f32⟩ : BufTy).Contents (Elt F) := select v41 v47 std
  let v49 : (⟨S12, .f32⟩ : BufTy).Contents (Elt F) := addf count n
  let v50 : (⟨S12, .f32⟩ : BufTy).Contents (Elt F) := minimumf minv mn
  let v51 : (⟨S12, .f32⟩ : BufTy).Contents (Elt F) := maximumf maxv mx
  let v52 : (⟨S1x12, .f32⟩ : BufTy).Contents (Elt F) := broadcastInDim S1x12 ![1] bcast_S12_S1x12_1 v42
  let v53 : (⟨S1x12, .f32⟩ : BufTy).Contents (Elt F) := broadcastInDim S1x12 ![1] bcast_S12_S1x12_1 v44
  let v54 : (⟨S1x12, .f32⟩ : BufTy).Contents (Elt F) := broadcastInDim S1x12 ![1] bcast_S12_S1x12_1 v48
  let v55 : (⟨S1x12, .f32⟩ : BufTy).Contents (Elt F) := broadcastInDim S1x12 ![1] bcast_S12_S1x12_1 v49
  let v56 : (⟨S1x12, .f32⟩ : BufTy).Contents (Elt F) := broadcastInDim S1x12 ![1] bcast_S12_S1x12_1 v50
  let v57 : (⟨S1x12, .f32⟩ : BufTy).Contents (Elt F) := broadcastInDim S1x12 ![1] bcast_S12_S1x12_1 v51
  concatenate S6x12 0 [⟨S1x12, v52⟩, ⟨S1x12, v53⟩, ⟨S1x12, v54⟩, ⟨S1x12, v55⟩, ⟨S1x12, v56⟩, ⟨S1x12, v57⟩]
    concatenates_S1x12_S1x12_S1x12_S1x12_S1x12_S1x12_S6x12_d0

/-! ## The run -/

/-- One rewriting pass over a line of operations: each operation's result at its own buffer is its function's value,
    at any other buffer what was there. -/
macro "tail_results" : tactic =>
  `(tactic| (simp (disch := decide) only [after_cons, after_nil,
      nullary_result', unary_result', binary_result', ternary_result', reshape_result', nary6_result',
      nullary_result_ne', unary_result_ne', binary_result_ne', ternary_result_ne', reshape_result_ne', nary_result_ne']))

set_option maxRecDepth 8192 in
set_option maxHeartbeats 4000000 in
/-- Once the operations have run, the result buffer holds `merge` of the five folded outputs of the region and the six
    statistics the program was given. -/
theorem after_result (W : Valuation τ sig (Elt F)) :
    StableHlo.after (tailOps (F := F)).flatten W (Proc.devRef .tc main_v58)
      = merge (halvesAdd (W (Proc.devRef .tc main_v0_0))) (halvesAdd (W (Proc.devRef .tc main_v0_1)))
          (halvesAdd (W (Proc.devRef .tc main_v0_2))) (halvesMin (W (Proc.devRef .tc main_v0_3)))
          (halvesMax (W (Proc.devRef .tc main_v0_4)))
          (W (Proc.devRef .tc main_arg1)) (W (Proc.devRef .tc main_arg2)) (W (Proc.devRef .tc main_arg3))
          (W (Proc.devRef .tc main_arg4)) (W (Proc.devRef .tc main_arg5)) (W (Proc.devRef .tc main_arg6)) := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  tail_results
  rfl

set_option maxRecDepth 8192 in
set_option maxHeartbeats 4000000 in
/-- No operation of the tail writes argument 0. -/
theorem after_arg0 (W : Valuation τ sig (Elt F)) :
    StableHlo.after (tailOps (F := F)).flatten W (Proc.devRef .tc main_arg0) = W (Proc.devRef .tc main_arg0) := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  tail_results

set_option maxRecDepth 8192 in
set_option maxHeartbeats 4000000 in
/-- No operation of the tail writes argument 1. -/
theorem after_arg1 (W : Valuation τ sig (Elt F)) :
    StableHlo.after (tailOps (F := F)).flatten W (Proc.devRef .tc main_arg1) = W (Proc.devRef .tc main_arg1) := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  tail_results

set_option maxRecDepth 8192 in
set_option maxHeartbeats 4000000 in
/-- No operation of the tail writes argument 2. -/
theorem after_arg2 (W : Valuation τ sig (Elt F)) :
    StableHlo.after (tailOps (F := F)).flatten W (Proc.devRef .tc main_arg2) = W (Proc.devRef .tc main_arg2) := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  tail_results

set_option maxRecDepth 8192 in
set_option maxHeartbeats 4000000 in
/-- No operation of the tail writes argument 3. -/
theorem after_arg3 (W : Valuation τ sig (Elt F)) :
    StableHlo.after (tailOps (F := F)).flatten W (Proc.devRef .tc main_arg3) = W (Proc.devRef .tc main_arg3) := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  tail_results

set_option maxRecDepth 8192 in
set_option maxHeartbeats 4000000 in
/-- No operation of the tail writes argument 4. -/
theorem after_arg4 (W : Valuation τ sig (Elt F)) :
    StableHlo.after (tailOps (F := F)).flatten W (Proc.devRef .tc main_arg4) = W (Proc.devRef .tc main_arg4) := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  tail_results

set_option maxRecDepth 8192 in
set_option maxHeartbeats 4000000 in
/-- No operation of the tail writes argument 5. -/
theorem after_arg5 (W : Valuation τ sig (Elt F)) :
    StableHlo.after (tailOps (F := F)).flatten W (Proc.devRef .tc main_arg5) = W (Proc.devRef .tc main_arg5) := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  tail_results

set_option maxRecDepth 8192 in
set_option maxHeartbeats 4000000 in
/-- No operation of the tail writes argument 6. -/
theorem after_arg6 (W : Valuation τ sig (Elt F)) :
    StableHlo.after (tailOps (F := F)).flatten W (Proc.devRef .tc main_arg6) = W (Proc.devRef .tc main_arg6) := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  tail_results

/-! ## The folds read at a channel, at the extended reals -/

section AtIdeal

open Idealize.ShloMosaic.ValueIdx
open scoped BigOperators

/-- The fold over the two halves drops the first axis of a [2, 12] array. -/
theorem reduces_S2x12 : S2x12.Reduces [0] S12 := by decide

/-- The reduced index `c` with the half `g` put back is (g, c). -/
theorem lift_ix2 (c : Fin 12) (g : Fin 2) : reduces_S2x12.lift (ix1 c) g = ix2 g c := by
  funext a; apply Fin.ext
  fin_cases a <;> rfl

/-- The reshape to [2, 12] read at (g, c) is the array at (g, 0, c). -/
theorem reshape_apply (o : FVec Ideal S2x1x12 .f32) (g : Fin 2) (c : Fin 12) :
    shapeCast S2x12 o shapeCasts_S2x1x12_S2x12 (ix2 g c) = o (ix3 g (0 : Fin 1) c) :=
  shapeCast_apply o shapeCasts_S2x1x12_S2x12 _ _ (by
    rw [Shape.rowMajor_val_three, Shape.rowMajor_val_two]
    show (g.val * 1 + 0) * 12 + c.val = g.val * 12 + c.val
    rw [Nat.mul_one, Nat.add_zero])

/-- The reshaped array along the dropped axis, at channel `c`: the two halves' entries at `c`. -/
theorem reshape_comp_lift (o : FVec Ideal S2x1x12 .f32) (c : Fin 12) :
    ((shapeCast S2x12 o shapeCasts_S2x1x12_S2x12 : S2x12.Idx → Ideal .f32) ∘ reduces_S2x12.lift (ix1 c))
      = fun g : Fin 2 => o (ix3 g (0 : Fin 1) c) :=
  funext fun g => (congrArg (shapeCast S2x12 o shapeCasts_S2x1x12_S2x12) (lift_ix2 c g)).trans (reshape_apply o g c)

/-- The sum of the halves at channel `c`: the initial value plus the two entries. -/
theorem halvesAdd_apply (o : FVec Ideal S2x1x12 .f32) (c : Fin 12) :
    halvesAdd (F := Ideal) o (ix1 c) = Ideal.ofBits .f32 0x00000000#32 + ∑ g : Fin 2, o (ix3 g (0 : Fin 1) c) := by
  show Ideal.hostReduceAdd reducesTo_S2x12_S12_d0 (shapeCast S2x12 o shapeCasts_S2x1x12_S2x12) (Ideal.ofBits .f32 0x00000000#32) (ix1 c) = _
  rw [Ideal.hostReduceAdd_single reducesTo_S2x12_S12_d0 reduces_S2x12]
  exact congrArg (fun f : Fin 2 → EReal => Ideal.ofBits .f32 0x00000000#32 + ∑ g : Fin 2, f g) (reshape_comp_lift o c)

/-- The least of the halves at channel `c`: the fold of `min` from +∞ over the two entries. -/
theorem halvesMin_apply (o : FVec Ideal S2x1x12 .f32) (c : Fin 12) :
    halvesMin (F := Ideal) o (ix1 c)
      = (Finset.univ : Finset (Fin 2)).fold min (Ideal.ofBits .f32 0x7F800000#32) (fun g => o (ix3 g (0 : Fin 1) c)) := by
  unfold halvesMin
  rw [Host.reduce_eq_fold_single FloatOps.minimumf _ _ reducesTo_S2x12_S12_d0 reduces_S2x12 h_S_]
  exact congrArg (fun f => Finset.fold min (Ideal.ofBits .f32 0x7F800000#32) f (Finset.univ : Finset (Fin 2)))
    (reshape_comp_lift o c)

/-- The greatest of the halves at channel `c`: the fold of `max` from −∞ over the two entries. -/
theorem halvesMax_apply (o : FVec Ideal S2x1x12 .f32) (c : Fin 12) :
    halvesMax (F := Ideal) o (ix1 c)
      = (Finset.univ : Finset (Fin 2)).fold max (Ideal.ofBits .f32 0xFF800000#32) (fun g => o (ix3 g (0 : Fin 1) c)) := by
  unfold halvesMax
  rw [Host.reduce_eq_fold_single FloatOps.maximumf _ _ reducesTo_S2x12_S12_d0 reduces_S2x12 h_S_]
  exact congrArg (fun f => Finset.fold max (Ideal.ofBits .f32 0xFF800000#32) f (Finset.univ : Finset (Fin 2)))
    (reshape_comp_lift o c)

end AtIdeal

end Cert.KernelIdeal.Tail

end
-- ==== Proof.KernelValue.lean ====
/-
  The idealized kernel program's result, as a function of its arguments.

  After the region, output w's array holds at (g, 0, c) the accumulation over the sixteen batch elements of half g
  (the sums and the least / greatest masked values of channel c). The first host operations after the region combine
  the two halves; so the five vectors the later lines start from are the batch moments over all thirty-two batch
  elements: splitting the batch index b = 16·g + j turns the sum (infimum, supremum) over b into the iterated one
  over g and j. The remaining lines are the merge of the running statistics with those moments, one function of the
  five moments and the six small arguments.
-/
import proofs.«149877_j6811818131595_1_alg».proof.Proof.FrameKernelIdeal
import proofs.«149877_j6811818131595_1_alg».proof.Proof.KernelSums
import proofs.«149877_j6811818131595_1_alg».proof.Proof.KernelExtrema
import proofs.«149877_j6811818131595_1_alg».proof.Proof.Tail
import proofs.«149877_j6811818131595_1_alg».proof.Proof.Moments
import proofs.«149877_j6811818131595_1_alg».proof.Proof.LibReindex

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## The two halves combined are the batch moments -/

/-- The count: the two halves' counts added are the sum of the weights over the whole batch. -/
theorem halves_count (c : Dev nD) :
    Cert.KernelIdeal.Tail.halvesAdd (F := Ideal) ((dats (F := Ideal) m 0 c).arrAt 1 cfg0.N) = Cert.Moments.count (m ((c : Thread nD τ).loc main_arg0)) := by
  funext j
  obtain ⟨ch, rfl⟩ : ∃ ch : Fin 12, j = ix1 ch := ⟨j 0, eq_ix1 j⟩
  rw [Cert.KernelIdeal.Tail.halvesAdd_apply, Cert.Reindex.ofBits_zero, zero_add]
  simp only [final_count]
  exact (Cert.Reindex.sum_batch fun b : Fin 32 => ∑ h : Fin 256, ∑ w : Fin 256,
    Cert.Moments.weight (m ((c : Thread nD τ).loc main_arg0) (ix4 b ch h w))).symm

/-- The weighted sum. -/
theorem halves_total (c : Dev nD) :
    Cert.KernelIdeal.Tail.halvesAdd (F := Ideal) ((dats (F := Ideal) m 0 c).arrAt 2 cfg0.N) = Cert.Moments.total (m ((c : Thread nD τ).loc main_arg0)) := by
  funext j
  obtain ⟨ch, rfl⟩ : ∃ ch : Fin 12, j = ix1 ch := ⟨j 0, eq_ix1 j⟩
  rw [Cert.KernelIdeal.Tail.halvesAdd_apply, Cert.Reindex.ofBits_zero, zero_add]
  simp only [final_total]
  exact (Cert.Reindex.sum_batch fun b : Fin 32 => ∑ h : Fin 256, ∑ w : Fin 256,
    Cert.Moments.weighted (m ((c : Thread nD τ).loc main_arg0) (ix4 b ch h w))).symm

/-- The weighted sum of squares. -/
theorem halves_totalSq (c : Dev nD) :
    Cert.KernelIdeal.Tail.halvesAdd (F := Ideal) ((dats (F := Ideal) m 0 c).arrAt 3 cfg0.N) = Cert.Moments.totalSq (m ((c : Thread nD τ).loc main_arg0)) := by
  funext j
  obtain ⟨ch, rfl⟩ : ∃ ch : Fin 12, j = ix1 ch := ⟨j 0, eq_ix1 j⟩
  rw [Cert.KernelIdeal.Tail.halvesAdd_apply, Cert.Reindex.ofBits_zero, zero_add]
  simp only [final_totalSq]
  exact (Cert.Reindex.sum_batch fun b : Fin 32 => ∑ h : Fin 256, ∑ w : Fin 256,
    Cert.Moments.weightedSq (m ((c : Thread nD τ).loc main_arg0) (ix4 b ch h w))).symm

/-- The least masked value: the lesser of the two halves', from +∞. -/
theorem halves_least (c : Dev nD) :
    Cert.KernelIdeal.Tail.halvesMin (F := Ideal) ((dats (F := Ideal) m 0 c).arrAt 4 cfg0.N) = Cert.Moments.least (m ((c : Thread nD τ).loc main_arg0)) := by
  funext j
  obtain ⟨ch, rfl⟩ : ∃ ch : Fin 12, j = ix1 ch := ⟨j 0, eq_ix1 j⟩
  rw [Cert.KernelIdeal.Tail.halvesMin_apply, Cert.Reindex.fold_min_eq_iInf _ Cert.Reindex.ofBits_posInf]
  simp only [final_least]
  exact (Cert.Reindex.iInf_batch fun b : Fin 32 => ⨅ h : Fin 256, ⨅ w : Fin 256,
    Cert.Moments.maskedLo (m ((c : Thread nD τ).loc main_arg0) (ix4 b ch h w))).symm

/-- The greatest masked value: the greater of the two halves', from −∞. -/
theorem halves_greatest (c : Dev nD) :
    Cert.KernelIdeal.Tail.halvesMax (F := Ideal) ((dats (F := Ideal) m 0 c).arrAt 5 cfg0.N) = Cert.Moments.greatest (m ((c : Thread nD τ).loc main_arg0)) := by
  funext j
  obtain ⟨ch, rfl⟩ : ∃ ch : Fin 12, j = ix1 ch := ⟨j 0, eq_ix1 j⟩
  rw [Cert.KernelIdeal.Tail.halvesMax_apply, Cert.Reindex.fold_max_eq_iSup _ Cert.Reindex.ofBits_negInf]
  simp only [final_greatest]
  exact (Cert.Reindex.iSup_batch fun b : Fin 32 => ⨆ h : Fin 256, ⨆ w : Fin 256,
    Cert.Moments.maskedHi (m ((c : Thread nD τ).loc main_arg0) (ix4 b ch h w))).symm

/-! ## The result buffer after the later lines -/

/-- The contents the later lines start from: the region's arrays at what the proof data compute, every other buffer
    as launched. -/
abbrev exitVal (c : Dev nD) : Valuation τ sig (Elt Ideal) :=
  Pipeline.withArrays spec0 c (V0 m c) fun w => (dats (F := Ideal) m 0 c).arrAt w cfg0.N

theorem exit_out1 (c : Dev nD) : exitVal m c (Proc.devRef .tc main_v0_0) = (dats (F := Ideal) m 0 c).arrAt 1 cfg0.N :=
  Pipeline.withArrays_arr spec0 launch0.win.arr_inj c (V0 m c) (fun w => (dats (F := Ideal) m 0 c).arrAt w cfg0.N) 1
theorem exit_out2 (c : Dev nD) : exitVal m c (Proc.devRef .tc main_v0_1) = (dats (F := Ideal) m 0 c).arrAt 2 cfg0.N :=
  Pipeline.withArrays_arr spec0 launch0.win.arr_inj c (V0 m c) (fun w => (dats (F := Ideal) m 0 c).arrAt w cfg0.N) 2
theorem exit_out3 (c : Dev nD) : exitVal m c (Proc.devRef .tc main_v0_2) = (dats (F := Ideal) m 0 c).arrAt 3 cfg0.N :=
  Pipeline.withArrays_arr spec0 launch0.win.arr_inj c (V0 m c) (fun w => (dats (F := Ideal) m 0 c).arrAt w cfg0.N) 3
theorem exit_out4 (c : Dev nD) : exitVal m c (Proc.devRef .tc main_v0_3) = (dats (F := Ideal) m 0 c).arrAt 4 cfg0.N :=
  Pipeline.withArrays_arr spec0 launch0.win.arr_inj c (V0 m c) (fun w => (dats (F := Ideal) m 0 c).arrAt w cfg0.N) 4
theorem exit_out5 (c : Dev nD) : exitVal m c (Proc.devRef .tc main_v0_4) = (dats (F := Ideal) m 0 c).arrAt 5 cfg0.N :=
  Pipeline.withArrays_arr spec0 launch0.win.arr_inj c (V0 m c) (fun w => (dats (F := Ideal) m 0 c).arrAt w cfg0.N) 5
theorem exit_arg1 (c : Dev nD) : exitVal m c (Proc.devRef .tc main_arg1) = m ((c : Thread nD τ).loc main_arg1) :=
  Pipeline.withArrays_of_ne spec0 c (V0 m c) _ main_arg1 (by decide)
theorem exit_arg2 (c : Dev nD) : exitVal m c (Proc.devRef .tc main_arg2) = m ((c : Thread nD τ).loc main_arg2) :=
  Pipeline.withArrays_of_ne spec0 c (V0 m c) _ main_arg2 (by decide)
theorem exit_arg3 (c : Dev nD) : exitVal m c (Proc.devRef .tc main_arg3) = m ((c : Thread nD τ).loc main_arg3) :=
  Pipeline.withArrays_of_ne spec0 c (V0 m c) _ main_arg3 (by decide)
theorem exit_arg4 (c : Dev nD) : exitVal m c (Proc.devRef .tc main_arg4) = m ((c : Thread nD τ).loc main_arg4) :=
  Pipeline.withArrays_of_ne spec0 c (V0 m c) _ main_arg4 (by decide)
theorem exit_arg5 (c : Dev nD) : exitVal m c (Proc.devRef .tc main_arg5) = m ((c : Thread nD τ).loc main_arg5) :=
  Pipeline.withArrays_of_ne spec0 c (V0 m c) _ main_arg5 (by decide)
theorem exit_arg6 (c : Dev nD) : exitVal m c (Proc.devRef .tc main_arg6) = m ((c : Thread nD τ).loc main_arg6) :=
  Pipeline.withArrays_of_ne spec0 c (V0 m c) _ main_arg6 (by decide)

/-- The result: the merge of the batch moments with the running statistics. -/
theorem result_eq (c : Dev nD) :
    Pipeline.afterTail₀ cfgs (dats (F := Ideal) m) 0 (V0 m) tailOps c main_v58
      = Cert.KernelIdeal.Tail.merge (F := Ideal) (Cert.Moments.count (m ((c : Thread nD τ).loc main_arg0))) (Cert.Moments.total (m ((c : Thread nD τ).loc main_arg0)))
          (Cert.Moments.totalSq (m ((c : Thread nD τ).loc main_arg0))) (Cert.Moments.least (m ((c : Thread nD τ).loc main_arg0))) (Cert.Moments.greatest (m ((c : Thread nD τ).loc main_arg0)))
          (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  refine (Cert.KernelIdeal.Tail.after_result (F := Ideal) (exitVal m c)).trans ?_
  rw [exit_out1, exit_out2, exit_out3, exit_out4, exit_out5, exit_arg1, exit_arg2, exit_arg3, exit_arg4, exit_arg5, exit_arg6,
    halves_count, halves_total, halves_totalSq, halves_least, halves_greatest]

/-- Every weakly fair execution of the idealized kernel program terminates; its result buffer ends at the merge of
    the batch moments of the large input with the six small inputs, and the seven inputs end as launched. -/
theorem run : θ_run (defs (F := Ideal)) (onTc (τ := τ) (main (F := Ideal))) ⟨m, fun _ => 0, ρ⟩ (fun r => ∀ c : Dev nD,
      r.2.mem ((c.tc : Thread nD τ).loc main_v58)
        = Cert.KernelIdeal.Tail.merge (F := Ideal) (Cert.Moments.count (m ((c : Thread nD τ).loc main_arg0))) (Cert.Moments.total (m ((c : Thread nD τ).loc main_arg0)))
          (Cert.Moments.totalSq (m ((c : Thread nD τ).loc main_arg0))) (Cert.Moments.least (m ((c : Thread nD τ).loc main_arg0))) (Cert.Moments.greatest (m ((c : Thread nD τ).loc main_arg0)))
          (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v58 (Pipeline.mem_restRefs_of main_v58 (by decide) (by decide))).trans (result_eq m c),
     ((h c).1 0).trans (((dats (F := Ideal) m 0 c).arrAt_in 0 rfl _).trans ((A_eq m c 0).trans (V_main_arg0 m c))),
     ((h c).2 main_arg1 (Pipeline.mem_restRefs_of main_arg1 (by decide) (by decide))).trans (tail_arg m (dats (F := Ideal) m) c main_arg1 (by decide) (by decide)),
     ((h c).2 main_arg2 (Pipeline.mem_restRefs_of main_arg2 (by decide) (by decide))).trans (tail_arg m (dats (F := Ideal) m) c main_arg2 (by decide) (by decide)),
     ((h c).2 main_arg3 (Pipeline.mem_restRefs_of main_arg3 (by decide) (by decide))).trans (tail_arg m (dats (F := Ideal) m) c main_arg3 (by decide) (by decide)),
     ((h c).2 main_arg4 (Pipeline.mem_restRefs_of main_arg4 (by decide) (by decide))).trans (tail_arg m (dats (F := Ideal) m) c main_arg4 (by decide) (by decide)),
     ((h c).2 main_arg5 (Pipeline.mem_restRefs_of main_arg5 (by decide) (by decide))).trans (tail_arg m (dats (F := Ideal) m) c main_arg5 (by decide) (by decide)),
     ((h c).2 main_arg6 (Pipeline.mem_restRefs_of main_arg6 (by decide) (by decide))).trans (tail_arg m (dats (F := Ideal) m) c main_arg6 (by decide) (by decide))⟩)
    (run_main (F := Ideal) m ρ)

end Cert.KernelIdeal.HandValue

end
-- ==== Proof.RefEval.lean ====
/-
  The reference program's result as the merge of its five batch moments with the six running statistics.

  The program's first 28 operations compute, from the input array alone, the clipped values and the validity bits laid
  out one row per channel, and from them the count, the weighted sum and the weighted sum of squares of every channel.
  The remaining 73 operations are the merge of the running statistics with the batch moments, operation for operation
  the one the kernel program's host operations perform; among them stand the least and the greatest valid clipped
  value of every channel, which read the clipped values and the validity bits and feed only the last two rows.

  The list is cut after the 28th operation. The first part's values at the five buffers the second part reads are the
  stages `val_main_v10`, `val_main_v12`, `val_main_v15`, `val_main_v6`, `val_main_v8` of the input array, and it leaves
  the arguments as they were. The second part, from any contents, leaves the result buffer at `merge` of what those
  buffers and the arguments held. Together: the result is `merge` of the five moments and the six statistics.
-/
import proofs.«149877_j6811818131595_1_alg».proof.Proof.RefRunP
import proofs.«149877_j6811818131595_1_alg».proof.Proof.RefReadP
import proofs.«149877_j6811818131595_1_alg».proof.Proof.Tail
import Idealize.ShloMosaic.Lib.StableHlo.Run
import Idealize.ShloMosaic.Lib.Pipeline.Frame

noncomputable section

namespace Cert.ReferenceIdeal.Eval

open Cert.ReferenceIdeal Cert.ReferenceIdeal.Gen Idealize.ShloMosaic Idealize.ShloMosaic.TcCoe Idealize.SL.Sem Idealize.ShloMosaic.StableHlo

/-! ## A six-operand operation's result from its operands' values -/

section Nary6

variable {τ' : Topo} {sig' : RefSig} {Val : EltTy → Type} {x0 x1 x2 x3 x4 x5 y : Ref sig' .tc}

/-- The result of an operation over a literal family of six references, given what each operand's buffer holds. -/
theorem nary6_result_of
    (f : ((k : Fin 6) → ((![x0, x1, x2, x3, x4, x5] : Fin 6 → Ref sig' .tc) k).ty.Contents Val) → y.ty.Contents Val) (hxs hy)
    (G : Valuation τ' sig' Val)
    {b0 : x0.ty.Contents Val} {b1 : x1.ty.Contents Val} {b2 : x2.ty.Contents Val}
    {b3 : x3.ty.Contents Val} {b4 : x4.ty.Contents Val} {b5 : x5.ty.Contents Val}
    (h0 : G (Proc.devRef .tc x0) = b0) (h1 : G (Proc.devRef .tc x1) = b1) (h2 : G (Proc.devRef .tc x2) = b2)
    (h3 : G (Proc.devRef .tc x3) = b3) (h4 : G (Proc.devRef .tc x4) = b4) (h5 : G (Proc.devRef .tc x5) = b5) :
    (nary (τ := τ') ![x0, x1, x2, x3, x4, x5] y f hxs hy).result G (Proc.devRef .tc y)
      = f (Fin.cons b0 (Fin.cons b1 (Fin.cons b2 (Fin.cons b3 (Fin.cons b4 (Fin.cons b5 (fun i => i.elim0))))))) := by
  subst h0 h1 h2 h3 h4 h5
  exact Cert.KernelIdeal.Tail.nary6_result f hxs hy G

end Nary6

variable {F : FTy → Type} [FloatOps F]

/-- The operations that compute the three sums and their operands, and the rest. -/
abbrev opsA : List (HloOp τ sig (Elt F)) := (ValueP.ops (F := F)).take 28
abbrev opsB : List (HloOp τ sig (Elt F)) := (ValueP.ops (F := F)).drop 28

/-- The program's operations are the first part followed by the second. -/
theorem ops_split : ValueP.ops (F := F) = opsA ++ opsB := (List.take_append_drop 28 _).symm

/-! ## The first part -/

set_option maxRecDepth 8192 in
set_option maxHeartbeats 4000000 in
/-- After the first part `main_v10` holds the count of the input array. -/
theorem first_v10 (V : Valuation τ sig (Elt F)) :
    StableHlo.after (opsA (F := F)) V (Proc.devRef .tc main_v10) = ReadP.val_main_v10 (V (Proc.devRef .tc main_arg0)) := by
  simp only [opsA, ValueP.ops, List.take_succ_cons, List.take_zero]
  tail_results
  rfl

set_option maxRecDepth 8192 in
set_option maxHeartbeats 4000000 in
/-- After the first part `main_v12` holds the weighted sum of the input array. -/
theorem first_v12 (V : Valuation τ sig (Elt F)) :
    StableHlo.after (opsA (F := F)) V (Proc.devRef .tc main_v12) = ReadP.val_main_v12 (V (Proc.devRef .tc main_arg0)) := by
  simp only [opsA, ValueP.ops, List.take_succ_cons, List.take_zero]
  tail_results
  rfl

set_option maxRecDepth 8192 in
set_option maxHeartbeats 4000000 in
/-- After the first part `main_v15` holds the weighted sum of squares of the input array. -/
theorem first_v15 (V : Valuation τ sig (Elt F)) :
    StableHlo.after (opsA (F := F)) V (Proc.devRef .tc main_v15) = ReadP.val_main_v15 (V (Proc.devRef .tc main_arg0)) := by
  simp only [opsA, ValueP.ops, List.take_succ_cons, List.take_zero]
  tail_results
  rfl

set_option maxRecDepth 8192 in
set_option maxHeartbeats 4000000 in
/-- After the first part `main_v6` holds the clipped values, one row per channel of the input array. -/
theorem first_v6 (V : Valuation τ sig (Elt F)) :
    StableHlo.after (opsA (F := F)) V (Proc.devRef .tc main_v6) = ReadP.val_main_v6 (V (Proc.devRef .tc main_arg0)) := by
  simp only [opsA, ValueP.ops, List.take_succ_cons, List.take_zero]
  tail_results
  rfl

set_option maxRecDepth 8192 in
set_option maxHeartbeats 4000000 in
/-- After the first part `main_v8` holds the validity bits, one row per channel of the input array. -/
theorem first_v8 (V : Valuation τ sig (Elt F)) :
    StableHlo.after (opsA (F := F)) V (Proc.devRef .tc main_v8) = ReadP.val_main_v8 (V (Proc.devRef .tc main_arg0)) := by
  simp only [opsA, ValueP.ops, List.take_succ_cons, List.take_zero]
  tail_results
  rfl

set_option maxRecDepth 8192 in
/-- The first part does not write argument 1. -/
theorem first_arg1 (V : Valuation τ sig (Elt F)) :
    StableHlo.after (opsA (F := F)) V (Proc.devRef .tc main_arg1) = V (Proc.devRef .tc main_arg1) := by
  simp only [opsA, ValueP.ops, List.take_succ_cons, List.take_zero]
  tail_results

set_option maxRecDepth 8192 in
/-- The first part does not write argument 2. -/
theorem first_arg2 (V : Valuation τ sig (Elt F)) :
    StableHlo.after (opsA (F := F)) V (Proc.devRef .tc main_arg2) = V (Proc.devRef .tc main_arg2) := by
  simp only [opsA, ValueP.ops, List.take_succ_cons, List.take_zero]
  tail_results

set_option maxRecDepth 8192 in
/-- The first part does not write argument 3. -/
theorem first_arg3 (V : Valuation τ sig (Elt F)) :
    StableHlo.after (opsA (F := F)) V (Proc.devRef .tc main_arg3) = V (Proc.devRef .tc main_arg3) := by
  simp only [opsA, ValueP.ops, List.take_succ_cons, List.take_zero]
  tail_results

set_option maxRecDepth 8192 in
/-- The first part does not write argument 4. -/
theorem first_arg4 (V : Valuation τ sig (Elt F)) :
    StableHlo.after (opsA (F := F)) V (Proc.devRef .tc main_arg4) = V (Proc.devRef .tc main_arg4) := by
  simp only [opsA, ValueP.ops, List.take_succ_cons, List.take_zero]
  tail_results

set_option maxRecDepth 8192 in
/-- The first part does not write argument 5. -/
theorem first_arg5 (V : Valuation τ sig (Elt F)) :
    StableHlo.after (opsA (F := F)) V (Proc.devRef .tc main_arg5) = V (Proc.devRef .tc main_arg5) := by
  simp only [opsA, ValueP.ops, List.take_succ_cons, List.take_zero]
  tail_results

set_option maxRecDepth 8192 in
/-- The first part does not write argument 6. -/
theorem first_arg6 (V : Valuation τ sig (Elt F)) :
    StableHlo.after (opsA (F := F)) V (Proc.devRef .tc main_arg6) = V (Proc.devRef .tc main_arg6) := by
  simp only [opsA, ValueP.ops, List.take_succ_cons, List.take_zero]
  tail_results

/-! ## The second part -/

set_option maxRecDepth 8192 in
set_option maxHeartbeats 4000000 in
/-- From any contents the second part leaves the result at the merge of what the three sums' buffers held, the least
    and the greatest of the clipped values where valid, and what the six arguments held. -/
theorem second (W : Valuation τ sig (Elt F)) :
    StableHlo.after (opsB (F := F)) W (Proc.devRef .tc main_v67)
      = Cert.KernelIdeal.Tail.merge (W (Proc.devRef .tc main_v10)) (W (Proc.devRef .tc main_v12)) (W (Proc.devRef .tc main_v15))
          (Host.reduce FloatOps.minimumf
            (select (W (Proc.devRef .tc main_v8)) (W (Proc.devRef .tc main_v6)) (ReadP.val_main_call3_v1 (F := F)) : (⟨S12x2097152, .f32⟩ : BufTy).Contents (Elt F))
            (ReadP.val_main_cst_13 (F := F)) reducesTo_S12x2097152_S12_d1 h_S_)
          (Host.reduce FloatOps.maximumf
            (select (W (Proc.devRef .tc main_v8)) (W (Proc.devRef .tc main_v6)) (ReadP.val_main_call4_v1 (F := F)) : (⟨S12x2097152, .f32⟩ : BufTy).Contents (Elt F))
            (ReadP.val_main_cst_15 (F := F)) reducesTo_S12x2097152_S12_d1 h_S_)
          (W (Proc.devRef .tc main_arg1)) (W (Proc.devRef .tc main_arg2)) (W (Proc.devRef .tc main_arg3))
          (W (Proc.devRef .tc main_arg4)) (W (Proc.devRef .tc main_arg5)) (W (Proc.devRef .tc main_arg6)) := by
  simp only [opsB, ValueP.ops, List.drop_succ_cons, List.drop_zero, after_cons, after_nil]
  refine (nary6_result_of (b0 := ?b0) (b1 := ?b1) (b2 := ?b2) (b3 := ?b3) (b4 := ?b4) (b5 := ?b5) _ _ _ _
    ?e0 ?e1 ?e2 ?e3 ?e4 ?e5).trans ?fin
  case e0 => tail_results; rfl
  case e1 => tail_results; rfl
  case e2 => tail_results; rfl
  case e3 => tail_results; rfl
  case e4 => tail_results; rfl
  case e5 => tail_results; rfl
  case fin => rfl

/-! ## The whole program -/

/-- Once the reference's operations have run, its result buffer holds the merge of the five batch moments of the input
    array with the six statistics it was given. -/
theorem after_result (V : Valuation τ sig (Elt F)) :
    StableHlo.after (ValueP.ops (F := F)) V (Proc.devRef .tc main_v67)
      = Cert.KernelIdeal.Tail.merge (ReadP.val_main_v10 (V (Proc.devRef .tc main_arg0))) (ReadP.val_main_v12 (V (Proc.devRef .tc main_arg0)))
          (ReadP.val_main_v15 (V (Proc.devRef .tc main_arg0))) (ReadP.val_main_v31 (V (Proc.devRef .tc main_arg0)))
          (ReadP.val_main_v33 (V (Proc.devRef .tc main_arg0)))
          (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [ops_split, StableHlo.after_append, second, first_v10, first_v12, first_v15, first_v8, first_v6,
    first_arg1, first_arg2, first_arg3, first_arg4, first_arg5, first_arg6]
  rfl

/-- On every device, for any float values, from any memory with zero counters: every weakly fair execution of the
    reference terminates with its result at the merge of the five batch moments of the input array with the six
    statistics, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67)
        = Cert.KernelIdeal.Tail.merge (ReadP.val_main_v10 (m ((c.tc : Thread nD τ).loc main_arg0)))
            (ReadP.val_main_v12 (m ((c.tc : Thread nD τ).loc main_arg0)))
            (ReadP.val_main_v15 (m ((c.tc : Thread nD τ).loc main_arg0)))
            (ReadP.val_main_v31 (m ((c.tc : Thread nD τ).loc main_arg0)))
            (ReadP.val_main_v33 (m ((c.tc : Thread nD τ).loc main_arg0)))
            (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (after_result (launchContents m c)), (h c).2⟩) (ValueP.run m ρ)

end Cert.ReferenceIdeal.Eval

end
-- ==== Proof.RefMoments.lean ====
/-
  The reference program's five batch moments are the specification's.

  Each of the reference's reductions runs over one flattened axis of 2097152 = 32 · 256 · 256 entries per channel,
  reached through a transposition (batch and channel exchanged) and a reshape. Read at channel `c` and flattened
  position `b · 65536 + h · 256 + w`, the reshaped arrays are the entry (b, c, h, w) of the input pushed through the
  specification's scalar functions; re-indexing the flattened axis as (batch, row, column) then gives the
  specification's nested sums, infima and suprema.
-/
import proofs.«149877_j6811818131595_1_alg».proof.Proof.RefReadP
import proofs.«149877_j6811818131595_1_alg».proof.Proof.Moments
import proofs.«149877_j6811818131595_1_alg».proof.Proof.LibReindex
import Idealize.ShloMosaic.PureOps.Reduce
import Idealize.ShloMosaic.PureOps.Ideal.Laws
import Idealize.ShloMosaic.Lib.ValueIdx

noncomputable section

open scoped BigOperators

namespace Cert.ReferenceIdeal.AtIdeal

open Cert.ReferenceIdeal Cert.ReferenceIdeal.Gen Cert.ReferenceIdeal.ReadP Cert.Moments
  Idealize.ShloMosaic Idealize.ShloMosaic.ValueIdx Idealize.ShloMosaic.StableHlo

/-- The input array: one extended real per (batch, channel, row, column). -/
abbrev X : Type := (⟨S32x12x256x256, .f32⟩ : BufTy).Contents (Elt Ideal)

/-! ### The elementwise stages at an index of the input -/

/-- The shifted array at an index is the specification's shifted value of the entry there. -/
theorem v1_at (x : X) (i : S32x12x256x256.Idx) : val_main_v1 (F := Ideal) x i = shifted (x i) := by
  rw [val_main_v1_apply, val_main_v0_apply, val_main_cst_apply]; rfl

/-- The validity bits at an index are the specification's validity bit of the entry there. -/
theorem v3_at (x : X) (i : S32x12x256x256.Idx) : val_main_v3 (F := Ideal) x i = valid (x i) := by
  rw [val_main_v3_apply, v1_at, val_main_v2_apply, val_main_cst_0_apply]; rfl

/-- The clipped array at an index is the specification's clipped value of the entry there. -/
theorem v4_at (x : X) (i : S32x12x256x256.Idx) : val_main_v4 (F := Ideal) x i = clipped (x i) := by
  rw [val_main_v4_apply, val_main_call0_v4_apply, val_main_call0_v3_apply, val_main_cst_2_apply,
    val_main_call0_v2_apply, val_main_call0_v1_apply, val_main_call0_v0_apply, val_main_cst_1_apply, v1_at]
  rfl

/-! ### The flattened axis -/

/-- The flattened position of (batch `b`, row `h`, column `w`). -/
abbrev flat (b : Fin 32) (h w : Fin 256) : Fin 2097152 := ⟨b.val * 65536 + h.val * 256 + w.val, by omega⟩

/-- Channel `c` at flattened position `b · 65536 + h · 256 + w`, taken back through the reshape and the transposition,
    is the entry (b, c, h, w). -/
theorem idx_flat (c : Fin 12) (b : Fin 32) (h w : Fin 256) :
    idx_main_v5 (idx_main_v6 (idx_main_v10 (ix1 c) (flat b h w))) = ix4 b c h w := by
  have hc := c.isLt; have hb := b.isLt; have hh := h.isLt; have hw := w.isLt
  funext a; apply Fin.ext
  match a with
  | ⟨0, _⟩ =>
    show (c.val * 2097152 + (b.val * 65536 + h.val * 256 + w.val)) / 65536 % 32 = b.val
    omega
  | ⟨1, _⟩ =>
    show (c.val * 2097152 + (b.val * 65536 + h.val * 256 + w.val)) / 2097152 = c.val
    omega
  | ⟨2, _⟩ =>
    show (c.val * 2097152 + (b.val * 65536 + h.val * 256 + w.val)) / 256 % 256 = h.val
    omega
  | ⟨3, _⟩ =>
    show (c.val * 2097152 + (b.val * 65536 + h.val * 256 + w.val)) % 256 = w.val
    omega

/-- The reshaped clipped array at channel `c`, position (b, h, w). -/
theorem v6_at (x : X) (c : Fin 12) (b : Fin 32) (h w : Fin 256) :
    val_main_v6 (F := Ideal) x (idx_main_v10 (ix1 c) (flat b h w)) = clipped (x (ix4 b c h w)) := by
  rw [val_main_v6_apply, val_main_v5_apply, v4_at]
  exact congrArg (fun i => clipped (x i)) (idx_flat c b h w)

/-- The reshaped validity bits at channel `c`, position (b, h, w). -/
theorem v8_at (x : X) (c : Fin 12) (b : Fin 32) (h w : Fin 256) :
    val_main_v8 (F := Ideal) x (idx_main_v10 (ix1 c) (flat b h w)) = valid (x (ix4 b c h w)) := by
  rw [val_main_v8_apply, val_main_v7_apply, v3_at]
  exact congrArg (fun i => valid (x i)) (idx_flat c b h w)

/-- The weights at channel `c`, position (b, h, w). -/
theorem v9_at (x : X) (c : Fin 12) (b : Fin 32) (h w : Fin 256) :
    val_main_v9 (F := Ideal) x (idx_main_v10 (ix1 c) (flat b h w)) = weight (x (ix4 b c h w)) := by
  rw [val_main_v9_apply, v8_at]; rfl

/-- The weighted clipped values at channel `c`, position (b, h, w). -/
theorem v11_at (x : X) (c : Fin 12) (b : Fin 32) (h w : Fin 256) :
    val_main_v11 (F := Ideal) x (idx_main_v10 (ix1 c) (flat b h w)) = weighted (x (ix4 b c h w)) := by
  rw [val_main_v11_apply, v6_at, v9_at]; rfl

/-- The weighted squares at channel `c`, position (b, h, w). -/
theorem v14_at (x : X) (c : Fin 12) (b : Fin 32) (h w : Fin 256) :
    val_main_v14 (F := Ideal) x (idx_main_v10 (ix1 c) (flat b h w)) = weightedSq (x (ix4 b c h w)) := by
  rw [val_main_v14_apply, val_main_v13_apply, v6_at, v9_at]; rfl

/-- The clipped values masked by +∞ at channel `c`, position (b, h, w). -/
theorem v30_at (x : X) (c : Fin 12) (b : Fin 32) (h w : Fin 256) :
    val_main_v30 (F := Ideal) x (idx_main_v10 (ix1 c) (flat b h w)) = maskedLo (x (ix4 b c h w)) := by
  rw [val_main_v30_apply, v8_at, v6_at, val_main_call3_v1_apply, val_main_call3_v0_apply, val_main_cst_12_apply]; rfl

/-- The clipped values masked by −∞ at channel `c`, position (b, h, w). -/
theorem v32_at (x : X) (c : Fin 12) (b : Fin 32) (h w : Fin 256) :
    val_main_v32 (F := Ideal) x (idx_main_v10 (ix1 c) (flat b h w)) = maskedHi (x (ix4 b c h w)) := by
  rw [val_main_v32_apply, v8_at, v6_at, val_main_call4_v1_apply, val_main_call4_v0_apply, val_main_cst_14_apply]; rfl

/-! ### The three sums -/

/-- A sum from the zero word over the flattened axis is the nested sum over (batch, row, column). -/
theorem sum_from_zero (f : Fin 2097152 → EReal) (e : EReal → EReal) (x : X) (c : Fin 12)
    (hf : ∀ b h w, f (flat b h w) = e (x (ix4 b c h w))) :
    Ideal.ofBits .f32 0x00000000#32 + ∑ k, f k = sumOver e x c := by
  rw [Cert.Reindex.ofBits_zero, zero_add, Cert.Reindex.sum_flat]
  unfold sumOver
  exact Finset.sum_congr rfl fun b _ => Finset.sum_congr rfl fun h _ => Finset.sum_congr rfl fun w _ => hf b h w

/-- The reference's count at channel `c`. -/
theorem ref_count_at (x : X) (c : Fin 12) : val_main_v10 (F := Ideal) x (ix1 c) = sumOver weight x c := by
  rw [val_main_v10_apply, val_main_cst_3_apply]
  exact sum_from_zero _ weight x c (v9_at x c)

/-- The reference's weighted sum at channel `c`. -/
theorem ref_total_at (x : X) (c : Fin 12) : val_main_v12 (F := Ideal) x (ix1 c) = sumOver weighted x c := by
  rw [val_main_v12_apply, val_main_cst_4_apply]
  exact sum_from_zero _ weighted x c (v11_at x c)

/-- The reference's weighted sum of squares at channel `c`. -/
theorem ref_totalSq_at (x : X) (c : Fin 12) : val_main_v15 (F := Ideal) x (ix1 c) = sumOver weightedSq x c := by
  rw [val_main_v15_apply, val_main_cst_5_apply]
  exact sum_from_zero _ weightedSq x c (v14_at x c)

/-! ### The two folds -/

/-- Channel `c` with coordinate `k` put back on the flattened axis is (c, k). -/
theorem lift_flat (hr : S12x2097152.Reduces [1] S12) (c : Fin 12) (k : Fin 2097152) :
    hr.lift (ix1 c) k = idx_main_v10 (ix1 c) k := by
  funext a; apply Fin.ext
  match a with
  | ⟨0, _⟩ => rfl
  | ⟨1, _⟩ => rfl

/-- The reference's least value at channel `c`. -/
theorem ref_least_at (x : X) (c : Fin 12) : val_main_v31 (F := Ideal) x (ix1 c) = infOver maskedLo x c := by
  have hr : S12x2097152.Reduces [1] S12 := by decide
  unfold val_main_v31
  refine (Host.reduce_eq_fold_single FloatOps.minimumf _ _ reducesTo_S12x2097152_S12_d1 hr h_S_ (ix1 c)).trans ?_
  have e1 : (val_main_v30 (F := Ideal) x ∘ hr.lift (ix1 c))
      = fun k : Fin 2097152 => val_main_v30 (F := Ideal) x (idx_main_v10 (ix1 c) k) :=
    funext fun k => congrArg (val_main_v30 (F := Ideal) x) (lift_flat hr c k)
  refine (congrArg (fun f => Finset.fold min (Ideal.ofBits .f32 0x7F800000#32) f (Finset.univ : Finset (Fin 2097152))) e1).trans ?_
  refine (Cert.Reindex.fold_min_eq_iInf _ Cert.Reindex.ofBits_posInf _).trans ?_
  rw [Cert.Reindex.iInf_flat]
  unfold infOver
  exact iInf_congr fun b => iInf_congr fun h => iInf_congr fun w => v30_at x c b h w

/-- The reference's greatest value at channel `c`. -/
theorem ref_greatest_at (x : X) (c : Fin 12) : val_main_v33 (F := Ideal) x (ix1 c) = supOver maskedHi x c := by
  have hr : S12x2097152.Reduces [1] S12 := by decide
  unfold val_main_v33
  refine (Host.reduce_eq_fold_single FloatOps.maximumf _ _ reducesTo_S12x2097152_S12_d1 hr h_S_ (ix1 c)).trans ?_
  have e1 : (val_main_v32 (F := Ideal) x ∘ hr.lift (ix1 c))
      = fun k : Fin 2097152 => val_main_v32 (F := Ideal) x (idx_main_v10 (ix1 c) k) :=
    funext fun k => congrArg (val_main_v32 (F := Ideal) x) (lift_flat hr c k)
  refine (congrArg (fun f => Finset.fold max (Ideal.ofBits .f32 0xFF800000#32) f (Finset.univ : Finset (Fin 2097152))) e1).trans ?_
  refine (Cert.Reindex.fold_max_eq_iSup _ Cert.Reindex.ofBits_negInf _).trans ?_
  rw [Cert.Reindex.iSup_flat]
  unfold supOver
  exact iSup_congr fun b => iSup_congr fun h => iSup_congr fun w => v32_at x c b h w

/-! ### The five moments as vectors of twelve -/

/-- The reference's count is the specification's. -/
theorem ref_count (x : X) : val_main_v10 (F := Ideal) x = Cert.Moments.count x := by
  funext j
  obtain ⟨c, rfl⟩ : ∃ c, j = ix1 c := ⟨j 0, eq_ix1 j⟩
  exact ref_count_at x c

/-- The reference's weighted sum is the specification's. -/
theorem ref_total (x : X) : val_main_v12 (F := Ideal) x = Cert.Moments.total x := by
  funext j
  obtain ⟨c, rfl⟩ : ∃ c, j = ix1 c := ⟨j 0, eq_ix1 j⟩
  exact ref_total_at x c

/-- The reference's weighted sum of squares is the specification's. -/
theorem ref_totalSq (x : X) : val_main_v15 (F := Ideal) x = Cert.Moments.totalSq x := by
  funext j
  obtain ⟨c, rfl⟩ : ∃ c, j = ix1 c := ⟨j 0, eq_ix1 j⟩
  exact ref_totalSq_at x c

/-- The reference's least value is the specification's. -/
theorem ref_least (x : X) : val_main_v31 (F := Ideal) x = Cert.Moments.least x := by
  funext j
  obtain ⟨c, rfl⟩ : ∃ c, j = ix1 c := ⟨j 0, eq_ix1 j⟩
  exact ref_least_at x c

/-- The reference's greatest value is the specification's. -/
theorem ref_greatest (x : X) : val_main_v33 (F := Ideal) x = Cert.Moments.greatest x := by
  funext j
  obtain ⟨c, rfl⟩ : ∃ c, j = ix1 c := ⟨j 0, eq_ix1 j⟩
  exact ref_greatest_at x c

end Cert.ReferenceIdeal.AtIdeal

end
-- ==== Proof.lean ====
/-
  The certificate: a per-channel masked running-statistics update computed by a Pallas kernel, against its jnp
  reference, over the extended reals.

  Both programs take an array x of shape batch × channel × row × column (32 × 12 × 256 × 256) and six vectors of
  twelve (the running mean, variance, deviation, count, least and greatest value). From each entry of x they form the
  shifted value x + 1000, the validity bit x + 1000 > 0 and the clipped value min 10000 (max 0 (x + 1000)); per
  channel they take, over all batch elements, rows and columns, the number of valid entries, the sum and the sum of
  squares of the clipped values of the valid entries, and the least and the greatest clipped value among the valid
  entries; and they merge these five batch moments with the running statistics by the same sequence of operations.

  The reference reduces each channel's 32·256·256 entries along one flattened axis. The kernel walks the batch in two
  halves of sixteen elements, reduces each element's columns and then rows, accumulates over the sixteen elements of a
  half in the output block of that half, and its host lines combine the two halves. Sums, infima and suprema over the
  extended reals may be regrouped and reordered freely (addition, min and max are commutative and associative there),
  and the weight of an entry is 0 or 1, so the kernel's (clipped · weight) · clipped is the reference's
  (clipped · clipped) · weight: the five moments agree, and the merge is one function applied to equal arguments.
  No finiteness of the inputs is used.

  The three frames: each kernel program is one region followed by host lines that write none of the arguments; the
  reference is a straight line of host operations. The idealization rewrote no operation, so `preserves` is trivial.
-/
import proofs.«149877_j6811818131595_1_alg».proof.Defs
import proofs.«149877_j6811818131595_1_alg».proof.Proof.Gen.Kernel
import proofs.«149877_j6811818131595_1_alg».proof.Proof.Gen.KernelIdeal
import proofs.«149877_j6811818131595_1_alg».proof.Proof.Gen.ReferenceIdeal
import proofs.«149877_j6811818131595_1_alg».proof.Proof.Gen.Pre_finite_inputs
import proofs.«149877_j6811818131595_1_alg».proof.Proof.FrameKernel
import proofs.«149877_j6811818131595_1_alg».proof.Proof.FrameKernelIdeal
import proofs.«149877_j6811818131595_1_alg».proof.Proof.KernelValue
import proofs.«149877_j6811818131595_1_alg».proof.Proof.RefEval
import proofs.«149877_j6811818131595_1_alg».proof.Proof.RefMoments
import Idealize.ShloMosaic.Adequacy
import Idealize.ShloMosaic.Init

noncomputable section

namespace Cert.Proof

open Idealize.ShloMosaic Idealize.SL.Sem

/-- The word-level kernel program runs to its end and leaves its seven arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference runs to its end and leaves its arguments as launched: its run with the result dropped. -/
theorem frame_ri : Cert.frame_ReferenceIdeal := fun m ρ _ =>
  (θ_run Cert.ReferenceIdeal.defs _ _).mono (fun _ h c => (h c).2) (Cert.ReferenceIdeal.Eval.run (F := Ideal) m ρ)

/-- The ideal pass rewrote nothing. -/
theorem preserves : Cert.preserves_Kernel_KernelIdeal := trivial

/-- From memories that agree on the arguments both idealized programs end with the merge of the same five batch
    moments with the same six small arguments. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.Eval.run (F := Ideal) m' ρ')
  rw [Cert.ReferenceIdeal.AtIdeal.ref_count, Cert.ReferenceIdeal.AtIdeal.ref_total, Cert.ReferenceIdeal.AtIdeal.ref_totalSq,
    Cert.ReferenceIdeal.AtIdeal.ref_least, Cert.ReferenceIdeal.AtIdeal.ref_greatest,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
